-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S512x11008 : Shape := ⟨2, ![512, 11008]⟩
abbrev S32x1376 : Shape := ⟨2, ![32, 1376]⟩
abbrev S32x11008 : Shape := ⟨2, ![32, 11008]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_

variable [Facts]

def fn {F : FTy → Type} [FloatOps F] (main_arg0 : FVec F S8192x4096 .f32) (main_arg1 : IVec S512x11008 32) (main_arg2 : IVec S32x1376 32) (main_arg3 : FVec F S32x11008 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  main_v8
-- ==== Kernel.lean ====
abbrev S8192x4096 : Shape := ⟨2, ![8192, 4096]⟩
abbrev S512x11008 : Shape := ⟨2, ![512, 11008]⟩
abbrev S32x1376 : Shape := ⟨2, ![32, 1376]⟩
abbrev S32x11008 : Shape := ⟨2, ![32, 11008]⟩
abbrev S8 : Shape := ⟨1, ![8]⟩
abbrev S_ : Shape := ⟨0, ![]⟩
abbrev S32x1376x1 : Shape := ⟨3, ![32, 1376, 1]⟩
abbrev S1x1x8 : Shape := ⟨3, ![1, 1, 8]⟩
abbrev S32x1376x8 : Shape := ⟨3, ![32, 1376, 8]⟩
abbrev S8192x11008 : Shape := ⟨2, ![8192, 11008]⟩
abbrev S1024x1024 : Shape := ⟨2, ![1024, 1024]⟩
abbrev S128x512 : Shape := ⟨2, ![128, 512]⟩
abbrev S8x512 : Shape := ⟨2, ![8, 512]⟩
abbrev S1024x512 : Shape := ⟨2, ![1024, 512]⟩
abbrev S4096x512 : Shape := ⟨2, ![4096, 512]⟩
abbrev S1x8 : Shape := ⟨2, ![1, 8]⟩
abbrev S128x1x512 : Shape := ⟨3, ![128, 1, 512]⟩
abbrev S1x8x1 : Shape := ⟨3, ![1, 8, 1]⟩
abbrev S128x8x512 : Shape := ⟨3, ![128, 8, 512]⟩
abbrev S8x1x512 : Shape := ⟨3, ![8, 1, 512]⟩
abbrev S8x128x512 : Shape := ⟨3, ![8, 128, 512]⟩

abbrev nBuf : Space → Nat
  | .hbm => 23
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S32x1376x1, .i32⟩
  | .hbm, ⟨9, _⟩ => ⟨S1x1x8, .i32⟩
  | .hbm, ⟨10, _⟩ => ⟨S32x1376x8, .i32⟩
  | .hbm, ⟨11, _⟩ => ⟨S32x1376x8, .i32⟩
  | .hbm, ⟨12, _⟩ => ⟨S32x1376x8, .i32⟩
  | .hbm, ⟨13, _⟩ => ⟨S_, .i32⟩
  | .hbm, ⟨14, _⟩ => ⟨S32x1376x8, .i32⟩
  | .hbm, ⟨15, _⟩ => ⟨S32x1376x8, .i32⟩
  | .hbm, ⟨16, _⟩ => ⟨S32x11008, .i32⟩
  | .hbm, ⟨17, _⟩ => ⟨S32x11008, .f32⟩
  | .hbm, ⟨18, _⟩ => ⟨S_, .f32⟩
  | .hbm, ⟨19, _⟩ => ⟨S32x11008, .f32⟩
  | .hbm, ⟨20, _⟩ => ⟨S32x11008, .f32⟩
  | .hbm, ⟨21, _⟩ => ⟨S8192x4096, .bf16⟩
  | .hbm, ⟨22, _⟩ => ⟨S8192x11008, .f32⟩
  | .local _ .vmem, ⟨0, _⟩ => ⟨S1024x1024, .bf16⟩
  | .local _ .vmem, ⟨1, _⟩ => ⟨S1024x1024, .bf16⟩
  | .local _ .vmem, ⟨2, _⟩ => ⟨S128x512, .i32⟩
  | .local _ .vmem, ⟨3, _⟩ => ⟨S128x512, .i32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S4096x512, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![22, 8, 4], ![false, false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_mult1 (i : grid0.Coords) : BitVec 32 :=
  let arg2 : BitVec 32 := BitVec.ofNat 32 (i 2).val
  let c1024_i32_16 : BitVec 32 := 1024#32
  let v48 : BitVec 32 := Scalar.muli arg2 c1024_i32_16
  v48
def k0_off1 (i : grid0.Coords) : Fin 2 → Nat :=
  let arg2 : BitVec 32 := BitVec.ofNat 32 (i 2).val
  let c1024_i32_16 : BitVec 32 := 1024#32
  let v48 : BitVec 32 := Scalar.muli arg2 c1024_i32_16
  let v49 : BitVec 32 := v48
  let v51 : Index := Scalar.indexCast v49
  let c0_17 : Index := 0#32
  ![v51.toNat, 0]
def k0_mult2 (i : grid0.Coords) : BitVec 32 :=
  let arg2 : BitVec 32 := BitVec.ofNat 32 (i 2).val
  let c1024_i32 : BitVec 32 := 1024#32
  let v6 : BitVec 32 := Scalar.muli arg2 c1024_i32
  v6
def k0_off2 (i : grid0.Coords) : Fin 2 → Nat :=
  let arg2 : BitVec 32 := BitVec.ofNat 32 (i 2).val
  let c1024_i32 : BitVec 32 := 1024#32
  let v6 : BitVec 32 := Scalar.muli arg2 c1024_i32
  let v7 : BitVec 32 := v6
  let v8 : Index := Scalar.indexCast v7
  let c0 : Index := 0#32
  ![v8.toNat, 0]
def k0_cond3 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S_S8 : S_.BroadcastsInDim S8 (![] : Fin 0 → Fin S8.rank)
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S_S32x11008 : S_.BroadcastsInDim S32x11008 (![] : Fin 0 → Fin S32x11008.rank)
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S128x512_S128x512_0_0 : ∀ a, (![0, 0] : Fin 2 → Nat) a + S128x512.size a ≤ S128x512.size a
  h_S128x512 : 0 < S128x512.numel
  iota_S1x8_d1_w32 : S1x8.Iotas .tc 32 [1]
  shapeCasts_S1x8_S8 : S1x8.ShapeCasts S8
  shapeCasts_S128x512_S128x1x512 : S128x512.ShapeCasts S128x1x512
  shapeCasts_S8_S1x8x1 : S8.ShapeCasts S1x8x1
  broadcasts_S128x1x512_S128x8x512 : S128x1x512.Broadcasts S128x8x512
  broadcasts_S1x8x1_S128x8x512 : S1x8x1.Broadcasts S128x8x512
  shapeCasts_S128x8x512_S1024x512 : S128x8x512.ShapeCasts S1024x512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  shapeCasts_S8x512_S8x1x512 : S8x512.ShapeCasts S8x1x512
  shapeCasts_S8x1x512_S8x1x512 : S8x1x512.ShapeCasts S8x1x512
  broadcasts_S8x1x512_S8x128x512 : S8x1x512.Broadcasts S8x128x512
  shapeCasts_S8x128x512_S1024x512 : S8x128x512.ShapeCasts S1024x512
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x1024_S1024x512_S1024x512_1_0_0_1_n_n_wf : DotDims.WF S1024x1024 S1024x512 S1024x512 [1] [0] [0] [1] [] []
  hrank0 : 0 < grid0.rank
  k0_mult1_dvd : ∀ i : grid0.Coords, ∀ (k0_h2 : k0_cond2 i = 1#1), 1024 ∣ (k0_mult1 i).toNat
  k0_off1_inb : ∀ i : grid0.Coords, ∀ (k0_h2 : k0_cond2 i = 1#1), ∀ a, (k0_off1 i) a + S1024x512.size a ≤ S4096x512.size a
  k0_off1_packedbf16 : ∀ i : grid0.Coords, ∀ (k0_h2 : k0_cond2 i = 1#1), (Rect.unit (s := S4096x512) (k0_off1 i) S1024x512.size (k0_off1_inb i k0_h2)).PackedRows (EltTy.packing .bf16)
  k0_mult2_dvd : ∀ i : grid0.Coords, 1024 ∣ (k0_mult2 i).toNat
  k0_off2_inb : ∀ i : grid0.Coords, ∀ a, (k0_off2 i) a + S1024x512.size a ≤ S4096x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S128x512.size a < S512x11008.size a
  hwx0_1 : ∀ i : grid0.Coords, EltTy.bits .i32 = 32 ∨ (Rect.unit (s := S512x11008) (fun a => cc0_transform_1 i a * S128x512.size a) (fun a => (Pipeline.Clip.of (cc0_transform_1 i a) (S128x512.size a) (S512x11008.size a)).extent (S128x512.size a)) fun a => Pipeline.Clip.inb (Pipeline.Clip.ok_of (hstart0_1 i a))).WholeWords (EltTy.packing .i32)
  hwxs0_1 : ∀ i : grid0.Coords, EltTy.bits .i32 = 32 ∨ (Rect.unit (s := S128x512) (fun _ => 0) (fun a => (Pipeline.Clip.of (cc0_transform_1 i a) (S128x512.size a) (S512x11008.size a)).extent (S128x512.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8x512.size a < S32x11008.size a
  hwx0_2 : ∀ i : grid0.Coords, EltTy.bits .f32 = 32 ∨ (Rect.unit (s := S32x11008) (fun a => cc0_transform_2 i a * S8x512.size a) (fun a => (Pipeline.Clip.of (cc0_transform_2 i a) (S8x512.size a) (S32x11008.size a)).extent (S8x512.size a)) fun a => Pipeline.Clip.inb (Pipeline.Clip.ok_of (hstart0_2 i a))).WholeWords (EltTy.packing .f32)
  hwxs0_2 : ∀ i : grid0.Coords, EltTy.bits .f32 = 32 ∨ (Rect.unit (s := S8x512) (fun _ => 0) (fun a => (Pipeline.Clip.of (cc0_transform_2 i a) (S8x512.size a) (S32x11008.size a)).extent (S8x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S8x512.size a < S32x11008.size a
  hwx0_3 : ∀ i : grid0.Coords, EltTy.bits .f32 = 32 ∨ (Rect.unit (s := S32x11008) (fun a => cc0_transform_3 i a * S8x512.size a) (fun a => (Pipeline.Clip.of (cc0_transform_3 i a) (S8x512.size a) (S32x11008.size a)).extent (S8x512.size a)) fun a => Pipeline.Clip.inb (Pipeline.Clip.ok_of (hstart0_3 i a))).WholeWords (EltTy.packing .f32)
  hwxs0_3 : ∀ i : grid0.Coords, EltTy.bits .f32 = 32 ∨ (Rect.unit (s := S8x512) (fun _ => 0) (fun a => (Pipeline.Clip.of (cc0_transform_3 i a) (S8x512.size a) (S32x11008.size a)).extent (S8x512.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1024x512.size a < S8192x11008.size a
  hwx0_4 : ∀ i : grid0.Coords, EltTy.bits .f32 = 32 ∨ (Rect.unit (s := S8192x11008) (fun a => cc0_transform_4 i a * S1024x512.size a) (fun a => (Pipeline.Clip.of (cc0_transform_4 i a) (S1024x512.size a) (S8192x11008.size a)).extent (S1024x512.size a)) fun a => Pipeline.Clip.inb (Pipeline.Clip.ok_of (hstart0_4 i a))).WholeWords (EltTy.packing .f32)
  hwxs0_4 : ∀ i : grid0.Coords, EltTy.bits .f32 = 32 ∨ (Rect.unit (s := S1024x512) (fun _ => 0) (fun a => (Pipeline.Clip.of (cc0_transform_4 i a) (S1024x512.size a) (S8192x11008.size a)).extent (S1024x512.size a)) fun a => (Nat.zero_add _).trans_le (Pipeline.Clip.extent_le (Pipeline.Clip.ok_of (hstart0_4 i a)))).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_v14) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S128x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v13) S8x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg3) S8x512.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v15) S1024x512.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S512x11008 : Shape := ⟨2, ![512, 11008]⟩
abbrev S32x1376 : Shape := ⟨2, ![32, 1376]⟩
abbrev S32x11008 : Shape := ⟨2, ![32, 11008]⟩
abbrev S8 : Shape := ⟨1, ![8]⟩
abbrev S_ : Shape := ⟨0, ![]⟩
abbrev S512x1x11008 : Shape := ⟨3, ![512, 1, 11008]⟩
abbrev S1x8x1 : Shape := ⟨3, ![1, 8, 1]⟩
abbrev S512x8x11008 : Shape := ⟨3, ![512, 8, 11008]⟩
abbrev S4096x11008 : Shape := ⟨2, ![4096, 11008]⟩
abbrev S32x1376x1 : Shape := ⟨3, ![32, 1376, 1]⟩
abbrev S1x1x8 : Shape := ⟨3, ![1, 1, 8]⟩
abbrev S32x1376x8 : Shape := ⟨3, ![32, 1376, 8]⟩
abbrev S32x128x11008 : Shape := ⟨3, ![32, 128, 11008]⟩
abbrev S8192x11008 : Shape := ⟨2, ![8192, 11008]⟩

abbrev nBuf : Space → Nat
  | .hbm => 38
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S512x1x11008, .i32⟩
  | .hbm, ⟨9, _⟩ => ⟨S1x8x1, .i32⟩
  | .hbm, ⟨10, _⟩ => ⟨S512x8x11008, .i32⟩
  | .hbm, ⟨11, _⟩ => ⟨S512x8x11008, .i32⟩
  | .hbm, ⟨12, _⟩ => ⟨S512x8x11008, .i32⟩
  | .hbm, ⟨13, _⟩ => ⟨S_, .i32⟩
  | .hbm, ⟨14, _⟩ => ⟨S512x8x11008, .i32⟩
  | .hbm, ⟨15, _⟩ => ⟨S512x8x11008, .i32⟩
  | .hbm, ⟨16, _⟩ => ⟨S4096x11008, .i32⟩
  | .hbm, ⟨17, _⟩ => ⟨S4096x11008, .f32⟩
  | .hbm, ⟨18, _⟩ => ⟨S32x1376x1, .i32⟩
  | .hbm, ⟨19, _⟩ => ⟨S1x1x8, .i32⟩
  | .hbm, ⟨20, _⟩ => ⟨S32x1376x8, .i32⟩
  | .hbm, ⟨21, _⟩ => ⟨S32x1376x8, .i32⟩
  | .hbm, ⟨22, _⟩ => ⟨S32x1376x8, .i32⟩
  | .hbm, ⟨23, _⟩ => ⟨S_, .i32⟩
  | .hbm, ⟨24, _⟩ => ⟨S32x1376x8, .i32⟩
  | .hbm, ⟨25, _⟩ => ⟨S32x1376x8, .i32⟩
  | .hbm, ⟨26, _⟩ => ⟨S32x11008, .i32⟩
  | .hbm, ⟨27, _⟩ => ⟨S32x11008, .f32⟩
  | .hbm, ⟨28, _⟩ => ⟨S_, .f32⟩
  | .hbm, ⟨29, _⟩ => ⟨S32x11008, .f32⟩
  | .hbm, ⟨30, _⟩ => ⟨S32x11008, .f32⟩
  | .hbm, ⟨31, _⟩ => ⟨S32x128x11008, .f32⟩
  | .hbm, ⟨32, _⟩ => ⟨S4096x11008, .f32⟩
  | .hbm, ⟨33, _⟩ => ⟨S32x128x11008, .f32⟩
  | .hbm, ⟨34, _⟩ => ⟨S4096x11008, .f32⟩
  | .hbm, ⟨35, _⟩ => ⟨S4096x11008, .f32⟩
  | .hbm, ⟨36, _⟩ => ⟨S4096x11008, .f32⟩
  | .hbm, ⟨37, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x11008_S512x1x11008_0_2 : S512x11008.BroadcastsInDim S512x1x11008 (![0, 2] : Fin 2 → Fin S512x1x11008.rank)
  bcast_S8_S1x8x1_1 : S8.BroadcastsInDim S1x8x1 (![1] : Fin 1 → Fin S1x8x1.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S4096x11008 : S512x8x11008.ShapeCasts S4096x11008
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S_S32x11008 : S_.BroadcastsInDim S32x11008 (![] : Fin 0 → Fin S32x11008.rank)
  bcast_S32x11008_S32x128x11008_0_2 : S32x11008.BroadcastsInDim S32x128x11008 (![0, 2] : Fin 2 → Fin S32x128x11008.rank)
  shapeCasts_S32x128x11008_S4096x11008 : S32x128x11008.ShapeCasts S4096x11008
  dot_S8192x4096_S4096x11008_S8192x11008_1_0_0_1_n_n_wf : DotDims.WF S8192x4096 S4096x11008 S8192x11008 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf

class Facts : Prop extends Facts₀ where

variable [Facts]
-- ==== Proof.RunsBitsBase.lean ====
/-
  The kernel body run on whole staging and scratch memrefs, once for each way its three conditions fall.

  The body resets the accumulator when the feature-tile coordinate is 0, fills one 1024-row band of the weight cache
  from the packed tile when the row-tile coordinate is 0, adds the product of the input tile with that band of the
  cache to the accumulator, and copies the accumulator to the output tile when the feature-tile coordinate is 3.
  Each run states what the body is handed (the four input tiles, the output tile, the accumulator and the cache at
  named contents) and hands every buffer back: the inputs as they were, the other three with the stores the body
  made written over what they held (the lists of stores are the witnesses the run finds).
-/
import proofs.«424847_j52561809769198_2_alg».proof.Proof.Gen.Kernel.Frame
import proofs.«424847_j52561809769198_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's first condition (the feature-tile coordinate is 0), as the kernel computes it. -/
abbrev cond1 (i : grid0.Coords) : Prop := (Scalar.cmpi .ne (Scalar.extui (Scalar.cmpi .eq (BitVec.ofNat 32 (i 2).val) 0#32)) 0#32) = 1#1

/-! ## The three conditions over the grid, in closed form

Position `t` of the 22 × 8 × 4 grid (row-major) has feature-tile coordinate `t % 4` and row-tile coordinate `t / 4 % 8`. -/

theorem hcond1 : ∀ t : Fin cfg0.N, cond1 (grid0.coords t) ↔ t.val % 4 = 0 :=
  (by decide +kernel : ∀ t : Fin grid0.N, cond1 (grid0.coords t) ↔ t.val % 4 = 0)
theorem hcond2 : ∀ t : Fin cfg0.N, k0_cond2 (grid0.coords t) = 1#1 ↔ t.val / 4 % 8 = 0 :=
  (by decide +kernel : ∀ t : Fin grid0.N, k0_cond2 (grid0.coords t) = 1#1 ↔ t.val / 4 % 8 = 0)
theorem hcond3 : ∀ t : Fin cfg0.N, k0_cond3 (grid0.coords t) = 1#1 ↔ t.val % 4 = 3 :=
  (by decide +kernel : ∀ t : Fin grid0.N, k0_cond3 (grid0.coords t) = 1#1 ↔ t.val % 4 = 3)

end Cert.Kernel.Body

end
-- ==== Proof.RunsBitsA.lean ====
/-
  The kernel body run on whole staging and scratch memrefs, once for each way its three conditions fall.

  The body resets the accumulator when the feature-tile coordinate is 0, fills one 1024-row band of the weight cache
  from the packed tile when the row-tile coordinate is 0, adds the product of the input tile with that band of the
  cache to the accumulator, and copies the accumulator to the output tile when the feature-tile coordinate is 3.
  Each run states what the body is handed (the four input tiles, the output tile, the accumulator and the cache at
  named contents) and hands every buffer back: the inputs as they were, the other three with the stores the body
  made written over what they held (the lists of stores are the witnesses the run finds).
-/
import proofs.«424847_j52561809769198_2_alg».proof.Proof.RunsBitsBase

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- Feature tile 0 of the first row tile: reset, fill the band, accumulate. -/
noncomputable def runA (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S8x512 .f32) (harg6 : arg6.IsWhole)
    (arg7 : Memref sig .tc .vmem S1024x512 .f32) (harg7 : arg7.IsWhole) (arg8 : Memref sig .tc .vmem S1024x512 .f32) (harg8 : arg8.IsWhole)
    (arg9 : Memref sig .tc .vmem S4096x512 .bf16) (harg9 : arg9.IsWhole)
    (hc1 : cond1 i) (hc2 : k0_cond2 i = 1#1) (hc3 : ¬k0_cond3 i = 1#1)
    (x0 : Vec F S1024x1024 .bf16) (x1 : Vec F S128x512 .i32) (x2 x3 : Vec F S8x512 .f32)
    (xs8 : Vec F S1024x512 .f32) (xs9 : Vec F S4096x512 .bf16) :
    Σ' (L7 : List (View.Piece (Elt F) S1024x512 .f32)) (L8 : List (View.Piece (Elt F) S1024x512 .f32)), { L9 : List (View.Piece (Elt F) S4096x512 .bf16) //
      ∀ (xi7 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xi7
            ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (arg7.view.loc (c : Thread nD τ) ↦[arg7.view.set]{fullShare} arg7.view.writes (Elt F) (harg7.unread xi7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc0__matmul_kernel i arg3 harg3 arg4 harg4 arg5 harg5 arg6 harg6 arg7 harg7 arg8 harg8 arg9 harg9) K } := by
  refine ⟨[], ?_, ?_, fun xi7 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg6.eq_unread hf3; obtain rfl := harg7.eq_unread hf7; obtain rfl := harg8.eq_unread hf8
    obtain rfl := harg9.eq_unread hf9
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexact H7
    isplitl [H8]
    · iexact H8
    iexact H9

end Cert.Kernel.Body

end
-- ==== Proof.RunsBitsB.lean ====
/-
  The kernel body run on whole staging and scratch memrefs, once for each way its three conditions fall.

  The body resets the accumulator when the feature-tile coordinate is 0, fills one 1024-row band of the weight cache
  from the packed tile when the row-tile coordinate is 0, adds the product of the input tile with that band of the
  cache to the accumulator, and copies the accumulator to the output tile when the feature-tile coordinate is 3.
  Each run states what the body is handed (the four input tiles, the output tile, the accumulator and the cache at
  named contents) and hands every buffer back: the inputs as they were, the other three with the stores the body
  made written over what they held (the lists of stores are the witnesses the run finds).
-/
import proofs.«424847_j52561809769198_2_alg».proof.Proof.RunsBitsBase

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- Feature tile 0 of a later row tile: reset, accumulate from the cached band. -/
noncomputable def runB (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S8x512 .f32) (harg6 : arg6.IsWhole)
    (arg7 : Memref sig .tc .vmem S1024x512 .f32) (harg7 : arg7.IsWhole) (arg8 : Memref sig .tc .vmem S1024x512 .f32) (harg8 : arg8.IsWhole)
    (arg9 : Memref sig .tc .vmem S4096x512 .bf16) (harg9 : arg9.IsWhole)
    (hc1 : cond1 i) (hc2 : ¬k0_cond2 i = 1#1) (hc3 : ¬k0_cond3 i = 1#1)
    (x0 : Vec F S1024x1024 .bf16) (x1 : Vec F S128x512 .i32) (x2 x3 : Vec F S8x512 .f32)
    (xs8 : Vec F S1024x512 .f32) (xs9 : Vec F S4096x512 .bf16) :
    Σ' (L7 : List (View.Piece (Elt F) S1024x512 .f32)) (L8 : List (View.Piece (Elt F) S1024x512 .f32)), { L9 : List (View.Piece (Elt F) S4096x512 .bf16) //
      ∀ (xi7 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xi7
            ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (arg7.view.loc (c : Thread nD τ) ↦[arg7.view.set]{fullShare} arg7.view.writes (Elt F) (harg7.unread xi7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc0__matmul_kernel i arg3 harg3 arg4 harg4 arg5 harg5 arg6 harg6 arg7 harg7 arg8 harg8 arg9 harg9) K } := by
  refine ⟨[], ?_, [], fun xi7 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg6.eq_unread hf3; obtain rfl := harg7.eq_unread hf7; obtain rfl := harg8.eq_unread hf8
    obtain rfl := harg9.eq_unread hf9
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexact H7
    isplitl [H8]
    · iexact H8
    iexact H9

end Cert.Kernel.Body

end
-- ==== Proof.RunsBitsC.lean ====
/-
  The kernel body run on whole staging and scratch memrefs, once for each way its three conditions fall.

  The body resets the accumulator when the feature-tile coordinate is 0, fills one 1024-row band of the weight cache
  from the packed tile when the row-tile coordinate is 0, adds the product of the input tile with that band of the
  cache to the accumulator, and copies the accumulator to the output tile when the feature-tile coordinate is 3.
  Each run states what the body is handed (the four input tiles, the output tile, the accumulator and the cache at
  named contents) and hands every buffer back: the inputs as they were, the other three with the stores the body
  made written over what they held (the lists of stores are the witnesses the run finds).
-/
import proofs.«424847_j52561809769198_2_alg».proof.Proof.RunsBitsBase

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- A middle feature tile of the first row tile: fill the band, accumulate. -/
noncomputable def runC (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S8x512 .f32) (harg6 : arg6.IsWhole)
    (arg7 : Memref sig .tc .vmem S1024x512 .f32) (harg7 : arg7.IsWhole) (arg8 : Memref sig .tc .vmem S1024x512 .f32) (harg8 : arg8.IsWhole)
    (arg9 : Memref sig .tc .vmem S4096x512 .bf16) (harg9 : arg9.IsWhole)
    (hc1 : ¬cond1 i) (hc2 : k0_cond2 i = 1#1) (hc3 : ¬k0_cond3 i = 1#1)
    (x0 : Vec F S1024x1024 .bf16) (x1 : Vec F S128x512 .i32) (x2 x3 : Vec F S8x512 .f32)
    (xs8 : Vec F S1024x512 .f32) (xs9 : Vec F S4096x512 .bf16) :
    Σ' (L7 : List (View.Piece (Elt F) S1024x512 .f32)) (L8 : List (View.Piece (Elt F) S1024x512 .f32)), { L9 : List (View.Piece (Elt F) S4096x512 .bf16) //
      ∀ (xi7 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xi7
            ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (arg7.view.loc (c : Thread nD τ) ↦[arg7.view.set]{fullShare} arg7.view.writes (Elt F) (harg7.unread xi7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc0__matmul_kernel i arg3 harg3 arg4 harg4 arg5 harg5 arg6 harg6 arg7 harg7 arg8 harg8 arg9 harg9) K } := by
  refine ⟨[], ?_, ?_, fun xi7 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg6.eq_unread hf3; obtain rfl := harg7.eq_unread hf7; obtain rfl := harg8.eq_unread hf8
    obtain rfl := harg9.eq_unread hf9
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexact H7
    isplitl [H8]
    · iexact H8
    iexact H9

end Cert.Kernel.Body

end
-- ==== Proof.RunsBitsD.lean ====
/-
  The kernel body run on whole staging and scratch memrefs, once for each way its three conditions fall.

  The body resets the accumulator when the feature-tile coordinate is 0, fills one 1024-row band of the weight cache
  from the packed tile when the row-tile coordinate is 0, adds the product of the input tile with that band of the
  cache to the accumulator, and copies the accumulator to the output tile when the feature-tile coordinate is 3.
  Each run states what the body is handed (the four input tiles, the output tile, the accumulator and the cache at
  named contents) and hands every buffer back: the inputs as they were, the other three with the stores the body
  made written over what they held (the lists of stores are the witnesses the run finds).
-/
import proofs.«424847_j52561809769198_2_alg».proof.Proof.RunsBitsBase

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- A middle feature tile of a later row tile: accumulate from the cached band. -/
noncomputable def runD (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S8x512 .f32) (harg6 : arg6.IsWhole)
    (arg7 : Memref sig .tc .vmem S1024x512 .f32) (harg7 : arg7.IsWhole) (arg8 : Memref sig .tc .vmem S1024x512 .f32) (harg8 : arg8.IsWhole)
    (arg9 : Memref sig .tc .vmem S4096x512 .bf16) (harg9 : arg9.IsWhole)
    (hc1 : ¬cond1 i) (hc2 : ¬k0_cond2 i = 1#1) (hc3 : ¬k0_cond3 i = 1#1)
    (x0 : Vec F S1024x1024 .bf16) (x1 : Vec F S128x512 .i32) (x2 x3 : Vec F S8x512 .f32)
    (xs8 : Vec F S1024x512 .f32) (xs9 : Vec F S4096x512 .bf16) :
    Σ' (L7 : List (View.Piece (Elt F) S1024x512 .f32)) (L8 : List (View.Piece (Elt F) S1024x512 .f32)), { L9 : List (View.Piece (Elt F) S4096x512 .bf16) //
      ∀ (xi7 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xi7
            ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (arg7.view.loc (c : Thread nD τ) ↦[arg7.view.set]{fullShare} arg7.view.writes (Elt F) (harg7.unread xi7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc0__matmul_kernel i arg3 harg3 arg4 harg4 arg5 harg5 arg6 harg6 arg7 harg7 arg8 harg8 arg9 harg9) K } := by
  refine ⟨[], ?_, [], fun xi7 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg6.eq_unread hf3; obtain rfl := harg7.eq_unread hf7; obtain rfl := harg8.eq_unread hf8
    obtain rfl := harg9.eq_unread hf9
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexact H7
    isplitl [H8]
    · iexact H8
    iexact H9

end Cert.Kernel.Body

end
-- ==== Proof.RunsBitsE.lean ====
/-
  The kernel body run on whole staging and scratch memrefs, once for each way its three conditions fall.

  The body resets the accumulator when the feature-tile coordinate is 0, fills one 1024-row band of the weight cache
  from the packed tile when the row-tile coordinate is 0, adds the product of the input tile with that band of the
  cache to the accumulator, and copies the accumulator to the output tile when the feature-tile coordinate is 3.
  Each run states what the body is handed (the four input tiles, the output tile, the accumulator and the cache at
  named contents) and hands every buffer back: the inputs as they were, the other three with the stores the body
  made written over what they held (the lists of stores are the witnesses the run finds).
-/
import proofs.«424847_j52561809769198_2_alg».proof.Proof.RunsBitsBase

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The last feature tile of the first row tile: fill the band, accumulate, copy out. -/
noncomputable def runE (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S8x512 .f32) (harg6 : arg6.IsWhole)
    (arg7 : Memref sig .tc .vmem S1024x512 .f32) (harg7 : arg7.IsWhole) (arg8 : Memref sig .tc .vmem S1024x512 .f32) (harg8 : arg8.IsWhole)
    (arg9 : Memref sig .tc .vmem S4096x512 .bf16) (harg9 : arg9.IsWhole)
    (hc1 : ¬cond1 i) (hc2 : k0_cond2 i = 1#1) (hc3 : k0_cond3 i = 1#1)
    (x0 : Vec F S1024x1024 .bf16) (x1 : Vec F S128x512 .i32) (x2 x3 : Vec F S8x512 .f32)
    (xs8 : Vec F S1024x512 .f32) (xs9 : Vec F S4096x512 .bf16) :
    Σ' (L7 : List (View.Piece (Elt F) S1024x512 .f32)) (L8 : List (View.Piece (Elt F) S1024x512 .f32)), { L9 : List (View.Piece (Elt F) S4096x512 .bf16) //
      ∀ (xi7 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xi7
            ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (arg7.view.loc (c : Thread nD τ) ↦[arg7.view.set]{fullShare} arg7.view.writes (Elt F) (harg7.unread xi7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc0__matmul_kernel i arg3 harg3 arg4 harg4 arg5 harg5 arg6 harg6 arg7 harg7 arg8 harg8 arg9 harg9) K } := by
  refine ⟨?_, ?_, ?_, fun xi7 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg6.eq_unread hf3; obtain rfl := harg7.eq_unread hf7; obtain rfl := harg8.eq_unread hf8
    obtain rfl := harg9.eq_unread hf9
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexact H7
    isplitl [H8]
    · iexact H8
    iexact H9

end Cert.Kernel.Body

end
-- ==== Proof.RunsBitsF.lean ====
/-
  The kernel body run on whole staging and scratch memrefs, once for each way its three conditions fall.

  The body resets the accumulator when the feature-tile coordinate is 0, fills one 1024-row band of the weight cache
  from the packed tile when the row-tile coordinate is 0, adds the product of the input tile with that band of the
  cache to the accumulator, and copies the accumulator to the output tile when the feature-tile coordinate is 3.
  Each run states what the body is handed (the four input tiles, the output tile, the accumulator and the cache at
  named contents) and hands every buffer back: the inputs as they were, the other three with the stores the body
  made written over what they held (the lists of stores are the witnesses the run finds).
-/
import proofs.«424847_j52561809769198_2_alg».proof.Proof.RunsBitsBase

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The last feature tile of a later row tile: accumulate from the cached band, copy out. -/
noncomputable def runF (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S8x512 .f32) (harg6 : arg6.IsWhole)
    (arg7 : Memref sig .tc .vmem S1024x512 .f32) (harg7 : arg7.IsWhole) (arg8 : Memref sig .tc .vmem S1024x512 .f32) (harg8 : arg8.IsWhole)
    (arg9 : Memref sig .tc .vmem S4096x512 .bf16) (harg9 : arg9.IsWhole)
    (hc1 : ¬cond1 i) (hc2 : ¬k0_cond2 i = 1#1) (hc3 : k0_cond3 i = 1#1)
    (x0 : Vec F S1024x1024 .bf16) (x1 : Vec F S128x512 .i32) (x2 x3 : Vec F S8x512 .f32)
    (xs8 : Vec F S1024x512 .f32) (xs9 : Vec F S4096x512 .bf16) :
    Σ' (L7 : List (View.Piece (Elt F) S1024x512 .f32)) (L8 : List (View.Piece (Elt F) S1024x512 .f32)), { L9 : List (View.Piece (Elt F) S4096x512 .bf16) //
      ∀ (xi7 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xi7
            ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (arg7.view.loc (c : Thread nD τ) ↦[arg7.view.set]{fullShare} arg7.view.writes (Elt F) (harg7.unread xi7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc0__matmul_kernel i arg3 harg3 arg4 harg4 arg5 harg5 arg6 harg6 arg7 harg7 arg8 harg8 arg9 harg9) K } := by
  refine ⟨?_, ?_, [], fun xi7 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg6.eq_unread hf3; obtain rfl := harg7.eq_unread hf7; obtain rfl := harg8.eq_unread hf8
    obtain rfl := harg9.eq_unread hf9
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexact H7
    isplitl [H8]
    · iexact H8
    iexact H9

end Cert.Kernel.Body

end
-- ==== Proof.RunsBits.lean ====
/-
  The kernel body run on whole staging and scratch memrefs, once for each way its three conditions fall.

  The body resets the accumulator when the feature-tile coordinate is 0, fills one 1024-row band of the weight cache
  from the packed tile when the row-tile coordinate is 0, adds the product of the input tile with that band of the
  cache to the accumulator, and copies the accumulator to the output tile when the feature-tile coordinate is 3.
  Each run states what the body is handed (the four input tiles, the output tile, the accumulator and the cache at
  named contents) and hands every buffer back: the inputs as they were, the other three with the stores the body
  made written over what they held (the lists of stores are the witnesses the run finds).
-/
import proofs.«424847_j52561809769198_2_alg».proof.Proof.RunsBitsA
import proofs.«424847_j52561809769198_2_alg».proof.Proof.RunsBitsB
import proofs.«424847_j52561809769198_2_alg».proof.Proof.RunsBitsC
import proofs.«424847_j52561809769198_2_alg».proof.Proof.RunsBitsD
import proofs.«424847_j52561809769198_2_alg».proof.Proof.RunsBitsE
import proofs.«424847_j52561809769198_2_alg».proof.Proof.RunsBitsF

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

end Cert.Kernel.Body

end
-- ==== Proof.FrameBits.lean ====
/-
  The frame of the word-level program: it terminates, faults nowhere, and leaves its four argument arrays as they were.

  The kernel region is run point by point. Before the body at a point the four input tiles hold the blocks the
  fetches read (the input tile whole; the packed weights, zero points and scales on the part of the tile inside the
  array, anything past the array's end); the output tile, the accumulator and the weight cache hold contents the
  proof does not name. The body hands every input tile back as it found it, and the other three at contents again
  not named: a frame says nothing of them. The two arrays the region does not stage are untouched; the two it
  stages as inputs are never written back, so they end holding what the region found, which is what was launched.
-/
import proofs.«424847_j52561809769198_2_alg».proof.Proof.RunsBits
import Idealize.ShloMosaic.Lib.Pipeline.Frame
import Idealize.ShloMosaic.Lib.Pipeline.FrameBody
import Idealize.ShloMosaic.Lib.Pipeline.Kit
import Idealize.ShloMosaic.Lib.Tactic

set_option maxRecDepth 16384

noncomputable section

namespace Cert.Kernel.Hand

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The output window is forgotten: a frame says nothing of what the body leaves in it. -/
def fgt : Fin cfg0.W → Bool :=
  fun | 0 => false | 1 => false | 2 => false | 3 => false | 4 => true | ⟨_ + 5, h⟩ => absurd h (Nat.not_lt.2 (Nat.le_add_left _ _))

/-- The proof data of the one pipeline on core c: the arrays as the region finds them; after the body each input
    tile at its block (past the array's end a filler nothing reads), the output tile at a filler nothing reads; the
    invariant the scratch buffers at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => 0#32) (iblk m c 1 t)
    | ⟨2, _⟩ => win0_2.fill (grid0.coords t) (fun _ => Scalar.ofBits .f32 0#32) (iblk m c 2 t)
    | ⟨3, _⟩ => win0_3.fill (grid0.coords t) (fun _ => Scalar.ofBits .f32 0#32) (iblk m c 3 t)
    | ⟨4, _⟩ => fun _ => Scalar.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) :
    (dats m 0 c).after 1 t = win0_1.fill (grid0.coords t) (fun _ => 0#32) (iblk m c 1 t) := by dsimp only [dats]
theorem after0_2 (c : Dev nD) (t : Fin cfg0.N) :
    (dats m 0 c).after 2 t = win0_2.fill (grid0.coords t) (fun _ => Scalar.ofBits .f32 0#32) (iblk m c 2 t) := by dsimp only [dats]
theorem after0_3 (c : Dev nD) (t : Fin cfg0.N) :
    (dats m 0 c).after 3 t = win0_3.fill (grid0.coords t) (fun _ => Scalar.ofBits .f32 0#32) (iblk m c 3 t) := by dsimp only [dats]

/-- The input tile holds its block at every point. -/
theorem before0_0 (c : Dev nD) (t : Fin cfg0.N) (d) : (dats m 0 c).before 0 t d = iblk m c 0 t :=
  before0_0_of m (dats m 0 c) (A_eq m c 0) (after0_0 m c) t d

/-- The packed-weight tile, fetched at every point, holds its block on the part inside the array. -/
theorem before0_1 (c : Dev nD) (t : Fin cfg0.N) (d) :
    (dats m 0 c).before 1 t d = win0_1.fill (grid0.coords t) d (iblk m c 1 t) := by
  unfold Dat.before; rw [if_pos (fetch0_1 t)]; rfl
/-- So does the zero-point tile, -/
theorem before0_2 (c : Dev nD) (t : Fin cfg0.N) (d) :
    (dats m 0 c).before 2 t d = win0_2.fill (grid0.coords t) d (iblk m c 2 t) := by
  unfold Dat.before; rw [if_pos (fetch0_2 t)]; rfl
/-- and the scale tile. -/
theorem before0_3 (c : Dev nD) (t : Fin cfg0.N) (d) :
    (dats m 0 c).before 3 t d = win0_3.fill (grid0.coords t) d (iblk m c 3 t) := by
  unfold Dat.before; rw [if_pos (fetch0_3 t)]; rfl

/-! ## The memrefs the body is called with -/

/-- Each window's current staging memref at point t, as the pipeline passes it, and its wholeness. -/
abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x512 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x512 .f32 := win0_4.stage (cfg0.slots t 4)
abbrev hs4 (t : Fin cfg0.N) : (ms4 t).IsWhole := hstage0_4 ((cfg0.slots t 4).cast nbuf0_4)
/-- The accumulator and the weight cache: whole scoped buffers of the kernel's own. -/
abbrev sc8 : Memref sig .tc .vmem S1024x512 .f32 := Memref.whole cc0_scratch0
abbrev sc9 : Memref sig .tc .vmem S4096x512 .bf16 := Memref.whole cc0_scratch1

/-- The region's invariant with the two scratch buffers as memrefs owned at some contents. -/
theorem PhiA0_eq (c : Dev nD) :
    (Pipeline.ΦA spec0 c : sProp 𝕄)
      = iprop(iprop((∃ d, owns (c : Thread nD τ) sc8 fullShare d) ∗ (∃ d, owns (c : Thread nD τ) sc9 fullShare d)) ∗ (∃ r, prngReg c r)) := by
  unfold Pipeline.ΦA; rw [scopedRest0_eq]; simp only [sc8, sc9, owns_whole]; try rfl

/-- A memref's elements at any contents of their buffer are owned at some contents. -/
theorem ex_owns (c : Dev nD) {sp : Space} {sh : Shape} {e : EltTy} (M : Memref sig .tc sp sh e) (f : M.view.ty.Contents (Elt F)) :
    (M.view.loc (c : Thread nD τ) ↦[M.view.set]{fullShare} f : sProp 𝕄) ⊢ iprop(∃ X, owns (c : Thread nD τ) M fullShare X) := by
  iintro H; iexists (M.view.read (Elt F) f); iapply (owns_intro (c : Thread nD τ) M fullShare f); iexact H

/-- The feature-tile coordinate is not both 0 and 3. -/
theorem not_first_and_last (i : grid0.Coords) (h1 : cond1 i) (h3 : k0_cond3 i = 1#1) : False := by
  have hlt : (i 2).val < 4 := (i 2).isLt
  revert h1 h3
  unfold k0_cond3
  dsimp only [cond1]
  generalize (i 2).val = k at hlt ⊢
  have hk : k = 0 ∨ k = 1 ∨ k = 2 ∨ k = 3 := by omega
  rcases hk with rfl | rfl | rfl | rfl <;> decide

/-! ## The body obligation -/

/-- What the body is called with at point t: the invariant, what the core owes, the four input tiles at what the
    fetches left, the output tile at anything; -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ X, owns (c : Thread nD τ) (ms4 t) fullShare X))

/-- and what it returns: the input tile at its block, the three clipped tiles at their blocks on the part inside
    the array, the output tile at anything. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ (∃ d, owns (c : Thread nD τ) (ms1 t) fullShare (win0_1.fill (grid0.coords t) d (win0_1.cut (grid0.coords t) ((dats m 0 c).after 1 t))))
    ∗ (∃ d, owns (c : Thread nD τ) (ms2 t) fullShare (win0_2.fill (grid0.coords t) d (win0_2.cut (grid0.coords t) ((dats m 0 c).after 2 t))))
    ∗ (∃ d, owns (c : Thread nD τ) (ms3 t) fullShare (win0_3.fill (grid0.coords t) d (win0_3.cut (grid0.coords t) ((dats m 0 c).after 3 t))))
    ∗ (∃ X, owns (c : Thread nD τ) (ms4 t) fullShare X))

set_option maxHeartbeats 1600000 in
/-- From any run of the body that takes the seven buffers at named contents and hands the four inputs back as they
    were and the other three with some stores written over what they held: the body obligation at the point. -/
theorem sound_of_run (c : Dev nD) (t : Fin cfg0.N)
    (hrun : ∀ (x1 : Vec F S128x512 .i32) (x2 x3 : Vec F S8x512 .f32) (xs8 : Vec F S1024x512 .f32) (xs9 : Vec F S4096x512 .bf16),
      ∃ (L7 : List (View.Piece (Elt F) S1024x512 .f32)) (L8 : List (View.Piece (Elt F) S1024x512 .f32)) (L9 : List (View.Piece (Elt F) S4096x512 .bf16)),
      ∀ (xi7 : Vec F S1024x512 .f32) (E : Set ℕ) (K : PUnit → sProp 𝕄),
        iprop(owns (c : Thread nD τ) (ms0 t) fullShare (iblk m c 0 t) ∗ owns (c : Thread nD τ) (ms1 t) fullShare x1 ∗ owns (c : Thread nD τ) (ms2 t) fullShare x2
            ∗ owns (c : Thread nD τ) (ms3 t) fullShare x3 ∗ owns (c : Thread nD τ) (ms4 t) fullShare xi7
            ∗ owns (c : Thread nD τ) sc8 fullShare xs8 ∗ owns (c : Thread nD τ) sc9 fullShare xs9
            ∗ (iprop(owns (c : Thread nD τ) (ms0 t) fullShare (iblk m c 0 t) ∗ owns (c : Thread nD τ) (ms1 t) fullShare x1 ∗ owns (c : Thread nD τ) (ms2 t) fullShare x2
                ∗ owns (c : Thread nD τ) (ms3 t) fullShare x3
                ∗ ((ms4 t).view.loc (c : Thread nD τ) ↦[(ms4 t).view.set]{fullShare} (ms4 t).view.writes (Elt F) ((hs4 t).unread xi7) L7)
                ∗ (sc8.view.loc (c : Thread nD τ) ↦[sc8.view.set]{fullShare} sc8.view.writes (Elt F) ((Memref.isWhole_whole cc0_scratch0).unread xs8) L8)
                ∗ (sc9.view.loc (c : Thread nD τ) ↦[sc9.view.set]{fullShare} sc9.view.writes (Elt F) ((Memref.isWhole_whole cc0_scratch1).unread xs9) L9)) -∗ K ⟨⟩))
          ⊢ wp frame (wpE (defs₀ (F := F)) Variants.none c none) E (bodyAt0 t) K) :
    bodyPre m c t ⊢ wp frame (wpE (defs₀ (F := F)) Variants.none c none) Set.univ (bodyAt0 t) (fun _ => bodyPost m c t) := by
  unfold bodyPre bodyPost
  simp only [before0_0, before0_1, before0_2, before0_3]
  rw [after0_0, after0_1, after0_2, after0_3]
  simp only [Window.cut_fill]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  iintro ⟨⟨⟨⟨%xs8, HS8⟩, ⟨%xs9, HS9⟩⟩, Hg⟩, Ho, ⟨%d0, H0⟩, ⟨%d1, H1⟩, ⟨%d2, H2⟩, ⟨%d3, H3⟩, ⟨%X4, H4⟩⟩
  obtain ⟨L7, L8, L9, h⟩ := hrun (win0_1.fill (grid0.coords t) d1 (iblk m c 1 t)) (win0_2.fill (grid0.coords t) d2 (iblk m c 2 t))
    (win0_3.fill (grid0.coords t) d3 (iblk m c 3 t)) xs8 xs9
  iapply (h X4 Set.univ _)
  isplitl [H0]; · iexact H0
  isplitl [H1]; · iexact H1
  isplitl [H2]; · iexact H2
  isplitl [H3]; · iexact H3
  isplitl [H4]; · iexact H4
  isplitl [HS8]; · iexact HS8
  isplitl [HS9]; · iexact HS9
  iintro ⟨H0, H1, H2, H3, H7, H8, H9⟩
  isplitl [H8 H9 Hg]
  · isplitl [H8 H9]
    · isplitl [H8]
      · iapply (ex_owns c sc8 _); iexact H8
      · iapply (ex_owns c sc9 _); iexact H9
    · iexact Hg
  isplitl [Ho]; · iexact Ho
  isplitl [H0]; · iexact H0
  isplitl [H1]; · iexists d1; iexact H1
  isplitl [H2]; · iexists d2; iexact H2
  isplitl [H3]; · iexists d3; iexact H3
  iapply (ex_owns c (ms4 t) _); iexact H7

set_option maxHeartbeats 1600000 in
/-- The body at any point: whichever way its three conditions fall (the feature tile is not both the first and the
    last), the run for that case applies. -/
theorem sound_body (c : Dev nD) (t : Fin cfg0.N) :
    bodyPre m c t ⊢ wp frame (wpE (defs₀ (F := F)) Variants.none c none) Set.univ (bodyAt0 t) (fun _ => bodyPost m c t) := by
  refine sound_of_run m c t fun x1 x2 x3 xs8 xs9 => ?_
  by_cases hc1 : cond1 (grid0.coords t)
  · by_cases hc3 : k0_cond3 (grid0.coords t) = 1#1
    · exact (not_first_and_last _ hc1 hc3).elim
    · by_cases hc2 : k0_cond2 (grid0.coords t) = 1#1
      · exact ⟨_, _, _, (runA c (grid0.coords t) (ms0 t) (hs0 t) (ms1 t) (hs1 t) (ms2 t) (hs2 t) (ms3 t) (hs3 t) (ms4 t) (hs4 t) sc8 (Memref.isWhole_whole _) sc9 (Memref.isWhole_whole _) hc1 hc2 hc3 (iblk m c 0 t) x1 x2 x3 xs8 xs9).2.2.2⟩
      · exact ⟨_, _, _, (runB c (grid0.coords t) (ms0 t) (hs0 t) (ms1 t) (hs1 t) (ms2 t) (hs2 t) (ms3 t) (hs3 t) (ms4 t) (hs4 t) sc8 (Memref.isWhole_whole _) sc9 (Memref.isWhole_whole _) hc1 hc2 hc3 (iblk m c 0 t) x1 x2 x3 xs8 xs9).2.2.2⟩
  · by_cases hc3 : k0_cond3 (grid0.coords t) = 1#1
    · by_cases hc2 : k0_cond2 (grid0.coords t) = 1#1
      · exact ⟨_, _, _, (runE c (grid0.coords t) (ms0 t) (hs0 t) (ms1 t) (hs1 t) (ms2 t) (hs2 t) (ms3 t) (hs3 t) (ms4 t) (hs4 t) sc8 (Memref.isWhole_whole _) sc9 (Memref.isWhole_whole _) hc1 hc2 hc3 (iblk m c 0 t) x1 x2 x3 xs8 xs9).2.2.2⟩
      · exact ⟨_, _, _, (runF c (grid0.coords t) (ms0 t) (hs0 t) (ms1 t) (hs1 t) (ms2 t) (hs2 t) (ms3 t) (hs3 t) (ms4 t) (hs4 t) sc8 (Memref.isWhole_whole _) sc9 (Memref.isWhole_whole _) hc1 hc2 hc3 (iblk m c 0 t) x1 x2 x3 xs8 xs9).2.2.2⟩
    · by_cases hc2 : k0_cond2 (grid0.coords t) = 1#1
      · exact ⟨_, _, _, (runC c (grid0.coords t) (ms0 t) (hs0 t) (ms1 t) (hs1 t) (ms2 t) (hs2 t) (ms3 t) (hs3 t) (ms4 t) (hs4 t) sc8 (Memref.isWhole_whole _) sc9 (Memref.isWhole_whole _) hc1 hc2 hc3 (iblk m c 0 t) x1 x2 x3 xs8 xs9).2.2.2⟩
      · exact ⟨_, _, _, (runD c (grid0.coords t) (ms0 t) (hs0 t) (ms1 t) (hs1 t) (ms2 t) (hs2 t) (ms3 t) (hs3 t) (ms4 t) (hs4 t) sc8 (Memref.isWhole_whole _) sc9 (Memref.isWhole_whole _) hc1 hc2 hc3 (iblk m c 0 t) x1 x2 x3 xs8 xs9).2.2.2⟩

/-- The library's body obligation, at every point, the output window forgotten. -/
theorem body_obligation (c : Dev nD) : BodyObligationLoose (dats (F := F) m 0 c) (defs₀ (F := F)) Variants.none () Set.univ fgt := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has each staged array at contents the pipeline may leave (an
    input: what the region found) and every other unscoped buffer at what the region found. -/
theorem run_main : θ_run defs (onTc (τ := τ) (main (F := F))) (s₀ m ρ)
    (Pipeline.RDat.FramePost cfg0 (fun c => (dats m 0 c).toRForget fgt) (V m)) :=
  Pipeline.RDat.θ_run_frame cfgs (0 : Fin 1) launch0 defs₀ Variants.none (fun c => (dats m 0 c).toRForget fgt) m ρ main
    (hbody := fun c => (body_obligation m c).toRForget) (hshare := fun c => (dats m 0 c).share_full fun _ => rfl)
    (howed := fun _ _ => rfl) (V := V m) (hmain := hmain m Variants.none) (hA := A_eq m) (hΦ := fun _ _ => rfl)

/-- THE FRAME: the word-level program terminates and its four argument arrays end as launched. The activations and
    the packed zero points are staged by no window (the region stages arrays computed from them) and bypass the
    region; the packed weights and the scales are input windows, never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_arg0 (Pipeline.mem_restRefs_of main_arg0 (by decide) (by decide))).trans (V_main_arg0 m c),
      (by
        have h1 := (h c).1 1
        rw [Pipeline.RDat.ArrAt_in _ 1 rfl] at h1
        exact h1.trans ((A_eq m c 1).trans (V_main_arg1 m c))),
      ((h c).2 main_arg2 (Pipeline.mem_restRefs_of main_arg2 (by decide) (by decide))).trans (V_main_arg2 m c),
      (by
        have h3 := (h c).1 3
        rw [Pipeline.RDat.ArrAt_in _ 3 rfl] at h3
        exact h3.trans ((A_eq m c 3).trans (V_main_arg3 m c)))⟩) (run_main m ρ)

end Cert.Kernel.Hand

end
-- ==== Proof.Spec.lean ====
/-
  The mathematics of the int4 group-quantized linear layer, stated once, over plain index arithmetic.

  A packed word `q : BitVec 32` holds eight 4-bit nibbles; nibble `s` is `(q >>ₛ 4 s) & 15`. The weight matrix
  `W : [4096, 11008]` takes, at row `kk` and column `n`, nibble `kk mod 8` of the packed word at row `kk / 8`,
  subtracts the zero point of group `kk / 128` and multiplies by that group's scale:
      W kk n = (float (nib (qw (kk / 8, n)) (kk mod 8)) − z (kk / 128, n)) · sc (kk / 128, n).
  The layer's result is the matrix product `x · W`, entry by entry a sum over the 4096 input features, on the
  extended reals. The zero points are themselves unpacked from words packed along the OUTPUT axis,
  `z (g, n) = float (nib (qz (g, n / 8)) (n mod 8)) + 1`; both programs compute that table by the same chain
  of array operations, which is carried here as one function of the packed table (`zChain`) and never opened.
-/
import Idealize.ShloMosaic.PureOps.Ideal
import Idealize.ShloMosaic.Lib.ValueIdx

noncomputable section

open scoped BigOperators

namespace Cert.Spec

open Idealize.ShloMosaic Idealize.ShloMosaic.ValueIdx

/-- The shift that brings nibble `s` of a packed word down to the low four bits: the word `4 s`. -/
def sh (s : Fin 8) : BitVec 32 := IntOp.muli (BitVec.ofNat 32 s.val) 4#32

/-- The shift amounts are below the word width (they are 0, 4, …, 28). -/
theorem sh_lt (s : Fin 8) : (sh s).toNat < 32 := by
  fin_cases s <;> decide

/-- Nibble `s` of the packed word `q`: shift right (arithmetically) by `4 s`, keep the low four bits. -/
def nib (q : BitVec 32) (s : Fin 8) : BitVec 32 := IntOp.andi (q.sshiftRight' (sh s)) 15#32

/-- Below the word width the arithmetic right shift is the same function on every unit. -/
theorem shrsi_sh (u : ArithUnit) (q : BitVec 32) (s : Fin 8) : IntOp.shrsi u q (sh s) = q.sshiftRight' (sh s) := by
  unfold IntOp.shrsi; rw [if_pos (sh_lt s)]

/-- One dequantized weight: (nibble − zero point) · scale, on the extended reals. -/
def deq (q : BitVec 32) (s : Fin 8) (z sc : Ideal .f32) : Ideal .f32 :=
  FloatOps.mulf (FloatOps.subf (FloatOps.sitofp .f32 (nib q s)) z) sc

/-- The dequantized weight matrix: row `kk` takes nibble `kk mod 8` of packed row `kk / 8` and the zero point and
    scale of group `kk / 128`. -/
def Wd (qw : (⟨2, ![512, 11008]⟩ : Shape).Idx → BitVec 32) (z sc : (⟨2, ![32, 11008]⟩ : Shape).Idx → Ideal .f32)
    (kk : Fin 4096) (n : Fin 11008) : Ideal .f32 :=
  deq (qw (ix2 (⟨kk.val / 8, by omega⟩ : Fin 512) n)) ⟨kk.val % 8, Nat.mod_lt _ (by decide)⟩
    (z (ix2 (⟨kk.val / 128, by omega⟩ : Fin 32) n)) (sc (ix2 (⟨kk.val / 128, by omega⟩ : Fin 32) n))

/-- One entry of the product `x · W`: the sum over the 4096 input features. -/
def Gat (x : (⟨2, ![8192, 4096]⟩ : Shape).Idx → EReal) (W : Fin 4096 → Fin 11008 → EReal) (r : Fin 8192) (n : Fin 11008) : EReal :=
  ∑ kk : Fin 4096, x (ix2 r kk) * W kk n

/-- The product as an array. -/
def G (x : (⟨2, ![8192, 4096]⟩ : Shape).Idx → EReal) (W : Fin 4096 → Fin 11008 → EReal) :
    (⟨2, ![8192, 11008]⟩ : Shape).Idx → EReal :=
  fun i => Gat x W (i 0) (i 1)

/-- The partial product over the first `4 · 1024`-feature tiles below `k`: what an accumulator holds before tile `k`. -/
def Gpart (x : (⟨2, ![8192, 4096]⟩ : Shape).Idx → EReal) (W : Fin 4096 → Fin 11008 → EReal) (k : Nat) (r : Fin 8192) (n : Fin 11008) : EReal :=
  ∑ kt : Fin 4, if kt.val < k then ∑ q : Fin 1024, x (ix2 r (⟨kt.val * 1024 + q.val, by omega⟩ : Fin 4096)) * W ⟨kt.val * 1024 + q.val, by omega⟩ n else 0

/-- The zero-point table: the packed table's words broadcast against the eight shifts, shifted, masked, laid out
    with the nibble index innermost along the output axis, converted, plus one — the chain of array operations both
    programs apply, as one function. -/
def zChain (qz : (⟨2, ![32, 1376]⟩ : Shape).Idx → BitVec 32) : (⟨2, ![32, 11008]⟩ : Shape).Idx → Ideal .f32 :=
  addf (F := Ideal)
    (sitofp .f32
      (shapeCast (⟨2, ![32, 11008]⟩ : Shape)
        (andi
          (Host.shrsi
            (broadcastInDim (⟨3, ![32, 1376, 8]⟩ : Shape) ![0, 1, 2] (by decide)
              (broadcastInDim (⟨3, ![32, 1376, 1]⟩ : Shape) ![0, 1] (by decide) qz))
            (broadcastInDim (⟨3, ![32, 1376, 8]⟩ : Shape) ![0, 1, 2] (by decide)
              (broadcastInDim (⟨3, ![1, 1, 8]⟩ : Shape) ![2] (by decide)
                (muli (iotaInDim (⟨1, ![8]⟩ : Shape) 32 0)
                  (broadcastInDim (⟨1, ![8]⟩ : Shape) ![] (by decide) (constantI (⟨0, ![]⟩ : Shape) 32 4#32))))))
          (broadcastInDim (⟨3, ![32, 1376, 8]⟩ : Shape) ![] (by decide) (constantI (⟨0, ![]⟩ : Shape) 32 15#32)))
        (by decide)))
    (broadcastInDim (⟨2, ![32, 11008]⟩ : Shape) ![] (by decide) (constant (⟨0, ![]⟩ : Shape) .f32 0x3F800000#32))

end Cert.Spec

end
-- ==== Proof.SpecSum.lean ====
/-
  The partial products over 1024-feature tiles: nothing accumulated before the first tile, each tile adds its own
  block sum, and after the four tiles the partial product is the whole entry of the matrix product. Only the
  commutative-monoid structure of addition on the extended reals is used.
-/
import proofs.«424847_j52561809769198_2_alg».proof.Proof.Spec
import Mathlib.Algebra.BigOperators.Fin
import Mathlib.Algebra.BigOperators.Group.Finset.Basic
import Mathlib.Algebra.BigOperators.Group.Finset.Sigma

noncomputable section

open scoped BigOperators

namespace Cert.Spec

open Idealize.ShloMosaic Idealize.ShloMosaic.ValueIdx

variable (x : (⟨2, ![8192, 4096]⟩ : Shape).Idx → EReal) (W : Fin 4096 → Fin 11008 → EReal)
  (r : Fin 8192) (n : Fin 11008)

/-- A feature index is a tile index and a position within the tile: `kk = kt · 1024 + q`. -/
def tileEquiv : Fin 4 × Fin 1024 ≃ Fin 4096 where
  toFun p := ⟨p.1.val * 1024 + p.2.val, by omega⟩
  invFun kk := (⟨kk.val / 1024, by omega⟩, ⟨kk.val % 1024, Nat.mod_lt _ (by decide)⟩)
  left_inv := by
    rintro ⟨a, b⟩
    ext
    · show (a.val * 1024 + b.val) / 1024 = a.val
      omega
    · show (a.val * 1024 + b.val) % 1024 = b.val
      omega
  right_inv := by
    intro kk
    ext
    show kk.val / 1024 * 1024 + kk.val % 1024 = kk.val
    omega

/-- Before the first tile nothing has been accumulated. -/
theorem Gpart_zero : Gpart x W 0 r n = 0 := by
  unfold Gpart
  apply Finset.sum_eq_zero
  intro kt _
  rw [if_neg (Nat.not_lt_zero _)]

/-- Tile `k` adds its own block sum to the partial product. -/
theorem Gpart_succ (k : Nat) (hk : k < 4) :
    Gpart x W (k + 1) r n = Gpart x W k r n
      + ∑ q : Fin 1024, x (ix2 r (⟨k * 1024 + q.val, by omega⟩ : Fin 4096)) * W ⟨k * 1024 + q.val, by omega⟩ n := by
  unfold Gpart
  interval_cases k
  · simp [Fin.sum_univ_four]
  · simp [Fin.sum_univ_four]
  · simp [Fin.sum_univ_four]
  · simp [Fin.sum_univ_four]

/-- After the four tiles the partial product is the whole sum over the 4096 features. -/
theorem Gpart_four : Gpart x W 4 r n = Gat x W r n := by
  unfold Gpart Gat
  rw [← Equiv.sum_comp tileEquiv (fun kk : Fin 4096 => x (ix2 r kk) * W kk n), Fintype.sum_prod_type]
  apply Finset.sum_congr rfl
  intro kt _
  rw [if_pos kt.isLt]
  rfl

end Cert.Spec

end
-- ==== Proof.Inv.lean ====
/-
  The invariant the two carried buffers satisfy over the 22 × 8 × 4 grid, and its step from one grid position to the next.

  Position `n` (row-major) is column tile `j = n / 32`, row tile `i = n / 4 % 8`, feature tile `k = n % 4`. Before
  position `n`, on the columns that lie inside the array (`512 j + col < 11008`; the last column tile overhangs it):
  the accumulator holds the partial product over the feature tiles below `k` (nothing is said when `k = 0`: the body
  resets it there), and the weight cache holds the dequantized weights of column tile `j` on the row bands already
  filled: all four once a whole row tile has run (`i ≠ 0`), the bands below `k` during the first row tile.
  One body step adds the product of the input tile with band `k` of the cache to the accumulator (reset first when
  `k = 0`), after filling band `k` of the cache from the packed tile when `i = 0`; nothing outside a column ever enters
  that column, so the columns outside the array never matter. After the step at `k = 3` the accumulator holds the full
  sum over the 4096 features.
-/
import proofs.«424847_j52561809769198_2_alg».proof.Proof.Spec
import proofs.«424847_j52561809769198_2_alg».proof.Proof.SpecSum

noncomputable section

open scoped BigOperators

namespace Cert.Spec

open Idealize.ShloMosaic Idealize.ShloMosaic.ValueIdx

variable (x : (⟨2, ![8192, 4096]⟩ : Shape).Idx → EReal) (W : Fin 4096 → Fin 11008 → EReal)

/-- What the accumulator `A` and the weight cache `C` hold before grid position `n`, on the columns inside the array. -/
structure Inv (n : Nat) (A : (⟨2, ![1024, 512]⟩ : Shape).Idx → EReal) (C : (⟨2, ![4096, 512]⟩ : Shape).Idx → EReal) : Prop where
  acc : n % 4 ≠ 0 → ∀ (r : Fin 1024) (col : Fin 512) (hr : n / 4 % 8 * 1024 + r.val < 8192) (hv : n / 32 * 512 + col.val < 11008),
      A (ix2 r col) = Gpart x W (n % 4) ⟨n / 4 % 8 * 1024 + r.val, hr⟩ ⟨n / 32 * 512 + col.val, hv⟩
  cache : ∀ (k' : Fin 4), (n / 4 % 8 ≠ 0 ∨ k'.val < n % 4) → ∀ (q : Fin 1024) (col : Fin 512) (hv : n / 32 * 512 + col.val < 11008),
      C (ix2 (⟨k'.val * 1024 + q.val, by omega⟩ : Fin 4096) col) = W ⟨k'.val * 1024 + q.val, by omega⟩ ⟨n / 32 * 512 + col.val, hv⟩

/-- Before the first position nothing is asked. -/
theorem inv_zero (A : (⟨2, ![1024, 512]⟩ : Shape).Idx → EReal) (C : (⟨2, ![4096, 512]⟩ : Shape).Idx → EReal) : Inv x W 0 A C :=
  ⟨fun h => absurd rfl h, fun k' h => by rcases h with h | h <;> omega⟩

/-- The partial product depends only on the numbers: equal tile counts, rows and columns give equal values. -/
theorem Gpart_congr {k k' a a' b b' : Nat} (ha : a < 8192) (ha' : a' < 8192) (hb : b < 11008) (hb' : b' < 11008)
    (hk : k = k') (e1 : a = a') (e2 : b = b') :
    Gpart x W k ⟨a, ha⟩ ⟨b, hb⟩ = Gpart x W k' ⟨a', ha'⟩ ⟨b', hb'⟩ := by
  subst hk e1 e2; rfl

/-- A weight depends only on the number of its column. -/
theorem W_congr (kk : Fin 4096) {b b' : Nat} (hb : b < 11008) (hb' : b' < 11008) (e : b = b') :
    W kk ⟨b, hb⟩ = W kk ⟨b', hb'⟩ := by
  subst e; rfl

/-- Band `k` of the dequantized weights, read off the tiles of band `k`: feature `1024 k + q` sits in packed row
    `128 k + q / 8` at nibble `q mod 8`, in group `8 k + q / 128`. -/
theorem band_eq (qw : (⟨2, ![512, 11008]⟩ : Shape).Idx → BitVec 32) (z sc : (⟨2, ![32, 11008]⟩ : Shape).Idx → EReal)
    (k : Nat) (hk : k < 4) (q : Fin 1024) (N : Fin 11008) :
    deq (qw (ix2 (⟨k * 128 + q.val / 8, by omega⟩ : Fin 512) N)) ⟨q.val % 8, Nat.mod_lt _ (by decide)⟩
        (z (ix2 (⟨k * 8 + q.val / 128, by omega⟩ : Fin 32) N)) (sc (ix2 (⟨k * 8 + q.val / 128, by omega⟩ : Fin 32) N))
      = Wd qw z sc ⟨k * 1024 + q.val, by omega⟩ N := by
  have e1 : (k * 1024 + q.val) / 8 = k * 128 + q.val / 8 := by omega
  have e2 : (k * 1024 + q.val) % 8 = q.val % 8 := by omega
  have e3 : (k * 1024 + q.val) / 128 = k * 8 + q.val / 128 := by omega
  unfold Wd
  simp only [Fin.val_mk, e1, e2, e3]

/-- ONE STEP. `X0 … X3` are the tiles the body finds (the input tile; the packed weights, zero points and scales of band `k`
    on the columns inside the array), `A'`, `C'` what it leaves. -/
theorem inv_step (n : Nat) (hn : n < 704)
    (qw : (⟨2, ![512, 11008]⟩ : Shape).Idx → BitVec 32) (z sc : (⟨2, ![32, 11008]⟩ : Shape).Idx → EReal)
    (A A' : (⟨2, ![1024, 512]⟩ : Shape).Idx → EReal) (C C' : (⟨2, ![4096, 512]⟩ : Shape).Idx → EReal)
    (X0 : (⟨2, ![1024, 1024]⟩ : Shape).Idx → EReal) (X1 : (⟨2, ![128, 512]⟩ : Shape).Idx → BitVec 32)
    (X2 X3 : (⟨2, ![8, 512]⟩ : Shape).Idx → EReal)
    (hX0 : ∀ (r q : Fin 1024), X0 (ix2 r q) = x (ix2 (⟨n / 4 % 8 * 1024 + r.val, by omega⟩ : Fin 8192) (⟨n % 4 * 1024 + q.val, by omega⟩ : Fin 4096)))
    (hX1 : ∀ (r' : Fin 128) (col : Fin 512) (hv : n / 32 * 512 + col.val < 11008),
      X1 (ix2 r' col) = qw (ix2 (⟨n % 4 * 128 + r'.val, by omega⟩ : Fin 512) (⟨n / 32 * 512 + col.val, hv⟩ : Fin 11008)))
    (hX2 : ∀ (g : Fin 8) (col : Fin 512) (hv : n / 32 * 512 + col.val < 11008),
      X2 (ix2 g col) = z (ix2 (⟨n % 4 * 8 + g.val, by omega⟩ : Fin 32) (⟨n / 32 * 512 + col.val, hv⟩ : Fin 11008)))
    (hX3 : ∀ (g : Fin 8) (col : Fin 512) (hv : n / 32 * 512 + col.val < 11008),
      X3 (ix2 g col) = sc (ix2 (⟨n % 4 * 8 + g.val, by omega⟩ : Fin 32) (⟨n / 32 * 512 + col.val, hv⟩ : Fin 11008)))
    (hA' : ∀ (r : Fin 1024) (col : Fin 512), A' (ix2 r col)
      = (if n % 4 = 0 then 0 else A (ix2 r col)) + ∑ q : Fin 1024, X0 (ix2 r q) * C' (ix2 (⟨n % 4 * 1024 + q.val, by omega⟩ : Fin 4096) col))
    (hC1 : n / 4 % 8 = 0 → ∀ (q : Fin 1024) (col : Fin 512), C' (ix2 (⟨n % 4 * 1024 + q.val, by omega⟩ : Fin 4096) col)
      = deq (X1 (ix2 (⟨q.val / 8, by omega⟩ : Fin 128) col)) ⟨q.val % 8, Nat.mod_lt _ (by decide)⟩
          (X2 (ix2 (⟨q.val / 128, by omega⟩ : Fin 8) col)) (X3 (ix2 (⟨q.val / 128, by omega⟩ : Fin 8) col)))
    (hC2 : n / 4 % 8 = 0 → ∀ (row : Fin 4096) (col : Fin 512), (row.val < n % 4 * 1024 ∨ n % 4 * 1024 + 1024 ≤ row.val) →
      C' (ix2 row col) = C (ix2 row col))
    (hC3 : n / 4 % 8 ≠ 0 → C' = C)
    (hI : Inv x (Wd qw z sc) n A C) :
    Inv x (Wd qw z sc) (n + 1) A' C'
      ∧ (n % 4 = 3 → ∀ (r : Fin 1024) (col : Fin 512) (hr : n / 4 % 8 * 1024 + r.val < 8192) (hv : n / 32 * 512 + col.val < 11008),
          A' (ix2 r col) = Gat x (Wd qw z sc) ⟨n / 4 % 8 * 1024 + r.val, hr⟩ ⟨n / 32 * 512 + col.val, hv⟩) := by
  -- band `k` of the cache the step leaves is band `k` of the dequantized weights
  have hband : ∀ (q : Fin 1024) (col : Fin 512) (hv : n / 32 * 512 + col.val < 11008),
      C' (ix2 (⟨n % 4 * 1024 + q.val, by omega⟩ : Fin 4096) col)
        = Wd qw z sc ⟨n % 4 * 1024 + q.val, by omega⟩ ⟨n / 32 * 512 + col.val, hv⟩ := by
    intro q col hv
    by_cases hi : n / 4 % 8 = 0
    · rw [hC1 hi q col, hX1 ⟨q.val / 8, by omega⟩ col hv, hX2 ⟨q.val / 128, by omega⟩ col hv,
        hX3 ⟨q.val / 128, by omega⟩ col hv]
      exact band_eq qw z sc (n % 4) (by omega) q ⟨n / 32 * 512 + col.val, hv⟩
    · rw [hC3 hi]
      exact hI.cache ⟨n % 4, by omega⟩ (Or.inl hi) q col hv
  -- every band up to `k` (all four after the first row tile) of the cache the step leaves
  have hcache : ∀ (k' : Fin 4), (n / 4 % 8 ≠ 0 ∨ k'.val ≤ n % 4) → ∀ (q : Fin 1024) (col : Fin 512)
      (hv : n / 32 * 512 + col.val < 11008),
      C' (ix2 (⟨k'.val * 1024 + q.val, by omega⟩ : Fin 4096) col)
        = Wd qw z sc ⟨k'.val * 1024 + q.val, by omega⟩ ⟨n / 32 * 512 + col.val, hv⟩ := by
    intro k' hk' q col hv
    by_cases hi : n / 4 % 8 = 0
    · by_cases hkk : k'.val = n % 4
      · obtain ⟨kv, hkv⟩ := k'
        dsimp only at hkk
        subst hkk
        exact hband q col hv
      · have hlt : k'.val < n % 4 := by omega
        rw [hC2 hi ⟨k'.val * 1024 + q.val, by omega⟩ col (Or.inl (by dsimp only; omega))]
        exact hI.cache k' (Or.inr hlt) q col hv
    · rw [hC3 hi]
      exact hI.cache k' (Or.inl hi) q col hv
  -- the accumulator the step leaves: the partial product over the tiles up to and including `k`
  have hacc : ∀ (r : Fin 1024) (col : Fin 512) (hr : n / 4 % 8 * 1024 + r.val < 8192)
      (hv : n / 32 * 512 + col.val < 11008),
      A' (ix2 r col)
        = Gpart x (Wd qw z sc) (n % 4 + 1) ⟨n / 4 % 8 * 1024 + r.val, hr⟩ ⟨n / 32 * 512 + col.val, hv⟩ := by
    intro r col hr hv
    rw [hA' r col, Gpart_succ x (Wd qw z sc) _ _ (n % 4) (by omega)]
    congr 1
    · by_cases h0 : n % 4 = 0
      · rw [if_pos h0, h0, Gpart_zero]
      · rw [if_neg h0]
        exact hI.acc h0 r col hr hv
    · apply Finset.sum_congr rfl
      intro q _
      rw [hX0 r q, hband q col hv]
  refine ⟨⟨?_, ?_⟩, ?_⟩
  · intro hne r col hr hv
    rw [hacc r col (by omega) (by omega)]
    exact Gpart_congr x (Wd qw z sc) _ _ _ _ (by omega) (by omega) (by omega)
  · intro k' hk' q col hv
    have hj : (n + 1) / 32 = n / 32 := by omega
    have hc : n / 4 % 8 ≠ 0 ∨ k'.val ≤ n % 4 := by omega
    have hv' : n / 32 * 512 + col.val < 11008 := by omega
    rw [hcache k' hc q col hv']
    exact W_congr (Wd qw z sc) _ _ _ (by omega)
  · intro h3 r col hr hv
    have h4 : n % 4 + 1 = 4 := by omega
    rw [hacc r col hr hv, h4]
    exact Gpart_four x (Wd qw z sc) _ _

end Cert.Spec

end
-- ==== Proof.DatIdeal.lean ====
/-
  The proof data of the idealized kernel's one pipeline, at the extended reals.

  The region finds the converted input `x` (its own buffer), the packed weights, the zero-point table (computed by the
  host lines before the region) and the scales. `GK` is the product `x · W` of those, the array the result is shown
  to end at. After the body at a grid point the input windows' staging buffers hold their blocks (filled out past the
  array's end, for the three windows whose last column tile overhangs it, with a word nothing reads) and the output
  window's holds the block of `GK`; between points the accumulator and the weight cache satisfy `Cert.Spec.Inv`.
-/
import proofs.«424847_j52561809769198_2_alg».proof.Proof.Gen.KernelIdeal.Frame
import proofs.«424847_j52561809769198_2_alg».proof.Proof.Spec
import proofs.«424847_j52561809769198_2_alg».proof.Proof.Inv

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The arrays as the region finds them -/

/-- The input, converted by the host line before the region (the identity on the extended reals). -/
abbrev xK (c : Dev nD) : S8192x4096.Idx → EReal := V (F := Ideal) m c main_v14
/-- The packed weights. -/
abbrev qwK (c : Dev nD) : S512x11008.Idx → BitVec 32 := V (F := Ideal) m c main_arg1
/-- The zero-point table the host lines before the region compute. -/
abbrev zK (c : Dev nD) : S32x11008.Idx → EReal := V (F := Ideal) m c main_v13
/-- The scales. -/
abbrev scK (c : Dev nD) : S32x11008.Idx → EReal := V (F := Ideal) m c main_arg3
/-- The dequantized weights of those. -/
def WK (c : Dev nD) : Fin 4096 → Fin 11008 → EReal := Cert.Spec.Wd (qwK m c) (zK m c) (scK m c)
/-- The product `x · W`: what the result array ends holding. -/
def GK (c : Dev nD) : S8192x11008.Idx → EReal := Cert.Spec.G (xK m c) (WK m c)

/-! ## The invariant between grid points -/

/-- The scratch operands: whole scoped buffers of the kernel's own. -/
abbrev scM0 : Memref sig .tc .vmem S1024x512 .f32 := Memref.whole cc0_scratch0
abbrev scM1 : Memref sig .tc .vmem S4096x512 .bf16 := Memref.whole cc0_scratch1

/-- Before position `n`: the accumulator and the weight cache at contents satisfying the invariant, the generator
    register at some state. -/
def PhiI (c : Dev nD) (n : ℕ) : sProp 𝕄 :=
  iprop(∃ (A : S1024x512.Idx → EReal) (C : S4096x512.Idx → EReal), ⌜Cert.Spec.Inv (xK m c) (WK m c) n A C⌝
      ∗ owns (c : Thread nD τ) scM0 fullShare A ∗ owns (c : Thread nD τ) scM1 fullShare C ∗ (∃ r, prngReg c r))

/-! ## The pipeline's proof data -/

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => 0#32) (iblk m c 1 t)
    | ⟨2, _⟩ => win0_2.fill (grid0.coords t) (fun _ => (0 : EReal)) (iblk m c 2 t)
    | ⟨3, _⟩ => win0_3.fill (grid0.coords t) (fun _ => (0 : EReal)) (iblk m c 3 t)
    | ⟨4, _⟩ => win0_4.fill (grid0.coords t) (fun _ => (0 : EReal)) ((win0_4.blk t).view.read (Elt Ideal) (GK m c))
  Φ t := PhiI m c t.val
  q _ := fullShare
  owed _ := 0

theorem A_eq (c : Dev nD) (w : Fin cfg0.W) : (dats m 0 c).A w = V m c (Pipeline.arrRef spec0 w) := by
  dsimp only [dats]

theorem Phi_eq (c : Dev nD) (t : Fin (cfg0.N + 1)) : (dats m 0 c).Φ t = PhiI m c t.val := by dsimp only [dats]

theorem after0 (c : Dev nD) (t : Fin cfg0.N) : (dats m 0 c).after 0 t = iblk m c 0 t := by dsimp only [dats]
theorem after1 (c : Dev nD) (t : Fin cfg0.N) :
    (dats m 0 c).after 1 t = win0_1.fill (grid0.coords t) (fun _ => 0#32) (iblk m c 1 t) := by dsimp only [dats]
theorem after2 (c : Dev nD) (t : Fin cfg0.N) :
    (dats m 0 c).after 2 t = win0_2.fill (grid0.coords t) (fun _ => (0 : EReal)) (iblk m c 2 t) := by dsimp only [dats]
theorem after3 (c : Dev nD) (t : Fin cfg0.N) :
    (dats m 0 c).after 3 t = win0_3.fill (grid0.coords t) (fun _ => (0 : EReal)) (iblk m c 3 t) := by dsimp only [dats]
theorem after4 (c : Dev nD) (t : Fin cfg0.N) :
    (dats m 0 c).after 4 t = win0_4.fill (grid0.coords t) (fun _ => (0 : EReal)) ((win0_4.blk t).view.read (Elt Ideal) (GK m c)) := by
  dsimp only [dats]

end Cert.KernelIdeal.Hand

end
-- ==== Proof.Blocks.lean ====
import proofs.«424847_j52561809769198_2_alg».proof.Proof.Gen.KernelIdeal.Frame
import Idealize.ShloMosaic.Lib.Pipeline.Value
import Idealize.ShloMosaic.Lib.ValueIdx

/-
  The kernel's pipeline windows read as index arithmetic. The grid has 22 × 8 × 4 points in row-major order:
  point `t` has column block `j = t / 32`, row block `i = t / 4 mod 8` and feature tile `k = t mod 4`.
  The activations' block at `t` is rows `i · 1024 …`, features `k · 1024 …`; the packed weights', zero points'
  and scales' blocks are rows `k · 128 …` (resp. `k · 8 …`), columns `j · 512 …`, the last column block cut to
  the 256 columns left in the array; the result's block is rows `i · 1024 …`, columns `j · 512 …`, written back
  at `k = 3`, and those write-backs cover the result array.
-/

noncomputable section

namespace Cert.KernelIdeal.Blocks

open Cert.KernelIdeal Cert.KernelIdeal.Gen Idealize.ShloMosaic Idealize.ShloMosaic.TcCoe Idealize.ShloMosaic.ValueIdx Idealize.SL.Sem

/-! ## The grid point's coordinates and the windows' block indices, in closed form -/

theorem coords_0 (t : Fin cfg0.N) : ((grid0.coords t) 0).val = t.val / 32 :=
  (by decide +kernel : ∀ t : Fin grid0.N, ((grid0.coords t) 0).val = t.val / 32) t
theorem coords_1 (t : Fin cfg0.N) : ((grid0.coords t) 1).val = t.val / 4 % 8 :=
  (by decide +kernel : ∀ t : Fin grid0.N, ((grid0.coords t) 1).val = t.val / 4 % 8) t
theorem coords_2 (t : Fin cfg0.N) : ((grid0.coords t) 2).val = t.val % 4 :=
  (by decide +kernel : ∀ t : Fin grid0.N, ((grid0.coords t) 2).val = t.val % 4) t

theorem N_eq : cfg0.N = 704 := by decide +kernel

theorem index0_0 (t : Fin cfg0.N) : win0_0.index t 0 = t.val / 4 % 8 :=
  (by decide +kernel : ∀ t : Fin grid0.N, win0_0.index t 0 = t.val / 4 % 8) t
theorem index0_1 (t : Fin cfg0.N) : win0_0.index t 1 = t.val % 4 :=
  (by decide +kernel : ∀ t : Fin grid0.N, win0_0.index t 1 = t.val % 4) t
theorem index1_0 (t : Fin cfg0.N) : win0_1.index t 0 = t.val % 4 :=
  (by decide +kernel : ∀ t : Fin grid0.N, win0_1.index t 0 = t.val % 4) t
theorem index1_1 (t : Fin cfg0.N) : win0_1.index t 1 = t.val / 32 :=
  (by decide +kernel : ∀ t : Fin grid0.N, win0_1.index t 1 = t.val / 32) t
theorem index2_0 (t : Fin cfg0.N) : win0_2.index t 0 = t.val % 4 :=
  (by decide +kernel : ∀ t : Fin grid0.N, win0_2.index t 0 = t.val % 4) t
theorem index2_1 (t : Fin cfg0.N) : win0_2.index t 1 = t.val / 32 :=
  (by decide +kernel : ∀ t : Fin grid0.N, win0_2.index t 1 = t.val / 32) t
theorem index3_0 (t : Fin cfg0.N) : win0_3.index t 0 = t.val % 4 :=
  (by decide +kernel : ∀ t : Fin grid0.N, win0_3.index t 0 = t.val % 4) t
theorem index3_1 (t : Fin cfg0.N) : win0_3.index t 1 = t.val / 32 :=
  (by decide +kernel : ∀ t : Fin grid0.N, win0_3.index t 1 = t.val / 32) t
theorem index4_0 (t : Fin cfg0.N) : win0_4.index t 0 = t.val / 4 % 8 :=
  (by decide +kernel : ∀ t : Fin grid0.N, win0_4.index t 0 = t.val / 4 % 8) t
theorem index4_1 (t : Fin cfg0.N) : win0_4.index t 1 = t.val / 32 :=
  (by decide +kernel : ∀ t : Fin grid0.N, win0_4.index t 1 = t.val / 32) t

/-- The cut sizes: a block's rows are never cut; its columns are the 512 of the block, or the 256 left in the
    array's last column block. -/
theorem xsize1_0 (t : Fin cfg0.N) : win0_1.xsize (grid0.coords t) 0 = 128 :=
  (by decide +kernel : ∀ t : Fin grid0.N, win0_1.xsize (grid0.coords t) 0 = 128) t
theorem xsize1_1 (t : Fin cfg0.N) : win0_1.xsize (grid0.coords t) 1 = min 512 (11008 - t.val / 32 * 512) :=
  (by decide +kernel : ∀ t : Fin grid0.N, win0_1.xsize (grid0.coords t) 1 = min 512 (11008 - t.val / 32 * 512)) t
theorem xsize2_0 (t : Fin cfg0.N) : win0_2.xsize (grid0.coords t) 0 = 8 :=
  (by decide +kernel : ∀ t : Fin grid0.N, win0_2.xsize (grid0.coords t) 0 = 8) t
theorem xsize2_1 (t : Fin cfg0.N) : win0_2.xsize (grid0.coords t) 1 = min 512 (11008 - t.val / 32 * 512) :=
  (by decide +kernel : ∀ t : Fin grid0.N, win0_2.xsize (grid0.coords t) 1 = min 512 (11008 - t.val / 32 * 512)) t
theorem xsize3_0 (t : Fin cfg0.N) : win0_3.xsize (grid0.coords t) 0 = 8 :=
  (by decide +kernel : ∀ t : Fin grid0.N, win0_3.xsize (grid0.coords t) 0 = 8) t
theorem xsize3_1 (t : Fin cfg0.N) : win0_3.xsize (grid0.coords t) 1 = min 512 (11008 - t.val / 32 * 512) :=
  (by decide +kernel : ∀ t : Fin grid0.N, win0_3.xsize (grid0.coords t) 1 = min 512 (11008 - t.val / 32 * 512)) t
theorem xsize4_0 (t : Fin cfg0.N) : win0_4.xsize (grid0.coords t) 0 = 1024 :=
  (by decide +kernel : ∀ t : Fin grid0.N, win0_4.xsize (grid0.coords t) 0 = 1024) t
theorem xsize4_1 (t : Fin cfg0.N) : win0_4.xsize (grid0.coords t) 1 = min 512 (11008 - t.val / 32 * 512) :=
  (by decide +kernel : ∀ t : Fin grid0.N, win0_4.xsize (grid0.coords t) 1 = min 512 (11008 - t.val / 32 * 512)) t

/-! ## Window 0: the activations' block -/

variable (m : (ℓ : Loc nD τ sig) → Buf (Elt Ideal) ℓ) (c : Dev nD) (t : Fin cfg0.N)

/-- Element `(r, q)` of the activations' block at point `t` is the array's element
    `(i · 1024 + r, k · 1024 + q)`, with `i = t / 4 mod 8` and `k = t mod 4`. -/
theorem blk0_apply (r q : Fin 1024) :
    (iblk (F := Ideal) m c 0 t) (ix2 r q)
      = (V (F := Ideal) m c main_v14 : S8192x4096.Idx → EReal)
          (ix2 (⟨t.val / 4 % 8 * 1024 + r.val, by omega⟩ : Fin 8192) (⟨t.val % 4 * 1024 + q.val, by omega⟩ : Fin 4096)) := by
  unfold iblk
  rw [View.read_apply]
  show (V (F := Ideal) m c main_v14 : S8192x4096.Idx → EReal) ((win0_0.rect t).emb (ix2 r q)) = _
  refine congrArg _ (funext fun a => Fin.ext ?_)
  rw [Pipeline.Window.rect_emb_val]
  match a with
  | ⟨0, _⟩ => exact congrArg (· * 1024 + r.val) (index0_0 t)
  | ⟨1, _⟩ => exact congrArg (· * 1024 + q.val) (index0_1 t)

/-! ## The clipped input windows: what a fetch leaves in the staging buffer -/

/-- Where every coordinate of a block index lies inside the part the transfer moves, the filled block holds
    the fetched part's element. -/
theorem fill_apply_of_lt {G : Pipeline.Grid} (w : Pipeline.Window sig G) {α : Type} (i : G.Coords)
    (d : w.block.Idx → α) (g : (w.xblock i).Idx → α) (j : w.block.Idx) (h : ∀ a, (j a).val < w.xsize i a) :
    w.fill i d g j = g (fun a => ⟨(j a).val, h a⟩) := by
  unfold Pipeline.Window.fill
  rw [dif_pos ((w.moved_iff i j).mpr h)]

/-- Element `(r', col)` of the packed weights' fetched block at point `t`, for a column inside the array, is
    the array's element `(k · 128 + r', j · 512 + col)`, with `k = t mod 4` and `j = t / 32`. -/
theorem fetched1_apply (d : S128x512.Idx → BitVec 32) (r' : Fin 128) (col : Fin 512) (hv : t.val / 32 * 512 + col.val < 11008) :
    win0_1.fill (grid0.coords t) d (iblk (F := Ideal) m c 1 t) (ix2 r' col)
      = (V (F := Ideal) m c main_arg1 : S512x11008.Idx → BitVec 32)
          (ix2 (⟨t.val % 4 * 128 + r'.val, by omega⟩ : Fin 512) (⟨t.val / 32 * 512 + col.val, hv⟩ : Fin 11008)) := by
  have h : ∀ a, ((ix2 r' col : S128x512.Idx) a).val < win0_1.xsize (grid0.coords t) a := fun a =>
    match a with
    | ⟨0, _⟩ => lt_of_lt_of_eq r'.isLt (xsize1_0 t).symm
    | ⟨1, _⟩ => lt_of_lt_of_eq (show col.val < min 512 (11008 - t.val / 32 * 512) by have := col.isLt; omega) (xsize1_1 t).symm
  rw [fill_apply_of_lt win0_1 (grid0.coords t) d _ (ix2 r' col) h]
  unfold iblk
  rw [View.read_apply]
  show (V (F := Ideal) m c main_arg1 : S512x11008.Idx → BitVec 32) ((win0_1.rect t).emb _) = _
  refine congrArg _ (funext fun a => Fin.ext ?_)
  rw [Pipeline.Window.rect_emb_val]
  match a with
  | ⟨0, _⟩ => exact congrArg (· * 128 + r'.val) (index1_0 t)
  | ⟨1, _⟩ => exact congrArg (· * 512 + col.val) (index1_1 t)

/-- Element `(g, col)` of the zero points' fetched block at point `t`, for a column inside the array, is the
    array's element `(k · 8 + g, j · 512 + col)`. -/
theorem fetched2_apply (d : S8x512.Idx → EReal) (g : Fin 8) (col : Fin 512) (hv : t.val / 32 * 512 + col.val < 11008) :
    win0_2.fill (grid0.coords t) d (iblk (F := Ideal) m c 2 t) (ix2 g col)
      = (V (F := Ideal) m c main_v13 : S32x11008.Idx → EReal)
          (ix2 (⟨t.val % 4 * 8 + g.val, by omega⟩ : Fin 32) (⟨t.val / 32 * 512 + col.val, hv⟩ : Fin 11008)) := by
  have h : ∀ a, ((ix2 g col : S8x512.Idx) a).val < win0_2.xsize (grid0.coords t) a := fun a =>
    match a with
    | ⟨0, _⟩ => lt_of_lt_of_eq g.isLt (xsize2_0 t).symm
    | ⟨1, _⟩ => lt_of_lt_of_eq (show col.val < min 512 (11008 - t.val / 32 * 512) by have := col.isLt; omega) (xsize2_1 t).symm
  rw [fill_apply_of_lt win0_2 (grid0.coords t) d _ (ix2 g col) h]
  unfold iblk
  rw [View.read_apply]
  show (V (F := Ideal) m c main_v13 : S32x11008.Idx → EReal) ((win0_2.rect t).emb _) = _
  refine congrArg _ (funext fun a => Fin.ext ?_)
  rw [Pipeline.Window.rect_emb_val]
  match a with
  | ⟨0, _⟩ => exact congrArg (· * 8 + g.val) (index2_0 t)
  | ⟨1, _⟩ => exact congrArg (· * 512 + col.val) (index2_1 t)

/-- Element `(g, col)` of the scales' fetched block at point `t`, for a column inside the array, is the array's
    element `(k · 8 + g, j · 512 + col)`. -/
theorem fetched3_apply (d : S8x512.Idx → EReal) (g : Fin 8) (col : Fin 512) (hv : t.val / 32 * 512 + col.val < 11008) :
    win0_3.fill (grid0.coords t) d (iblk (F := Ideal) m c 3 t) (ix2 g col)
      = (V (F := Ideal) m c main_arg3 : S32x11008.Idx → EReal)
          (ix2 (⟨t.val % 4 * 8 + g.val, by omega⟩ : Fin 32) (⟨t.val / 32 * 512 + col.val, hv⟩ : Fin 11008)) := by
  have h : ∀ a, ((ix2 g col : S8x512.Idx) a).val < win0_3.xsize (grid0.coords t) a := fun a =>
    match a with
    | ⟨0, _⟩ => lt_of_lt_of_eq g.isLt (xsize3_0 t).symm
    | ⟨1, _⟩ => lt_of_lt_of_eq (show col.val < min 512 (11008 - t.val / 32 * 512) by have := col.isLt; omega) (xsize3_1 t).symm
  rw [fill_apply_of_lt win0_3 (grid0.coords t) d _ (ix2 g col) h]
  unfold iblk
  rw [View.read_apply]
  show (V (F := Ideal) m c main_arg3 : S32x11008.Idx → EReal) ((win0_3.rect t).emb _) = _
  refine congrArg _ (funext fun a => Fin.ext ?_)
  rw [Pipeline.Window.rect_emb_val]
  match a with
  | ⟨0, _⟩ => exact congrArg (· * 8 + g.val) (index3_0 t)
  | ⟨1, _⟩ => exact congrArg (· * 512 + col.val) (index3_1 t)

/-! ## The output window: what a write-back writes, and that the write-backs cover the array -/

/-- If the staging buffer's element `(r, col)`, for every row and column inside the array, is the array-shaped
    `Gf` at `(i · 1024 + r, j · 512 + col)` (with `i = t / 4 mod 8`, `j = t / 32`), then what point `t`'s
    write-back writes is block `t` of `Gf`. -/
theorem cut4_eq (X : S1024x512.Idx → EReal) (Gf : S8192x11008.Idx → EReal)
    (h : ∀ (r : Fin 1024) (col : Fin 512) (hr : t.val / 4 % 8 * 1024 + r.val < 8192) (hv : t.val / 32 * 512 + col.val < 11008),
      X (ix2 r col) = Gf (ix2 (⟨t.val / 4 % 8 * 1024 + r.val, hr⟩ : Fin 8192) (⟨t.val / 32 * 512 + col.val, hv⟩ : Fin 11008))) :
    win0_4.cut (grid0.coords t) X = (win0_4.blk t).view.read (Elt Ideal) Gf := by
  funext y
  rw [View.read_apply]
  have h0 : (y 0).val < 1024 := lt_of_lt_of_eq (y 0).isLt (xsize4_0 t)
  have h1 : (y 1).val < min 512 (11008 - t.val / 32 * 512) := lt_of_lt_of_eq (y 1).isLt (xsize4_1 t)
  have h1' : (y 1).val < 512 := by omega
  have hr : t.val / 4 % 8 * 1024 + (y 0).val < 8192 := by omega
  have hv : t.val / 32 * 512 + (y 1).val < 11008 := by omega
  have ex : win0_4.xinj (grid0.coords t) y = ix2 (⟨(y 0).val, h0⟩ : Fin 1024) (⟨(y 1).val, h1'⟩ : Fin 512) := by
    funext a
    match a with
    | ⟨0, _⟩ => rfl
    | ⟨1, _⟩ => rfl
  show X (win0_4.xinj (grid0.coords t) y) = Gf ((win0_4.rect t).emb y)
  refine (congrArg X ex).trans ((h ⟨(y 0).val, h0⟩ ⟨(y 1).val, h1'⟩ hr hv).trans (congrArg Gf (funext fun a => Fin.ext ?_)))
  rw [Pipeline.Window.rect_emb_val]
  match a with
  | ⟨0, _⟩ => exact (congrArg (· * 1024 + (y 0).val) (index4_0 t)).symm
  | ⟨1, _⟩ => exact (congrArg (· * 512 + (y 1).val) (index4_1 t)).symm

/-- Every element `(R, C)` of the result array lies in the block written back at the last feature tile of its
    row block and column block: the point `(C / 512) · 32 + (R / 1024) · 4 + 3`. -/
theorem cover4 : ∀ idx : S8192x11008.Idx, ∃ t : Fin cfg0.N, (cfg0.win 4).flush t = true ∧ idx ∈ ((cfg0.win 4).blk t).view.set := by
  intro idx
  have h0 : (idx 0).val < 8192 := (idx 0).isLt
  have h1 : (idx 1).val < 11008 := (idx 1).isLt
  have hN : (idx 1).val / 512 * 32 + (idx 0).val / 1024 * 4 + 3 < cfg0.N := by rw [N_eq]; omega
  obtain ⟨t, ht⟩ : ∃ t : Fin cfg0.N, t.val = (idx 1).val / 512 * 32 + (idx 0).val / 1024 * 4 + 3 := ⟨⟨_, hN⟩, rfl⟩
  refine ⟨t, (flush0_4 t).mpr (by omega), ?_⟩
  show idx ∈ ((View.whole main_v15).slice (win0_4.rect t)).set
  rw [View.set_slice_whole, Rect.mem_set_unit]
  intro a
  match a with
  | ⟨0, _⟩ =>
    show win0_4.index t 0 * 1024 ≤ (idx 0).val ∧ (idx 0).val < win0_4.index t 0 * 1024 + win0_4.xsize (grid0.coords t) 0
    rw [index4_0, xsize4_0]
    omega
  | ⟨1, _⟩ =>
    show win0_4.index t 1 * 512 ≤ (idx 1).val ∧ (idx 1).val < win0_4.index t 1 * 512 + win0_4.xsize (grid0.coords t) 1
    rw [index4_1, xsize4_1]
    omega

end Cert.KernelIdeal.Blocks

end
-- ==== Proof.RunsIdealBase.lean ====
/-
  The kernel body run on whole staging and scratch memrefs, once for each way its three conditions fall.

  The body resets the accumulator when the feature-tile coordinate is 0, fills one 1024-row band of the weight cache
  from the packed tile when the row-tile coordinate is 0, adds the product of the input tile with that band of the
  cache to the accumulator, and copies the accumulator to the output tile when the feature-tile coordinate is 3.
  Each run states what the body is handed (the four input tiles, the output tile, the accumulator and the cache at
  named contents) and hands every buffer back: the inputs as they were, the other three with the stores the body
  made written over what they held (the lists of stores are the witnesses the run finds).
-/
import proofs.«424847_j52561809769198_2_alg».proof.Proof.Gen.KernelIdeal.Frame
import proofs.«424847_j52561809769198_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body's first condition (the feature-tile coordinate is 0), as the kernel computes it. -/
abbrev cond1 (i : grid0.Coords) : Prop := (Scalar.cmpi .ne (Scalar.extui (Scalar.cmpi .eq (BitVec.ofNat 32 (i 2).val) 0#32)) 0#32) = 1#1

/-! ## The three conditions over the grid, in closed form

Position `t` of the 22 × 8 × 4 grid (row-major) has feature-tile coordinate `t % 4` and row-tile coordinate `t / 4 % 8`. -/

theorem hcond1 : ∀ t : Fin cfg0.N, cond1 (grid0.coords t) ↔ t.val % 4 = 0 :=
  (by decide +kernel : ∀ t : Fin grid0.N, cond1 (grid0.coords t) ↔ t.val % 4 = 0)
theorem hcond2 : ∀ t : Fin cfg0.N, k0_cond2 (grid0.coords t) = 1#1 ↔ t.val / 4 % 8 = 0 :=
  (by decide +kernel : ∀ t : Fin grid0.N, k0_cond2 (grid0.coords t) = 1#1 ↔ t.val / 4 % 8 = 0)
theorem hcond3 : ∀ t : Fin cfg0.N, k0_cond3 (grid0.coords t) = 1#1 ↔ t.val % 4 = 3 :=
  (by decide +kernel : ∀ t : Fin grid0.N, k0_cond3 (grid0.coords t) = 1#1 ↔ t.val % 4 = 3)

end Cert.KernelIdeal.Body

end
-- ==== Proof.RunsIdealA.lean ====
/-
  The kernel body run on whole staging and scratch memrefs, once for each way its three conditions fall.

  The body resets the accumulator when the feature-tile coordinate is 0, fills one 1024-row band of the weight cache
  from the packed tile when the row-tile coordinate is 0, adds the product of the input tile with that band of the
  cache to the accumulator, and copies the accumulator to the output tile when the feature-tile coordinate is 3.
  Each run states what the body is handed (the four input tiles, the output tile, the accumulator and the cache at
  named contents) and hands every buffer back: the inputs as they were, the other three with the stores the body
  made written over what they held (the lists of stores are the witnesses the run finds).
-/
import proofs.«424847_j52561809769198_2_alg».proof.Proof.RunsIdealBase

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- Feature tile 0 of the first row tile: reset, fill the band, accumulate. -/
noncomputable def runA (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S8x512 .f32) (harg6 : arg6.IsWhole)
    (arg7 : Memref sig .tc .vmem S1024x512 .f32) (harg7 : arg7.IsWhole) (arg8 : Memref sig .tc .vmem S1024x512 .f32) (harg8 : arg8.IsWhole)
    (arg9 : Memref sig .tc .vmem S4096x512 .bf16) (harg9 : arg9.IsWhole)
    (hc1 : cond1 i) (hc2 : k0_cond2 i = 1#1) (hc3 : ¬k0_cond3 i = 1#1)
    (x0 : Vec F S1024x1024 .bf16) (x1 : Vec F S128x512 .i32) (x2 x3 : Vec F S8x512 .f32)
    (xs8 : Vec F S1024x512 .f32) (xs9 : Vec F S4096x512 .bf16) :
    Σ' (L7 : List (View.Piece (Elt F) S1024x512 .f32)) (L8 : List (View.Piece (Elt F) S1024x512 .f32)), { L9 : List (View.Piece (Elt F) S4096x512 .bf16) //
      ∀ (xi7 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xi7
            ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (arg7.view.loc (c : Thread nD τ) ↦[arg7.view.set]{fullShare} arg7.view.writes (Elt F) (harg7.unread xi7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc0__matmul_kernel i arg3 harg3 arg4 harg4 arg5 harg5 arg6 harg6 arg7 harg7 arg8 harg8 arg9 harg9) K } := by
  refine ⟨[], ?_, ?_, fun xi7 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg6.eq_unread hf3; obtain rfl := harg7.eq_unread hf7; obtain rfl := harg8.eq_unread hf8
    obtain rfl := harg9.eq_unread hf9
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexact H7
    isplitl [H8]
    · iexact H8
    iexact H9

end Cert.KernelIdeal.Body

end
-- ==== Proof.RunsIdealB.lean ====
/-
  The kernel body run on whole staging and scratch memrefs, once for each way its three conditions fall.

  The body resets the accumulator when the feature-tile coordinate is 0, fills one 1024-row band of the weight cache
  from the packed tile when the row-tile coordinate is 0, adds the product of the input tile with that band of the
  cache to the accumulator, and copies the accumulator to the output tile when the feature-tile coordinate is 3.
  Each run states what the body is handed (the four input tiles, the output tile, the accumulator and the cache at
  named contents) and hands every buffer back: the inputs as they were, the other three with the stores the body
  made written over what they held (the lists of stores are the witnesses the run finds).
-/
import proofs.«424847_j52561809769198_2_alg».proof.Proof.RunsIdealBase

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- Feature tile 0 of a later row tile: reset, accumulate from the cached band. -/
noncomputable def runB (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S8x512 .f32) (harg6 : arg6.IsWhole)
    (arg7 : Memref sig .tc .vmem S1024x512 .f32) (harg7 : arg7.IsWhole) (arg8 : Memref sig .tc .vmem S1024x512 .f32) (harg8 : arg8.IsWhole)
    (arg9 : Memref sig .tc .vmem S4096x512 .bf16) (harg9 : arg9.IsWhole)
    (hc1 : cond1 i) (hc2 : ¬k0_cond2 i = 1#1) (hc3 : ¬k0_cond3 i = 1#1)
    (x0 : Vec F S1024x1024 .bf16) (x1 : Vec F S128x512 .i32) (x2 x3 : Vec F S8x512 .f32)
    (xs8 : Vec F S1024x512 .f32) (xs9 : Vec F S4096x512 .bf16) :
    Σ' (L7 : List (View.Piece (Elt F) S1024x512 .f32)) (L8 : List (View.Piece (Elt F) S1024x512 .f32)), { L9 : List (View.Piece (Elt F) S4096x512 .bf16) //
      ∀ (xi7 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xi7
            ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (arg7.view.loc (c : Thread nD τ) ↦[arg7.view.set]{fullShare} arg7.view.writes (Elt F) (harg7.unread xi7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc0__matmul_kernel i arg3 harg3 arg4 harg4 arg5 harg5 arg6 harg6 arg7 harg7 arg8 harg8 arg9 harg9) K } := by
  refine ⟨[], ?_, [], fun xi7 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg6.eq_unread hf3; obtain rfl := harg7.eq_unread hf7; obtain rfl := harg8.eq_unread hf8
    obtain rfl := harg9.eq_unread hf9
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexact H7
    isplitl [H8]
    · iexact H8
    iexact H9

end Cert.KernelIdeal.Body

end
-- ==== Proof.RunsIdealC.lean ====
/-
  The kernel body run on whole staging and scratch memrefs, once for each way its three conditions fall.

  The body resets the accumulator when the feature-tile coordinate is 0, fills one 1024-row band of the weight cache
  from the packed tile when the row-tile coordinate is 0, adds the product of the input tile with that band of the
  cache to the accumulator, and copies the accumulator to the output tile when the feature-tile coordinate is 3.
  Each run states what the body is handed (the four input tiles, the output tile, the accumulator and the cache at
  named contents) and hands every buffer back: the inputs as they were, the other three with the stores the body
  made written over what they held (the lists of stores are the witnesses the run finds).
-/
import proofs.«424847_j52561809769198_2_alg».proof.Proof.RunsIdealBase

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- A middle feature tile of the first row tile: fill the band, accumulate. -/
noncomputable def runC (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S8x512 .f32) (harg6 : arg6.IsWhole)
    (arg7 : Memref sig .tc .vmem S1024x512 .f32) (harg7 : arg7.IsWhole) (arg8 : Memref sig .tc .vmem S1024x512 .f32) (harg8 : arg8.IsWhole)
    (arg9 : Memref sig .tc .vmem S4096x512 .bf16) (harg9 : arg9.IsWhole)
    (hc1 : ¬cond1 i) (hc2 : k0_cond2 i = 1#1) (hc3 : ¬k0_cond3 i = 1#1)
    (x0 : Vec F S1024x1024 .bf16) (x1 : Vec F S128x512 .i32) (x2 x3 : Vec F S8x512 .f32)
    (xs8 : Vec F S1024x512 .f32) (xs9 : Vec F S4096x512 .bf16) :
    Σ' (L7 : List (View.Piece (Elt F) S1024x512 .f32)) (L8 : List (View.Piece (Elt F) S1024x512 .f32)), { L9 : List (View.Piece (Elt F) S4096x512 .bf16) //
      ∀ (xi7 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xi7
            ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (arg7.view.loc (c : Thread nD τ) ↦[arg7.view.set]{fullShare} arg7.view.writes (Elt F) (harg7.unread xi7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc0__matmul_kernel i arg3 harg3 arg4 harg4 arg5 harg5 arg6 harg6 arg7 harg7 arg8 harg8 arg9 harg9) K } := by
  refine ⟨[], ?_, ?_, fun xi7 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg6.eq_unread hf3; obtain rfl := harg7.eq_unread hf7; obtain rfl := harg8.eq_unread hf8
    obtain rfl := harg9.eq_unread hf9
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexact H7
    isplitl [H8]
    · iexact H8
    iexact H9

end Cert.KernelIdeal.Body

end
-- ==== Proof.RunsIdealD.lean ====
/-
  The kernel body run on whole staging and scratch memrefs, once for each way its three conditions fall.

  The body resets the accumulator when the feature-tile coordinate is 0, fills one 1024-row band of the weight cache
  from the packed tile when the row-tile coordinate is 0, adds the product of the input tile with that band of the
  cache to the accumulator, and copies the accumulator to the output tile when the feature-tile coordinate is 3.
  Each run states what the body is handed (the four input tiles, the output tile, the accumulator and the cache at
  named contents) and hands every buffer back: the inputs as they were, the other three with the stores the body
  made written over what they held (the lists of stores are the witnesses the run finds).
-/
import proofs.«424847_j52561809769198_2_alg».proof.Proof.RunsIdealBase

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- A middle feature tile of a later row tile: accumulate from the cached band. -/
noncomputable def runD (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S8x512 .f32) (harg6 : arg6.IsWhole)
    (arg7 : Memref sig .tc .vmem S1024x512 .f32) (harg7 : arg7.IsWhole) (arg8 : Memref sig .tc .vmem S1024x512 .f32) (harg8 : arg8.IsWhole)
    (arg9 : Memref sig .tc .vmem S4096x512 .bf16) (harg9 : arg9.IsWhole)
    (hc1 : ¬cond1 i) (hc2 : ¬k0_cond2 i = 1#1) (hc3 : ¬k0_cond3 i = 1#1)
    (x0 : Vec F S1024x1024 .bf16) (x1 : Vec F S128x512 .i32) (x2 x3 : Vec F S8x512 .f32)
    (xs8 : Vec F S1024x512 .f32) (xs9 : Vec F S4096x512 .bf16) :
    Σ' (L7 : List (View.Piece (Elt F) S1024x512 .f32)) (L8 : List (View.Piece (Elt F) S1024x512 .f32)), { L9 : List (View.Piece (Elt F) S4096x512 .bf16) //
      ∀ (xi7 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xi7
            ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (arg7.view.loc (c : Thread nD τ) ↦[arg7.view.set]{fullShare} arg7.view.writes (Elt F) (harg7.unread xi7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc0__matmul_kernel i arg3 harg3 arg4 harg4 arg5 harg5 arg6 harg6 arg7 harg7 arg8 harg8 arg9 harg9) K } := by
  refine ⟨[], ?_, [], fun xi7 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg6.eq_unread hf3; obtain rfl := harg7.eq_unread hf7; obtain rfl := harg8.eq_unread hf8
    obtain rfl := harg9.eq_unread hf9
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexact H7
    isplitl [H8]
    · iexact H8
    iexact H9

end Cert.KernelIdeal.Body

end
-- ==== Proof.RunsIdealE.lean ====
/-
  The kernel body run on whole staging and scratch memrefs, once for each way its three conditions fall.

  The body resets the accumulator when the feature-tile coordinate is 0, fills one 1024-row band of the weight cache
  from the packed tile when the row-tile coordinate is 0, adds the product of the input tile with that band of the
  cache to the accumulator, and copies the accumulator to the output tile when the feature-tile coordinate is 3.
  Each run states what the body is handed (the four input tiles, the output tile, the accumulator and the cache at
  named contents) and hands every buffer back: the inputs as they were, the other three with the stores the body
  made written over what they held (the lists of stores are the witnesses the run finds).
-/
import proofs.«424847_j52561809769198_2_alg».proof.Proof.RunsIdealBase

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The last feature tile of the first row tile: fill the band, accumulate, copy out. -/
noncomputable def runE (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S8x512 .f32) (harg6 : arg6.IsWhole)
    (arg7 : Memref sig .tc .vmem S1024x512 .f32) (harg7 : arg7.IsWhole) (arg8 : Memref sig .tc .vmem S1024x512 .f32) (harg8 : arg8.IsWhole)
    (arg9 : Memref sig .tc .vmem S4096x512 .bf16) (harg9 : arg9.IsWhole)
    (hc1 : ¬cond1 i) (hc2 : k0_cond2 i = 1#1) (hc3 : k0_cond3 i = 1#1)
    (x0 : Vec F S1024x1024 .bf16) (x1 : Vec F S128x512 .i32) (x2 x3 : Vec F S8x512 .f32)
    (xs8 : Vec F S1024x512 .f32) (xs9 : Vec F S4096x512 .bf16) :
    Σ' (L7 : List (View.Piece (Elt F) S1024x512 .f32)) (L8 : List (View.Piece (Elt F) S1024x512 .f32)), { L9 : List (View.Piece (Elt F) S4096x512 .bf16) //
      ∀ (xi7 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xi7
            ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (arg7.view.loc (c : Thread nD τ) ↦[arg7.view.set]{fullShare} arg7.view.writes (Elt F) (harg7.unread xi7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc0__matmul_kernel i arg3 harg3 arg4 harg4 arg5 harg5 arg6 harg6 arg7 harg7 arg8 harg8 arg9 harg9) K } := by
  refine ⟨?_, ?_, ?_, fun xi7 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg6.eq_unread hf3; obtain rfl := harg7.eq_unread hf7; obtain rfl := harg8.eq_unread hf8
    obtain rfl := harg9.eq_unread hf9
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexact H7
    isplitl [H8]
    · iexact H8
    iexact H9

end Cert.KernelIdeal.Body

end
-- ==== Proof.RunsIdealF.lean ====
/-
  The kernel body run on whole staging and scratch memrefs, once for each way its three conditions fall.

  The body resets the accumulator when the feature-tile coordinate is 0, fills one 1024-row band of the weight cache
  from the packed tile when the row-tile coordinate is 0, adds the product of the input tile with that band of the
  cache to the accumulator, and copies the accumulator to the output tile when the feature-tile coordinate is 3.
  Each run states what the body is handed (the four input tiles, the output tile, the accumulator and the cache at
  named contents) and hands every buffer back: the inputs as they were, the other three with the stores the body
  made written over what they held (the lists of stores are the witnesses the run finds).
-/
import proofs.«424847_j52561809769198_2_alg».proof.Proof.RunsIdealBase

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The last feature tile of a later row tile: accumulate from the cached band, copy out. -/
noncomputable def runF (c : Dev nD) (i : grid0.Coords)
    (arg3 : Memref sig .tc .vmem S1024x1024 .bf16) (harg3 : arg3.IsWhole) (arg4 : Memref sig .tc .vmem S128x512 .i32) (harg4 : arg4.IsWhole)
    (arg5 : Memref sig .tc .vmem S8x512 .f32) (harg5 : arg5.IsWhole) (arg6 : Memref sig .tc .vmem S8x512 .f32) (harg6 : arg6.IsWhole)
    (arg7 : Memref sig .tc .vmem S1024x512 .f32) (harg7 : arg7.IsWhole) (arg8 : Memref sig .tc .vmem S1024x512 .f32) (harg8 : arg8.IsWhole)
    (arg9 : Memref sig .tc .vmem S4096x512 .bf16) (harg9 : arg9.IsWhole)
    (hc1 : ¬cond1 i) (hc2 : ¬k0_cond2 i = 1#1) (hc3 : k0_cond3 i = 1#1)
    (x0 : Vec F S1024x1024 .bf16) (x1 : Vec F S128x512 .i32) (x2 x3 : Vec F S8x512 .f32)
    (xs8 : Vec F S1024x512 .f32) (xs9 : Vec F S4096x512 .bf16) :
    Σ' (L7 : List (View.Piece (Elt F) S1024x512 .f32)) (L8 : List (View.Piece (Elt F) S1024x512 .f32)), { L9 : List (View.Piece (Elt F) S4096x512 .bf16) //
      ∀ (xi7 : Vec F S1024x512 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare xi7
            ∗ owns (c : Thread nD τ) arg8 fullShare xs8 ∗ owns (c : Thread nD τ) arg9 fullShare xs9
            ∗ (iprop(owns (c : Thread nD τ) arg3 fullShare x0 ∗ owns (c : Thread nD τ) arg4 fullShare x1 ∗ owns (c : Thread nD τ) arg5 fullShare x2
                ∗ owns (c : Thread nD τ) arg6 fullShare x3
                ∗ (arg7.view.loc (c : Thread nD τ) ↦[arg7.view.set]{fullShare} arg7.view.writes (Elt F) (harg7.unread xi7) L7)
                ∗ (arg8.view.loc (c : Thread nD τ) ↦[arg8.view.set]{fullShare} arg8.view.writes (Elt F) (harg8.unread xs8) L8)
                ∗ (arg9.view.loc (c : Thread nD τ) ↦[arg9.view.set]{fullShare} arg9.view.writes (Elt F) (harg9.unread xs9) L9)) -∗ K ⟨⟩))
          ⊢ wp frame (wpE (defs₀ (F := F)) Variants.none c none) E (cc0__matmul_kernel i arg3 harg3 arg4 harg4 arg5 harg5 arg6 harg6 arg7 harg7 arg8 harg8 arg9 harg9) K } := by
  refine ⟨?_, ?_, [], fun xi7 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%f3, %hf3, H3⟩, ⟨%f7, %hf7, H7⟩, ⟨%f8, %hf8, H8⟩, ⟨%f9, %hf9, H9⟩, Hk⟩
    obtain rfl := harg3.eq_unread hf0; obtain rfl := harg4.eq_unread hf1; obtain rfl := harg5.eq_unread hf2
    obtain rfl := harg6.eq_unread hf3; obtain rfl := harg7.eq_unread hf7; obtain rfl := harg8.eq_unread hf8
    obtain rfl := harg9.eq_unread hf9
    sl_exec (disch := first | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H7]
    · iexact H7
    isplitl [H8]
    · iexact H8
    iexact H9

end Cert.KernelIdeal.Body

end
-- ==== Proof.RunsIdeal.lean ====
/-
  The kernel body run on whole staging and scratch memrefs, once for each way its three conditions fall.

  The body resets the accumulator when the feature-tile coordinate is 0, fills one 1024-row band of the weight cache
  from the packed tile when the row-tile coordinate is 0, adds the product of the input tile with that band of the
  cache to the accumulator, and copies the accumulator to the output tile when the feature-tile coordinate is 3.
  Each run states what the body is handed (the four input tiles, the output tile, the accumulator and the cache at
  named contents) and hands every buffer back: the inputs as they were, the other three with the stores the body
  made written over what they held (the lists of stores are the witnesses the run finds).
-/
import proofs.«424847_j52561809769198_2_alg».proof.Proof.RunsIdealA
import proofs.«424847_j52561809769198_2_alg».proof.Proof.RunsIdealB
import proofs.«424847_j52561809769198_2_alg».proof.Proof.RunsIdealC
import proofs.«424847_j52561809769198_2_alg».proof.Proof.RunsIdealD
import proofs.«424847_j52561809769198_2_alg».proof.Proof.RunsIdealE
import proofs.«424847_j52561809769198_2_alg».proof.Proof.RunsIdealF

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

end Cert.KernelIdeal.Body

end
-- ==== Proof.BodyIdeal.lean ====
/-
  The body obligation of the idealized kernel's pipeline: at every grid point, from the invariant and the five
  windows' current staging buffers at what they then hold, the body runs to the invariant at the next point and
  every buffer at what the proof data names — the inputs as found, the output tile (at the points with feature tile 3)
  at the block of the product on the columns inside the array.
-/
import proofs.«424847_j52561809769198_2_alg».proof.Proof.DatIdeal
import proofs.«424847_j52561809769198_2_alg».proof.Proof.Blocks
import proofs.«424847_j52561809769198_2_alg».proof.Proof.RunsIdeal

set_option maxRecDepth 16384

noncomputable section

namespace Cert.KernelIdeal.Hand

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What the staging buffers hold when the body starts -/

/-- The input tile's buffer holds its block, fetched at this point or not. -/
theorem before0 (c : Dev nD) (t : Fin cfg0.N) (d) : (dats m 0 c).before 0 t d = iblk m c 0 t :=
  before0_0_of m (dats m 0 c) (A_eq m c 0) (after0 m c) t d

/-- The three windows of the weight tables are fetched at every point: their buffers hold the block on the part
    inside the array and whatever `d` is elsewhere. -/
theorem before1 (c : Dev nD) (t : Fin cfg0.N) (d) :
    (dats m 0 c).before 1 t d = win0_1.fill (grid0.coords t) d (iblk m c 1 t) := by
  unfold Dat.before; rw [if_pos (fetch0_1 t)]; rfl
theorem before2 (c : Dev nD) (t : Fin cfg0.N) (d) :
    (dats m 0 c).before 2 t d = win0_2.fill (grid0.coords t) d (iblk m c 2 t) := by
  unfold Dat.before; rw [if_pos (fetch0_2 t)]; rfl
theorem before3 (c : Dev nD) (t : Fin cfg0.N) (d) :
    (dats m 0 c).before 3 t d = win0_3.fill (grid0.coords t) d (iblk m c 3 t) := by
  unfold Dat.before; rw [if_pos (fetch0_3 t)]; rfl

/-! ## What the obligation asks of each window's buffer afterwards -/

theorem leaves0 (c : Dev nD) (t : Fin cfg0.N) :
    (dats m 0 c).leaves 0 t = owns (c : Thread nD τ) (st0_0 t) fullShare (iblk m c 0 t) := by
  show owns (c : Thread nD τ) (st0_0 t) fullShare ((dats m 0 c).after 0 t) = _
  rw [after0]
theorem leaves1 (c : Dev nD) (t : Fin cfg0.N) :
    (dats m 0 c).leaves 1 t = iprop(∃ d, owns (c : Thread nD τ) (st0_1 t) fullShare (win0_1.fill (grid0.coords t) d (iblk m c 1 t))) := by
  show iprop(∃ d, owns (c : Thread nD τ) (st0_1 t) fullShare (win0_1.fill (grid0.coords t) d (win0_1.cut (grid0.coords t) ((dats m 0 c).after 1 t)))) = _
  rw [after1, Window.cut_fill]
theorem leaves2 (c : Dev nD) (t : Fin cfg0.N) :
    (dats m 0 c).leaves 2 t = iprop(∃ d, owns (c : Thread nD τ) (st0_2 t) fullShare (win0_2.fill (grid0.coords t) d (iblk m c 2 t))) := by
  show iprop(∃ d, owns (c : Thread nD τ) (st0_2 t) fullShare (win0_2.fill (grid0.coords t) d (win0_2.cut (grid0.coords t) ((dats m 0 c).after 2 t)))) = _
  rw [after2, Window.cut_fill]
theorem leaves3 (c : Dev nD) (t : Fin cfg0.N) :
    (dats m 0 c).leaves 3 t = iprop(∃ d, owns (c : Thread nD τ) (st0_3 t) fullShare (win0_3.fill (grid0.coords t) d (iblk m c 3 t))) := by
  show iprop(∃ d, owns (c : Thread nD τ) (st0_3 t) fullShare (win0_3.fill (grid0.coords t) d (win0_3.cut (grid0.coords t) ((dats m 0 c).after 3 t)))) = _
  rw [after3, Window.cut_fill]

/-- At a point whose feature tile is not the last the output window is idle and is not written back: its buffer is
    handed back as found. -/
theorem leaves4_idle (c : Dev nD) (t : Fin cfg0.N) (h3 : ¬ k0_cond3 (grid0.coords t) = 1#1) (ht : ¬ t.val % 4 = 3) :
    (dats m 0 c).leaves 4 t = iprop(∃ d, owns (c : Thread nD τ) (st0_4 t) fullShare ((dats m 0 c).before 4 t d)) :=
  Dat.leaves_idle (dats m 0 c) 4 t
    (by show (!(k0_cond3 (grid0.coords t) == 1#1)) = true
        rw [beq_eq_false_iff_ne.mpr h3]; rfl)
    (Bool.eq_false_iff.mpr fun h => ht ((flush0_4 t).mp h))

/-- At a point with the last feature tile the output buffer is asked to hold the block of the product on the part the
    write-back moves. -/
theorem leaves4_live (c : Dev nD) (t : Fin cfg0.N) (h3 : k0_cond3 (grid0.coords t) = 1#1) :
    (dats m 0 c).leaves 4 t = iprop(∃ d, owns (c : Thread nD τ) (st0_4 t) fullShare
      (win0_4.fill (grid0.coords t) d ((win0_4.blk t).view.read (Elt Ideal) (GK m c)))) := by
  have hi : cfg0.idle 4 (grid0.coords t) = false := by
    show (!(k0_cond3 (grid0.coords t) == 1#1)) = false
    rw [h3]; rfl
  unfold Dat.leaves
  rw [hi]
  show iprop(∃ d, owns (c : Thread nD τ) (st0_4 t) fullShare (win0_4.fill (grid0.coords t) d (win0_4.cut (grid0.coords t) ((dats m 0 c).after 4 t)))) = _
  rw [after4, Window.cut_fill]

/-! ## The memrefs the body is called with -/

abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x512 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x512 .f32 := win0_4.stage (cfg0.slots t 4)
abbrev hs4 (t : Fin cfg0.N) : (ms4 t).IsWhole := hstage0_4 ((cfg0.slots t 4).cast nbuf0_4)
abbrev hsc0 : scM0.IsWhole := Memref.isWhole_whole cc0_scratch0
abbrev hsc1 : scM1.IsWhole := Memref.isWhole_whole cc0_scratch1

/-! ## The obligation at a point, from a run of the body and what its stores leave -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t ∗ (dats m 0 c).leaves 4 t)

/-- What a run of the body at point `t` must say of the three buffers it stores into, as functions of what it was
    handed (`x0 … x3` the input tiles, `xs8` the accumulator, `xs9` the cache, `xi7` the output tile): the accumulator
    ends at the old one (zero at feature tile 0) plus the product of the input tile with band `t % 4` of the NEW cache;
    the cache's band `t % 4` is rewritten with the dequantized packed tile at row tile 0 and nothing else changes;
    the output tile takes the new accumulator at feature tile 3 and is untouched otherwise. -/
structure StoresLeave (t : Fin cfg0.N) (x0 : S1024x1024.Idx → EReal) (x1 : S128x512.Idx → BitVec 32) (x2 x3 : S8x512.Idx → EReal)
    (xs8 : S1024x512.Idx → EReal) (xs9 : S4096x512.Idx → EReal)
    (A' : S1024x512.Idx → EReal) (C' : S4096x512.Idx → EReal) (X7' : (S1024x512.Idx → EReal) → S1024x512.Idx → EReal) : Prop where
  acc : ∀ (r : Fin 1024) (col : Fin 512), A' (ix2 r col)
      = (if t.val % 4 = 0 then 0 else xs8 (ix2 r col)) + ∑ q : Fin 1024, x0 (ix2 r q) * C' (ix2 (⟨t.val % 4 * 1024 + q.val, by omega⟩ : Fin 4096) col)
  band : t.val / 4 % 8 = 0 → ∀ (q : Fin 1024) (col : Fin 512), C' (ix2 (⟨t.val % 4 * 1024 + q.val, by omega⟩ : Fin 4096) col)
      = Cert.Spec.deq (x1 (ix2 (⟨q.val / 8, by omega⟩ : Fin 128) col)) ⟨q.val % 8, Nat.mod_lt _ (by decide)⟩
          (x2 (ix2 (⟨q.val / 128, by omega⟩ : Fin 8) col)) (x3 (ix2 (⟨q.val / 128, by omega⟩ : Fin 8) col))
  rest : t.val / 4 % 8 = 0 → ∀ (row : Fin 4096) (col : Fin 512), (row.val < t.val % 4 * 1024 ∨ t.val % 4 * 1024 + 1024 ≤ row.val) →
      C' (ix2 row col) = xs9 (ix2 row col)
  keep : t.val / 4 % 8 ≠ 0 → C' = xs9
  out : t.val % 4 = 3 → ∀ xi7, X7' xi7 = A'
  idle : t.val % 4 ≠ 3 → ∀ xi7, X7' xi7 = xi7

set_option maxHeartbeats 1600000 in
/-- From a run of the body that hands the four inputs back and the other three buffers with its stores written over what
    they held, and from what those stores leave (`StoresLeave`): the obligation at the point. The invariant steps by
    `Cert.Spec.inv_step` over the blocks the windows read; at feature tile 3 the output tile agrees with the product on
    the columns inside the array, which is all the write-back moves. -/
theorem sound_of_run (c : Dev nD) (t : Fin cfg0.N)
    (hrun : ∀ (x1 : Vec Ideal S128x512 .i32) (x2 x3 : Vec Ideal S8x512 .f32) (xs8 : Vec Ideal S1024x512 .f32) (xs9 : Vec Ideal S4096x512 .bf16),
      ∃ (L7 : List (View.Piece (Elt Ideal) S1024x512 .f32)) (L8 : List (View.Piece (Elt Ideal) S1024x512 .f32)) (L9 : List (View.Piece (Elt Ideal) S4096x512 .bf16)),
      (∀ (xi7 : Vec Ideal S1024x512 .f32) (E : Set ℕ) (K : PUnit → sProp 𝕄),
        iprop(owns (c : Thread nD τ) (ms0 t) fullShare (iblk m c 0 t) ∗ owns (c : Thread nD τ) (ms1 t) fullShare x1 ∗ owns (c : Thread nD τ) (ms2 t) fullShare x2
            ∗ owns (c : Thread nD τ) (ms3 t) fullShare x3 ∗ owns (c : Thread nD τ) (ms4 t) fullShare xi7
            ∗ owns (c : Thread nD τ) scM0 fullShare xs8 ∗ owns (c : Thread nD τ) scM1 fullShare xs9
            ∗ (iprop(owns (c : Thread nD τ) (ms0 t) fullShare (iblk m c 0 t) ∗ owns (c : Thread nD τ) (ms1 t) fullShare x1 ∗ owns (c : Thread nD τ) (ms2 t) fullShare x2
                ∗ owns (c : Thread nD τ) (ms3 t) fullShare x3
                ∗ ((ms4 t).view.loc (c : Thread nD τ) ↦[(ms4 t).view.set]{fullShare} (ms4 t).view.writes (Elt Ideal) ((hs4 t).unread xi7) L7)
                ∗ (scM0.view.loc (c : Thread nD τ) ↦[scM0.view.set]{fullShare} scM0.view.writes (Elt Ideal) (hsc0.unread xs8) L8)
                ∗ (scM1.view.loc (c : Thread nD τ) ↦[scM1.view.set]{fullShare} scM1.view.writes (Elt Ideal) (hsc1.unread xs9) L9)) -∗ K ⟨⟩))
          ⊢ wp frame (wpE (defs₀ (F := Ideal)) Variants.none c none) E (bodyAt0 t) K)
      ∧ StoresLeave t (iblk m c 0 t) x1 x2 x3 xs8 xs9
          (scM0.view.read (Elt Ideal) (scM0.view.writes (Elt Ideal) (hsc0.unread xs8) L8))
          (scM1.view.read (Elt Ideal) (scM1.view.writes (Elt Ideal) (hsc1.unread xs9) L9))
          (fun xi7 => (ms4 t).view.read (Elt Ideal) ((ms4 t).view.writes (Elt Ideal) ((hs4 t).unread xi7) L7))) :
    bodyPre m c t ⊢ wp frame (wpE (defs₀ (F := Ideal)) Variants.none c none) Set.univ (bodyAt0 t) (fun _ => bodyPost m c t) := by
  unfold bodyPre bodyPost
  simp only [before0, before1, before2, before3]
  rw [leaves0, leaves1, leaves2, leaves3]
  rw [show (dats m 0 c).owesAt () t.succ = (dats m 0 c).owesAt () t.castSucc from rfl]
  rw [Phi_eq, Phi_eq]
  rw [show (t.succ : Fin (cfg0.N + 1)).val = t.val + 1 from rfl, show (t.castSucc : Fin (cfg0.N + 1)).val = t.val from rfl]
  unfold PhiI
  have hN : t.val < 704 := lt_of_lt_of_eq t.isLt Blocks.N_eq
  iintro ⟨⟨%A, %C, %hInv, HS8, HS9, Hg⟩, Ho, ⟨%d0, H0⟩, ⟨%d1, H1⟩, ⟨%d2, H2⟩, ⟨%d3, H3⟩, ⟨%d4, H4⟩⟩
  obtain ⟨L7, L8, L9, h, hS⟩ := hrun (win0_1.fill (grid0.coords t) d1 (iblk m c 1 t)) (win0_2.fill (grid0.coords t) d2 (iblk m c 2 t))
    (win0_3.fill (grid0.coords t) d3 (iblk m c 3 t)) A C
  -- the invariant's step and the output tile, from what the stores leave
  have hstep := Cert.Spec.inv_step (xK m c) t.val hN (qwK m c) (zK m c) (scK m c) A _ C _
    (iblk m c 0 t) (win0_1.fill (grid0.coords t) d1 (iblk m c 1 t)) (win0_2.fill (grid0.coords t) d2 (iblk m c 2 t))
    (win0_3.fill (grid0.coords t) d3 (iblk m c 3 t))
    (fun r q => Blocks.blk0_apply m c t r q)
    (fun r' col hv => Blocks.fetched1_apply m c t d1 r' col hv)
    (fun g col hv => Blocks.fetched2_apply m c t d2 g col hv)
    (fun g col hv => Blocks.fetched3_apply m c t d3 g col hv)
    hS.acc hS.band hS.rest hS.keep hInv
  iapply (h ((dats m 0 c).before 4 t d4) Set.univ _)
  isplitl [H0]; · iexact H0
  isplitl [H1]; · iexact H1
  isplitl [H2]; · iexact H2
  isplitl [H3]; · iexact H3
  isplitl [H4]; · iexact H4
  isplitl [HS8]; · iexact HS8
  isplitl [HS9]; · iexact HS9
  iintro ⟨H0, H1, H2, H3, H7, H8, H9⟩
  isplitl [H8 H9 Hg]
  · iexists _, _
    isplitr
    · ipureintro; exact hstep.1
    isplitl [H8]
    · iapply (owns_intro (c : Thread nD τ) scM0 fullShare _); iexact H8
    isplitl [H9]
    · iapply (owns_intro (c : Thread nD τ) scM1 fullShare _); iexact H9
    iexact Hg
  isplitl [Ho]; · iexact Ho
  isplitl [H0]; · iexact H0
  isplitl [H1]; · iexists d1; iexact H1
  isplitl [H2]; · iexists d2; iexact H2
  isplitl [H3]; · iexists d3; iexact H3
  by_cases h3 : k0_cond3 (grid0.coords t) = 1#1
  · have ht3 : t.val % 4 = 3 := (hcond3 t).mp h3
    rw [leaves4_live m c t h3]
    iexists ((ms4 t).view.read (Elt Ideal) ((ms4 t).view.writes (Elt Ideal) ((hs4 t).unread ((dats m 0 c).before 4 t d4)) L7))
    have hcut := Blocks.cut4_eq t ((ms4 t).view.read (Elt Ideal) ((ms4 t).view.writes (Elt Ideal) ((hs4 t).unread ((dats m 0 c).before 4 t d4)) L7)) (GK m c)
      (fun r col hr hv => by rw [hS.out ht3]; exact hstep.2 ht3 r col hr hv)
    rw [← hcut, Window.fill_cut]
    iapply (owns_intro (c : Thread nD τ) (ms4 t) fullShare _); iexact H7
  · have ht3 : ¬ t.val % 4 = 3 := fun h => h3 ((hcond3 t).mpr h)
    rw [leaves4_idle m c t h3 ht3]
    iexists d4
    have e : (owns (c : Thread nD τ) (st0_4 t) fullShare ((dats m 0 c).before 4 t d4) : sProp 𝕄)
        = owns (c : Thread nD τ) (st0_4 t) fullShare ((ms4 t).view.read (Elt Ideal) ((ms4 t).view.writes (Elt Ideal) ((hs4 t).unread ((dats m 0 c).before 4 t d4)) L7)) :=
      congrArg (fun X => (owns (c : Thread nD τ) (st0_4 t) fullShare X : sProp 𝕄)) (hS.idle ht3 ((dats m 0 c).before 4 t d4)).symm
    rw [e]
    iapply (owns_intro (c : Thread nD τ) (ms4 t) fullShare _); iexact H7

end Cert.KernelIdeal.Hand

end
-- ==== Proof.Payloads.lean ====
/-
  The three values the kernel body stores, read at one index.

  The accumulator's initial value is the zero array. The weight tile the body writes is, at row r and column n, the
  dequantized weight: nibble r mod 8 of the packed word at row r / 8, minus the zero point of group r / 128, times
  that group's scale. The accumulator's update adds to the old accumulator, at (r, n), the sum over the 1024
  features of the tile of the activation times the weight.
-/
import proofs.«424847_j52561809769198_2_alg».proof.Proof.Gen.KernelIdeal.Skeleton
import proofs.«424847_j52561809769198_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The layout operations of the weight tile, each read at an index -/

section Layout
variable {α : Type}

/-- [128,8,512] viewed [1024,512]: row r is packed row r / 8, nibble r mod 8. -/
theorem cast_nib (x : S128x8x512.Idx → α) (h : S128x8x512.ShapeCasts S1024x512) (r : Fin 1024) (n : Fin 512) :
    shapeCast S1024x512 x h (ix2 r n)
      = x (ix3 (⟨r.val / 8, by omega⟩ : Fin 128) (⟨r.val % 8, Nat.mod_lt _ (by decide)⟩ : Fin 8) n) := by
  refine shapeCast_apply x h _ _ ?_
  rw [Shape.rowMajor_val_two, Shape.rowMajor_val_three]
  show (r.val / 8 * 8 + r.val % 8) * 512 + n.val = r.val * 512 + n.val
  omega

/-- [8,128,512] viewed [1024,512]: row r lies in group r / 128. -/
theorem cast_grp (x : S8x128x512.Idx → α) (h : S8x128x512.ShapeCasts S1024x512) (r : Fin 1024) (n : Fin 512) :
    shapeCast S1024x512 x h (ix2 r n)
      = x (ix3 (⟨r.val / 128, by omega⟩ : Fin 8) (⟨r.val % 128, Nat.mod_lt _ (by decide)⟩ : Fin 128) n) := by
  refine shapeCast_apply x h _ _ ?_
  rw [Shape.rowMajor_val_two, Shape.rowMajor_val_three]
  show (r.val / 128 * 128 + r.val % 128) * 512 + n.val = r.val * 512 + n.val
  omega

/-- The packed words repeated along the nibble axis. -/
theorem bc_word (x : S128x1x512.Idx → α) (h : S128x1x512.Broadcasts S128x8x512) (a : Fin 128) (s : Fin 8) (n : Fin 512) :
    broadcastTo S128x8x512 x h (ix3 a s n) = x (ix3 a (0 : Fin 1) n) :=
  broadcastTo_apply x h _ _ (fun b => match b with | ⟨0, _⟩ => rfl | ⟨1, _⟩ => rfl | ⟨2, _⟩ => rfl)

/-- The eight shifts repeated along the rows and the columns. -/
theorem bc_shift (x : S1x8x1.Idx → α) (h : S1x8x1.Broadcasts S128x8x512) (a : Fin 128) (s : Fin 8) (n : Fin 512) :
    broadcastTo S128x8x512 x h (ix3 a s n) = x (ix3 (0 : Fin 1) s (0 : Fin 1)) :=
  broadcastTo_apply x h _ _ (fun b => match b with | ⟨0, _⟩ => rfl | ⟨1, _⟩ => rfl | ⟨2, _⟩ => rfl)

/-- A group's row repeated along the 128 rows of the group. -/
theorem bc_grp (x : S8x1x512.Idx → α) (h : S8x1x512.Broadcasts S8x128x512) (g : Fin 8) (t : Fin 128) (n : Fin 512) :
    broadcastTo S8x128x512 x h (ix3 g t n) = x (ix3 g (0 : Fin 1) n) :=
  broadcastTo_apply x h _ _ (fun b => match b with | ⟨0, _⟩ => rfl | ⟨1, _⟩ => rfl | ⟨2, _⟩ => rfl)

/-- [128,512] viewed [128,1,512]. -/
theorem cast_word (x : S128x512.Idx → α) (h : S128x512.ShapeCasts S128x1x512) (a : Fin 128) (n : Fin 512) :
    shapeCast S128x1x512 x h (ix3 a (0 : Fin 1) n) = x (ix2 a n) := by
  refine shapeCast_apply x h _ _ ?_
  rw [Shape.rowMajor_val_two, Shape.rowMajor_val_three]
  show a.val * 512 + n.val = (a.val * 1 + 0) * 512 + n.val
  omega

/-- [8,512] viewed [8,1,512]. -/
theorem cast_row (x : S8x512.Idx → α) (h : S8x512.ShapeCasts S8x1x512) (g : Fin 8) (n : Fin 512) :
    shapeCast S8x1x512 x h (ix3 g (0 : Fin 1) n) = x (ix2 g n) := by
  refine shapeCast_apply x h _ _ ?_
  rw [Shape.rowMajor_val_two, Shape.rowMajor_val_three]
  show g.val * 512 + n.val = (g.val * 1 + 0) * 512 + n.val
  omega

/-- [8] viewed [1,8,1]. -/
theorem cast_shift (x : S8.Idx → α) (h : S8.ShapeCasts S1x8x1) (s : Fin 8) :
    shapeCast S1x8x1 x h (ix3 (0 : Fin 1) s (0 : Fin 1)) = x (ix1 s) := by
  refine shapeCast_apply x h _ _ ?_
  rw [Shape.rowMajor_val_one, Shape.rowMajor_val_three]
  show s.val = (0 * 8 + s.val) * 1 + 0
  omega

/-- [1,8] viewed [8]. -/
theorem cast_lane (x : S1x8.Idx → α) (h : S1x8.ShapeCasts S8) (s : Fin 8) :
    shapeCast S8 x h (ix1 s) = x (ix2 (0 : Fin 1) s) := by
  refine shapeCast_apply x h _ _ ?_
  rw [Shape.rowMajor_val_two, Shape.rowMajor_val_one]
  show 0 * 8 + s.val = s.val
  omega

end Layout

/-- The accumulator's initial value is zero everywhere. -/
theorem pay1_apply (r : Fin 1024) (n : Fin 512) : k0_pay1 (F := Ideal) (ix2 r n) = 0 := by
  unfold k0_pay1
  refine (congrFun (shapeCast_self _ _) _).trans ?_
  exact Ideal.ofBits_zero_f32

/-- The weight tile at row r and column n is the dequantized weight. -/
theorem pay2_apply (v21 : Vec Ideal S128x512 .i32) (v35 v37 : Vec Ideal S8x512 .f32) (r : Fin 1024) (n : Fin 512) :
    k0_pay2 (F := Ideal) v21 v35 v37 (ix2 r n)
      = Cert.Spec.deq (v21 (ix2 (⟨r.val / 8, by omega⟩ : Fin 128) n)) ⟨r.val % 8, Nat.mod_lt _ (by decide)⟩
          (v35 (ix2 (⟨r.val / 128, by omega⟩ : Fin 8) n)) (v37 (ix2 (⟨r.val / 128, by omega⟩ : Fin 8) n)) := by
  unfold k0_pay2
  simp only [shapeCast_self, truncf_apply, mulf_apply, subf_apply, sitofp_apply, cast_nib, cast_grp, bc_word, bc_shift,
    bc_grp, cast_word, cast_row, cast_shift, cast_lane, iota_single_apply, broadcast_apply, andi, shrsi, muli]
  rw [iota_single_apply]
  unfold Cert.Spec.deq Cert.Spec.nib
  rw [← Cert.Spec.shrsi_sh ArithUnit.vector]
  rfl

/-! ## The product's operand indices -/

theorem lhs_pay3_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_pay3_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_pay3_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_pay3_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The accumulator's update: the old value plus the tile's sum of products. -/
theorem pay3_apply (v9 : Vec Ideal S1024x512 .bf16) (v10 : Vec Ideal S1024x1024 .bf16) (v12 : Vec Ideal S1024x512 .f32)
    (r : Fin 1024) (n : Fin 512) :
    k0_pay3 (F := Ideal) v9 v10 v12 (ix2 r n) = v12 (ix2 r n) + ∑ q : Fin 1024, v10 (ix2 r q) * v9 (ix2 q n) := by
  unfold k0_pay3
  refine (congrFun (shapeCast_self _ _) _).trans ?_
  refine (addf_apply _ _ _).trans ?_
  refine congrArg (fun t => v12 (ix2 r n) + t) ?_
  rw [shapeCast_self]
  simp only [matmul]
  rw [Ideal.matmul_constant_zero_apply, ← Equiv.sum_comp (ValueIdx.contrEquiv1 dot_S1024x1024_S1024x512_S1024x512_1_0_0_1_n_n 1024 rfl rfl).symm]
  refine Finset.sum_congr rfl fun k _ => ?_
  have hk := ValueIdx.contrEquiv1_symm_val dot_S1024x1024_S1024x512_S1024x512_1_0_0_1_n_n 1024 rfl rfl k
  have el : dot_S1024x1024_S1024x512_S1024x512_1_0_0_1_n_n.lhsIdx (ix2 r n) ((ValueIdx.contrEquiv1 dot_S1024x1024_S1024x512_S1024x512_1_0_0_1_n_n 1024 rfl rfl).symm k) = ix2 r k := funext fun a => Fin.ext (by
    match a with
    | ⟨0, _⟩ => exact lhs_pay3_0 _ _
    | ⟨1, _⟩ => exact (lhs_pay3_1 _ _).trans hk)
  have er : dot_S1024x1024_S1024x512_S1024x512_1_0_0_1_n_n.rhsIdx (ix2 r n) ((ValueIdx.contrEquiv1 dot_S1024x1024_S1024x512_S1024x512_1_0_0_1_n_n 1024 rfl rfl).symm k) = ix2 k n := funext fun a => Fin.ext (by
    match a with
    | ⟨0, _⟩ => exact (rhs_pay3_0 _ _).trans hk
    | ⟨1, _⟩ => exact rhs_pay3_1 _ _)
  rw [el, er]

end Cert.KernelIdeal.Pay

end
-- ==== Proof.StoresAux.lean ====
import proofs.«424847_j52561809769198_2_alg».proof.Proof.BodyIdeal
import proofs.«424847_j52561809769198_2_alg».proof.Proof.Payloads
import Idealize.ShloMosaic.Lib.WritesUnit
import Idealize.ShloMosaic.Lib.Pipeline.Value
import Idealize.ShloMosaic.Lib.Pipeline.FrameBody

/-
  The index arithmetic of the body's loads and stores, shared by the six cases.

  A load of a whole buffer through the whole-shape rectangle reads the buffer's contents, and a store through that
  rectangle, made last, is what the buffer then reads. The weight cache has 4096 rows in four bands of 1024; at grid
  position t the band the body stores (when the row tile is 0) and the band the product reads both start at row
  (t mod 4) · 1024, so row q of either is row (t mod 4) · 1024 + q of the cache: the band read from an unstored
  cache is the cache's rows there, the stored band read back (directly or through the product's rectangle) is the
  stored tile, and rows off the band read what the earlier stores left.
-/

set_option maxRecDepth 16384

noncomputable section

open scoped BigOperators

namespace Cert.KernelIdeal.Hand

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.Sem

namespace StoresAux

theorem hz : (![0, 0] : Fin 2 → Nat) = fun _ => 0 := funext fun a => by fin_cases a <;> rfl

/-- A load of a whole buffer through the whole-shape rectangle reads its contents. -/
theorem load_whole {S : Shape} {e : EltTy} (M : Memref sig .tc .vmem S e) (h : M.IsWhole) {off : Fin S.rank → Nat}
    (h0 : off = fun _ => 0) (inb : ∀ a, off a + S.size a ≤ S.size a) (X : S.Idx → Elt Ideal e) :
    M.view.readAt (Elt Ideal) (Rect.unit off S.size inb).toLoadRect (h.unread X) = X := by
  rw [View.readAt_eq_ld, h.read_unread]
  exact View.ld_unit_zero h0 inb X

/-- Row `q`, column `col` of the band the product reads is row `(t mod 4) · 1024 + q` of the cache. -/
theorem band_idx (t : Fin cfg0.N) (q : Fin 1024) (col : Fin 512) :
    (Rect.unit (s := S4096x512) (k0_off2 (grid0.coords t)) S1024x512.size (k0_off2_inb (grid0.coords t))).toLoadRect.idx (ix2 q col)
      = ix2 (⟨t.val % 4 * 1024 + q.val, by omega⟩ : Fin 4096) col := by
  funext a
  refine Fin.ext ?_
  rw [LoadRect.idx_apply]
  show k0_off2 (grid0.coords t) a + 1 * ((ix2 q col : S1024x512.Idx) a).val = _
  rw [k0_off2_eq]
  match a with
  | ⟨0, _⟩ =>
    show 1024 * ((grid0.coords t) 2).val + 1 * q.val = t.val % 4 * 1024 + q.val
    rw [Blocks.coords_2]; omega
  | ⟨1, _⟩ =>
    show 0 + 1 * col.val = col.val
    omega

/-- The band read from a cache nothing was stored into: the cache's rows `(t mod 4) · 1024 …`. -/
theorem band_load_nil (t : Fin cfg0.N) (xs9 : S4096x512.Idx → EReal) (q : Fin 1024) (col : Fin 512) :
    scM1.view.readAt (Elt Ideal) (Rect.unit (s := S4096x512) (k0_off2 (grid0.coords t)) S1024x512.size (k0_off2_inb (grid0.coords t))).toLoadRect
        (hsc1.unread xs9) (ix2 q col)
      = xs9 (ix2 (⟨t.val % 4 * 1024 + q.val, by omega⟩ : Fin 4096) col) := by
  rw [View.readAt_apply, hsc1.read_unread, band_idx]

/-- The band the row-tile-0 points store, read back at a band index: the stored tile's element. -/
theorem band_store_read (t : Fin cfg0.N) (hc2 : k0_cond2 (grid0.coords t) = 1#1) (f : scM1.view.ty.Contents (Elt Ideal))
    (w : S1024x512.Idx → EReal) (L : List (View.Piece (Elt Ideal) S4096x512 .bf16)) (q : Fin 1024) (col : Fin 512) :
    scM1.view.read (Elt Ideal) (scM1.view.writes (Elt Ideal) f
        ((⟨Rect.unit (s := S4096x512) (k0_off1 (grid0.coords t)) S1024x512.size (k0_off1_inb (grid0.coords t) hc2), w⟩ : View.Piece (Elt Ideal) S4096x512 .bf16) :: L))
        (ix2 (⟨t.val % 4 * 1024 + q.val, by omega⟩ : Fin 4096) col)
      = w (ix2 q col) :=
  View.read_writes_cons_rows_of_mem scM1.view f (k0_off1_inb (grid0.coords t) hc2) w L _ (ix2 q col) (k0_off1_eq (grid0.coords t))
    (by show t.val % 4 * 1024 + q.val = 1024 * ((grid0.coords t) 2).val + q.val; rw [Blocks.coords_2]; omega) rfl

/-- Off the band, the cache reads what the earlier stores left. -/
theorem band_store_read_off (t : Fin cfg0.N) (hc2 : k0_cond2 (grid0.coords t) = 1#1) (f : scM1.view.ty.Contents (Elt Ideal))
    (w : S1024x512.Idx → EReal) (L : List (View.Piece (Elt Ideal) S4096x512 .bf16)) (row : Fin 4096) (col : Fin 512)
    (h : row.val < t.val % 4 * 1024 ∨ t.val % 4 * 1024 + 1024 ≤ row.val) :
    scM1.view.read (Elt Ideal) (scM1.view.writes (Elt Ideal) f
        ((⟨Rect.unit (s := S4096x512) (k0_off1 (grid0.coords t)) S1024x512.size (k0_off1_inb (grid0.coords t) hc2), w⟩ : View.Piece (Elt Ideal) S4096x512 .bf16) :: L))
        (ix2 row col)
      = scM1.view.read (Elt Ideal) (scM1.view.writes (Elt Ideal) f L) (ix2 row col) :=
  View.read_writes_cons_rows_of_not_mem (W := 1024) scM1.view f (k0_off1_inb (grid0.coords t) hc2) w L (ix2 row col) (k0_off1_eq (grid0.coords t)) rfl
    (by show row.val < 1024 * ((grid0.coords t) 2).val ∨ 1024 * ((grid0.coords t) 2).val + 1024 ≤ row.val; rw [Blocks.coords_2]; omega)

/-- The band read back through the product's rectangle after the band's store: the stored tile. -/
theorem band_load_cov (t : Fin cfg0.N) (hc2 : k0_cond2 (grid0.coords t) = 1#1) (w : S1024x512.Idx → EReal)
    (L : List (View.Piece (Elt Ideal) S4096x512 .bf16)) (q : Fin 1024) (col : Fin 512) :
    scM1.view.readCov ((⟨(Rect.unit (s := S4096x512) (k0_off1 (grid0.coords t)) S1024x512.size (k0_off1_inb (grid0.coords t) hc2)), w⟩ : View.Piece (Elt Ideal) S4096x512 .bf16) :: L)
        (Rect.unit (s := S4096x512) (k0_off2 (grid0.coords t)) S1024x512.size (k0_off2_inb (grid0.coords t))).toLoadRect (ix2 q col)
      = w (ix2 q col) := by
  have e12 : k0_off2 (grid0.coords t) = k0_off1 (grid0.coords t) := (k0_off2_eq _).trans (k0_off1_eq _).symm
  have e : (Rect.unit (s := S4096x512) (k0_off2 (grid0.coords t)) S1024x512.size (k0_off2_inb (grid0.coords t))).toLoadRect.idx (ix2 q col)
      = (Rect.unit (s := S4096x512) (k0_off1 (grid0.coords t)) S1024x512.size (k0_off1_inb (grid0.coords t) hc2)).emb (ix2 q col) :=
    funext fun a => Fin.ext (by
      rw [LoadRect.idx_apply, Rect.emb_apply]
      exact congrArg (fun o : Fin 2 → Nat => o a + 1 * ((ix2 q col : S1024x512.Idx) a).val) e12)
  rw [View.readCov_eq_canon']
  exact (congrArg (View.canon (Val := Elt Ideal) ((⟨(Rect.unit (s := S4096x512) (k0_off1 (grid0.coords t)) S1024x512.size (k0_off1_inb (grid0.coords t) hc2)), w⟩ : View.Piece (Elt Ideal) S4096x512 .bf16) :: L)) e).trans
    (View.canon_cons_emb (Rect.unit (s := S4096x512) (k0_off1 (grid0.coords t)) S1024x512.size (k0_off1_inb (grid0.coords t) hc2)) w L (ix2 q col))

/-- A store through the whole-shape rectangle, last, is what the buffer then reads. -/
theorem read_last_whole {S : Shape} {e : EltTy} (v : View sig .tc .vmem S e) (f : v.ty.Contents (Elt Ideal)) {off : Fin S.rank → Nat}
    (h0 : off = fun _ => 0) (inb : ∀ a, off a + S.size a ≤ S.size a) (w : S.Idx → Elt Ideal e) (L : List (View.Piece (Elt Ideal) S e)) :
    v.read (Elt Ideal) (v.writes (Elt Ideal) f ((⟨Rect.unit off S.size inb, w⟩ : View.Piece (Elt Ideal) S e) :: L)) = w := by
  rw [View.read_writes_eq_canon v f _ (fun y => ⟨_, List.Mem.head _, View.mem_set_unit_zero h0 inb y⟩),
    View.canon_cons_unit_zero h0]

end StoresAux

end Cert.KernelIdeal.Hand

end
-- ==== Proof.StoresA.lean ====
/-
  What the body's stores leave at feature tile 0 of the first row tile. The accumulator is reset to zero and then takes
  the product of the input tile with band 0 of the weight cache, which this point has just filled with the dequantized
  packed tile: the band read for the product is the tile just stored. The rest of the cache keeps what it held, and
  the output tile is not touched.
-/
import proofs.«424847_j52561809769198_2_alg».proof.Proof.StoresAux

set_option maxRecDepth 16384

noncomputable section

open scoped BigOperators

namespace Cert.KernelIdeal.Hand

open Cert.KernelIdeal Cert.KernelIdeal.Gen Cert.KernelIdeal.Body Cert.KernelIdeal.Hand.StoresAux
open Idealize.ShloMosaic Idealize.ShloMosaic.TcCoe Idealize.ShloMosaic.Tactic Idealize.ShloMosaic.ValueIdx
open Idealize.SL Idealize.SL.Sem

theorem storesA (c : Dev nD) (t : Fin cfg0.N) (hc1 : cond1 (grid0.coords t)) (hc2 : k0_cond2 (grid0.coords t) = 1#1) (hc3 : ¬k0_cond3 (grid0.coords t) = 1#1)
    (x0 : Vec Ideal S1024x1024 .bf16) (x1 : Vec Ideal S128x512 .i32) (x2 x3 : Vec Ideal S8x512 .f32) (xs8 : Vec Ideal S1024x512 .f32) (xs9 : Vec Ideal S4096x512 .bf16) :
    StoresLeave t x0 x1 x2 x3 xs8 xs9
      (scM0.view.read (Elt Ideal) (scM0.view.writes (Elt Ideal) (hsc0.unread xs8) (runA c (grid0.coords t) (ms0 t) (hs0 t) (ms1 t) (hs1 t) (ms2 t) (hs2 t) (ms3 t) (hs3 t) (ms4 t) (hs4 t) scM0 hsc0 scM1 hsc1 hc1 hc2 hc3 x0 x1 x2 x3 xs8 xs9).2.1))
      (scM1.view.read (Elt Ideal) (scM1.view.writes (Elt Ideal) (hsc1.unread xs9) (runA c (grid0.coords t) (ms0 t) (hs0 t) (ms1 t) (hs1 t) (ms2 t) (hs2 t) (ms3 t) (hs3 t) (ms4 t) (hs4 t) scM0 hsc0 scM1 hsc1 hc1 hc2 hc3 x0 x1 x2 x3 xs8 xs9).2.2.1))
      (fun xi7 => (ms4 t).view.read (Elt Ideal) ((ms4 t).view.writes (Elt Ideal) ((hs4 t).unread xi7) (runA c (grid0.coords t) (ms0 t) (hs0 t) (ms1 t) (hs1 t) (ms2 t) (hs2 t) (ms3 t) (hs3 t) (ms4 t) (hs4 t) scM0 hsc0 scM1 hsc1 hc1 hc2 hc3 x0 x1 x2 x3 xs8 xs9).1)) := by
  have ht0 : t.val % 4 = 0 := (hcond1 t).mp hc1
  have hi0 : t.val / 4 % 8 = 0 := (hcond2 t).mp hc2
  refine ⟨?acc, ?band, ?rest, ?keep, ?out, ?idle⟩
  case keep => intro h; exact absurd hi0 h
  case out => intro h; omega
  case idle =>
    intro _ xi7
    unfold runA; dsimp only
    rw [View.writes_nil]; exact Memref.IsWhole.read_unread (Val := Elt Ideal) (hs4 t) xi7
  case band =>
    intro _ q col
    unfold runA; dsimp only; sl_unfold_run_names
    rw [band_store_read t hc2, Pay.pay2_apply]
    rw [load_whole (ms1 t) (hs1 t) hz, load_whole (ms2 t) (hs2 t) hz, load_whole (ms3 t) (hs3 t) hz]
  case rest =>
    intro _ row col h
    unfold runA; dsimp only; sl_unfold_run_names
    rw [band_store_read_off t hc2 _ _ _ row col h, View.writes_nil, hsc1.read_unread]
  case acc =>
    intro r col
    unfold runA; dsimp only; sl_unfold_run_names
    rw [read_last_whole scM0.view _ hz]
    rw [Pay.pay3_apply, View.readCov_unit_zero (S := S1024x512) _ hz, Pay.pay1_apply, if_pos ht0]
    refine congrArg (fun s => (0 : EReal) + s) (Finset.sum_congr rfl fun q _ => ?_)
    rw [load_whole (ms0 t) (hs0 t) hz, band_load_cov t hc2, band_store_read t hc2]

end Cert.KernelIdeal.Hand

end
-- ==== Proof.StoresB.lean ====
import proofs.«424847_j52561809769198_2_alg».proof.Proof.StoresAux
import Idealize.ShloMosaic.Lib.WritesUnit
import Idealize.ShloMosaic.Lib.Pipeline.Value
import Idealize.ShloMosaic.Lib.Pipeline.FrameBody

/-
  What the body's stores leave at feature tile 0 of a later row tile. The accumulator is reset to zero and then takes
  the product of the input tile with band 0 of the weight cache, which is read as the earlier row tiles left it: the
  cache is not stored into, and the output tile is not touched.
-/

set_option maxRecDepth 16384

noncomputable section

open scoped BigOperators

namespace Cert.KernelIdeal.Hand

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.Sem
open StoresAux

theorem storesB (c : Dev nD) (t : Fin cfg0.N) (hc1 : cond1 (grid0.coords t)) (hc2 : ¬k0_cond2 (grid0.coords t) = 1#1) (hc3 : ¬k0_cond3 (grid0.coords t) = 1#1)
    (x0 : Vec Ideal S1024x1024 .bf16) (x1 : Vec Ideal S128x512 .i32) (x2 x3 : Vec Ideal S8x512 .f32) (xs8 : Vec Ideal S1024x512 .f32) (xs9 : Vec Ideal S4096x512 .bf16) :
    StoresLeave t x0 x1 x2 x3 xs8 xs9
      (scM0.view.read (Elt Ideal) (scM0.view.writes (Elt Ideal) (hsc0.unread xs8) (runB c (grid0.coords t) (ms0 t) (hs0 t) (ms1 t) (hs1 t) (ms2 t) (hs2 t) (ms3 t) (hs3 t) (ms4 t) (hs4 t) scM0 hsc0 scM1 hsc1 hc1 hc2 hc3 x0 x1 x2 x3 xs8 xs9).2.1))
      (scM1.view.read (Elt Ideal) (scM1.view.writes (Elt Ideal) (hsc1.unread xs9) (runB c (grid0.coords t) (ms0 t) (hs0 t) (ms1 t) (hs1 t) (ms2 t) (hs2 t) (ms3 t) (hs3 t) (ms4 t) (hs4 t) scM0 hsc0 scM1 hsc1 hc1 hc2 hc3 x0 x1 x2 x3 xs8 xs9).2.2.1))
      (fun xi7 => (ms4 t).view.read (Elt Ideal) ((ms4 t).view.writes (Elt Ideal) ((hs4 t).unread xi7) (runB c (grid0.coords t) (ms0 t) (hs0 t) (ms1 t) (hs1 t) (ms2 t) (hs2 t) (ms3 t) (hs3 t) (ms4 t) (hs4 t) scM0 hsc0 scM1 hsc1 hc1 hc2 hc3 x0 x1 x2 x3 xs8 xs9).1)) := by
  have ht0 : t.val % 4 = 0 := (hcond1 t).mp hc1
  have ht1 : ¬ t.val / 4 % 8 = 0 := fun h => hc2 ((hcond2 t).mpr h)
  refine ⟨?acc, ?band, ?rest, ?keep, ?out, ?idle⟩
  case band => intro h; exact absurd h ht1
  case rest => intro h; exact absurd h ht1
  case out => intro h; omega
  case keep =>
    intro _
    unfold runB; dsimp only
    rw [View.writes_nil]; exact hsc1.read_unread (Val := Elt Ideal) xs9
  case idle =>
    intro _ xi7
    unfold runB; dsimp only
    rw [View.writes_nil]; exact (hs4 t).read_unread (Val := Elt Ideal) xi7
  case acc =>
    intro r col
    unfold runB; dsimp only; sl_unfold_run_names
    rw [View.writes_nil, hsc1.read_unread]
    rw [read_last_whole scM0.view _ hz]
    rw [Pay.pay3_apply, View.readCov_unit_zero (S := S1024x512) _ hz, Pay.pay1_apply, if_pos ht0]
    refine congrArg (fun s => (0 : EReal) + s) (Finset.sum_congr rfl fun q _ => ?_)
    rw [load_whole (ms0 t) (hs0 t) hz, band_load_nil]

end Cert.KernelIdeal.Hand

end
-- ==== Proof.StoresC.lean ====
import proofs.«424847_j52561809769198_2_alg».proof.Proof.StoresAux
import Idealize.ShloMosaic.Lib.WritesUnit
import Idealize.ShloMosaic.Lib.Pipeline.Value
import Idealize.ShloMosaic.Lib.Pipeline.FrameBody

/-
  What the body's stores leave at a middle feature tile of the first row tile. The band of the weight cache for this
  feature tile is rewritten with the dequantized packed tile — row q of the band is nibble q mod 8 of packed row q / 8,
  minus the zero point and times the scale of group q / 128 — and the rest of the cache is as it was; the accumulator
  takes its old value plus the product of the input tile with the band just written; the output tile is not touched.
-/

set_option maxRecDepth 16384

noncomputable section

open scoped BigOperators

namespace Cert.KernelIdeal.Hand

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.Sem
open StoresAux

theorem storesC (c : Dev nD) (t : Fin cfg0.N) (hc1 : ¬cond1 (grid0.coords t)) (hc2 : k0_cond2 (grid0.coords t) = 1#1) (hc3 : ¬k0_cond3 (grid0.coords t) = 1#1)
    (x0 : Vec Ideal S1024x1024 .bf16) (x1 : Vec Ideal S128x512 .i32) (x2 x3 : Vec Ideal S8x512 .f32) (xs8 : Vec Ideal S1024x512 .f32) (xs9 : Vec Ideal S4096x512 .bf16) :
    StoresLeave t x0 x1 x2 x3 xs8 xs9
      (scM0.view.read (Elt Ideal) (scM0.view.writes (Elt Ideal) (hsc0.unread xs8) (runC c (grid0.coords t) (ms0 t) (hs0 t) (ms1 t) (hs1 t) (ms2 t) (hs2 t) (ms3 t) (hs3 t) (ms4 t) (hs4 t) scM0 hsc0 scM1 hsc1 hc1 hc2 hc3 x0 x1 x2 x3 xs8 xs9).2.1))
      (scM1.view.read (Elt Ideal) (scM1.view.writes (Elt Ideal) (hsc1.unread xs9) (runC c (grid0.coords t) (ms0 t) (hs0 t) (ms1 t) (hs1 t) (ms2 t) (hs2 t) (ms3 t) (hs3 t) (ms4 t) (hs4 t) scM0 hsc0 scM1 hsc1 hc1 hc2 hc3 x0 x1 x2 x3 xs8 xs9).2.2.1))
      (fun xi7 => (ms4 t).view.read (Elt Ideal) ((ms4 t).view.writes (Elt Ideal) ((hs4 t).unread xi7) (runC c (grid0.coords t) (ms0 t) (hs0 t) (ms1 t) (hs1 t) (ms2 t) (hs2 t) (ms3 t) (hs3 t) (ms4 t) (hs4 t) scM0 hsc0 scM1 hsc1 hc1 hc2 hc3 x0 x1 x2 x3 xs8 xs9).1)) := by
  have ht0 : ¬ t.val % 4 = 0 := fun h => hc1 ((hcond1 t).mpr h)
  have ht1 : t.val / 4 % 8 = 0 := (hcond2 t).mp hc2
  have ht3 : ¬ t.val % 4 = 3 := fun h => hc3 ((hcond3 t).mpr h)
  refine ⟨?acc, ?band, ?rest, ?keep, ?out, ?idle⟩
  case keep => intro h; exact absurd ht1 h
  case out => intro h; exact absurd h ht3
  case idle =>
    intro _ xi7
    unfold runC; dsimp only
    rw [View.writes_nil]; exact (hs4 t).read_unread (Val := Elt Ideal) xi7
  case rest =>
    intro _ row col h
    unfold runC; dsimp only; sl_unfold_run_names
    rw [band_store_read_off t hc2 _ _ _ row col h, View.writes_nil, hsc1.read_unread]
  case band =>
    intro _ q col
    unfold runC; dsimp only; sl_unfold_run_names
    rw [band_store_read t hc2, Pay.pay2_apply, load_whole (ms1 t) (hs1 t) hz,
      load_whole (ms2 t) (hs2 t) hz, load_whole (ms3 t) (hs3 t) hz]
  case acc =>
    intro r col
    unfold runC; dsimp only; sl_unfold_run_names
    rw [read_last_whole scM0.view _ hz]
    rw [Pay.pay3_apply, load_whole scM0 hsc0 hz, if_neg ht0]
    refine congrArg (fun s => xs8 (ix2 r col) + s) (Finset.sum_congr rfl fun q _ => ?_)
    rw [load_whole (ms0 t) (hs0 t) hz, band_load_cov t hc2, band_store_read t hc2]

end Cert.KernelIdeal.Hand

end
-- ==== Proof.StoresD.lean ====
import proofs.«424847_j52561809769198_2_alg».proof.Proof.BodyIdeal
import proofs.«424847_j52561809769198_2_alg».proof.Proof.Payloads
import proofs.«424847_j52561809769198_2_alg».proof.Proof.StoresAux
import Idealize.ShloMosaic.Lib.WritesUnit
import Idealize.ShloMosaic.Lib.Pipeline.Value
import Idealize.ShloMosaic.Lib.Pipeline.FrameBody

/-
  What the body's stores leave at a middle feature tile of a later row tile. The accumulator takes, added to what it
  held, the product of the input tile with band `t mod 4` of the weight cache, which is read as the earlier row
  tiles left it: the cache is not stored into, and the output tile is not touched.
-/

set_option maxRecDepth 16384

noncomputable section

open scoped BigOperators

namespace Cert.KernelIdeal.Hand

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.Sem
open StoresAux

theorem storesD (c : Dev nD) (t : Fin cfg0.N) (hc1 : ¬cond1 (grid0.coords t)) (hc2 : ¬k0_cond2 (grid0.coords t) = 1#1) (hc3 : ¬k0_cond3 (grid0.coords t) = 1#1)
    (x0 : Vec Ideal S1024x1024 .bf16) (x1 : Vec Ideal S128x512 .i32) (x2 x3 : Vec Ideal S8x512 .f32) (xs8 : Vec Ideal S1024x512 .f32) (xs9 : Vec Ideal S4096x512 .bf16) :
    StoresLeave t x0 x1 x2 x3 xs8 xs9
      (scM0.view.read (Elt Ideal) (scM0.view.writes (Elt Ideal) (hsc0.unread xs8) (runD c (grid0.coords t) (ms0 t) (hs0 t) (ms1 t) (hs1 t) (ms2 t) (hs2 t) (ms3 t) (hs3 t) (ms4 t) (hs4 t) scM0 hsc0 scM1 hsc1 hc1 hc2 hc3 x0 x1 x2 x3 xs8 xs9).2.1))
      (scM1.view.read (Elt Ideal) (scM1.view.writes (Elt Ideal) (hsc1.unread xs9) (runD c (grid0.coords t) (ms0 t) (hs0 t) (ms1 t) (hs1 t) (ms2 t) (hs2 t) (ms3 t) (hs3 t) (ms4 t) (hs4 t) scM0 hsc0 scM1 hsc1 hc1 hc2 hc3 x0 x1 x2 x3 xs8 xs9).2.2.1))
      (fun xi7 => (ms4 t).view.read (Elt Ideal) ((ms4 t).view.writes (Elt Ideal) ((hs4 t).unread xi7) (runD c (grid0.coords t) (ms0 t) (hs0 t) (ms1 t) (hs1 t) (ms2 t) (hs2 t) (ms3 t) (hs3 t) (ms4 t) (hs4 t) scM0 hsc0 scM1 hsc1 hc1 hc2 hc3 x0 x1 x2 x3 xs8 xs9).1)) := by
  have ht0 : ¬ t.val % 4 = 0 := fun h => hc1 ((hcond1 t).mpr h)
  have ht1 : ¬ t.val / 4 % 8 = 0 := fun h => hc2 ((hcond2 t).mpr h)
  have ht3 : ¬ t.val % 4 = 3 := fun h => hc3 ((hcond3 t).mpr h)
  refine ⟨?acc, ?band, ?rest, ?keep, ?out, ?idle⟩
  case band => intro h; exact absurd h ht1
  case rest => intro h; exact absurd h ht1
  case out => intro h; exact absurd h ht3
  case keep =>
    intro _
    unfold runD; dsimp only
    rw [View.writes_nil]; exact hsc1.read_unread xs9
  case idle =>
    intro _ xi7
    unfold runD; dsimp only
    rw [View.writes_nil]; exact (hs4 t).read_unread (Val := Elt Ideal) xi7
  case acc =>
    intro r col
    unfold runD; dsimp only; sl_unfold_run_names
    rw [View.writes_nil, hsc1.read_unread]
    refine (congrFun (read_last_whole (S := S1024x512) _ _ hz _ _ []) (ix2 r col)).trans ?_
    rw [Pay.pay3_apply, load_whole scM0 hsc0 hz, if_neg ht0]
    refine congrArg (fun s => xs8 (ix2 r col) + s) (Finset.sum_congr rfl fun q _ => ?_)
    rw [load_whole (ms0 t) (hs0 t) hz, band_load_nil]

end Cert.KernelIdeal.Hand

end
-- ==== Proof.StoresE.lean ====
import proofs.«424847_j52561809769198_2_alg».proof.Proof.StoresAux
import Idealize.ShloMosaic.Lib.WritesUnit
import Idealize.ShloMosaic.Lib.Pipeline.Value
import Idealize.ShloMosaic.Lib.Pipeline.FrameBody

/-
  What the body's stores leave at the last feature tile of the first row tile. The band of the weight cache for this
  feature tile is rewritten with the dequantized packed tile — row q of the band is nibble q mod 8 of packed row q / 8,
  minus the zero point and times the scale of group q / 128 — and the rest of the cache is as it was; the accumulator
  takes its old value plus the product of the input tile with the band just written; the output tile is overwritten
  whole with the accumulator as it then stands, whatever the tile held.
-/

set_option maxRecDepth 16384

noncomputable section

open scoped BigOperators

namespace Cert.KernelIdeal.Hand

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.Sem
open StoresAux

theorem storesE (c : Dev nD) (t : Fin cfg0.N) (hc1 : ¬cond1 (grid0.coords t)) (hc2 : k0_cond2 (grid0.coords t) = 1#1) (hc3 : k0_cond3 (grid0.coords t) = 1#1)
    (x0 : Vec Ideal S1024x1024 .bf16) (x1 : Vec Ideal S128x512 .i32) (x2 x3 : Vec Ideal S8x512 .f32) (xs8 : Vec Ideal S1024x512 .f32) (xs9 : Vec Ideal S4096x512 .bf16) :
    StoresLeave t x0 x1 x2 x3 xs8 xs9
      (scM0.view.read (Elt Ideal) (scM0.view.writes (Elt Ideal) (hsc0.unread xs8) (runE c (grid0.coords t) (ms0 t) (hs0 t) (ms1 t) (hs1 t) (ms2 t) (hs2 t) (ms3 t) (hs3 t) (ms4 t) (hs4 t) scM0 hsc0 scM1 hsc1 hc1 hc2 hc3 x0 x1 x2 x3 xs8 xs9).2.1))
      (scM1.view.read (Elt Ideal) (scM1.view.writes (Elt Ideal) (hsc1.unread xs9) (runE c (grid0.coords t) (ms0 t) (hs0 t) (ms1 t) (hs1 t) (ms2 t) (hs2 t) (ms3 t) (hs3 t) (ms4 t) (hs4 t) scM0 hsc0 scM1 hsc1 hc1 hc2 hc3 x0 x1 x2 x3 xs8 xs9).2.2.1))
      (fun xi7 => (ms4 t).view.read (Elt Ideal) ((ms4 t).view.writes (Elt Ideal) ((hs4 t).unread xi7) (runE c (grid0.coords t) (ms0 t) (hs0 t) (ms1 t) (hs1 t) (ms2 t) (hs2 t) (ms3 t) (hs3 t) (ms4 t) (hs4 t) scM0 hsc0 scM1 hsc1 hc1 hc2 hc3 x0 x1 x2 x3 xs8 xs9).1)) := by
  have ht0 : ¬ t.val % 4 = 0 := fun h => hc1 ((hcond1 t).mpr h)
  have ht1 : t.val / 4 % 8 = 0 := (hcond2 t).mp hc2
  have ht3 : t.val % 4 = 3 := (hcond3 t).mp hc3
  refine ⟨?acc, ?band, ?rest, ?keep, ?out, ?idle⟩
  case keep => intro h; exact absurd ht1 h
  case idle => intro h; exact absurd ht3 h
  case out =>
    intro _ xi7
    unfold runE; dsimp only; sl_unfold_run_names
    rw [read_last_whole _ _ hz, read_last_whole _ _ hz]
    exact View.readCov_cons_toLoadRect _ _ _ _
  case rest =>
    intro _ row col h
    unfold runE; dsimp only; sl_unfold_run_names
    rw [band_store_read_off t hc2 _ _ _ row col h, View.writes_nil, hsc1.read_unread]
  case band =>
    intro _ q col
    unfold runE; dsimp only; sl_unfold_run_names
    rw [band_store_read t hc2, Pay.pay2_apply, load_whole (ms1 t) (hs1 t) hz,
      load_whole (ms2 t) (hs2 t) hz, load_whole (ms3 t) (hs3 t) hz]
  case acc =>
    intro r col
    unfold runE; dsimp only; sl_unfold_run_names
    rw [read_last_whole scM0.view _ hz]
    rw [Pay.pay3_apply, load_whole scM0 hsc0 hz, if_neg ht0]
    refine congrArg (fun s => xs8 (ix2 r col) + s) (Finset.sum_congr rfl fun q _ => ?_)
    rw [load_whole (ms0 t) (hs0 t) hz, band_load_cov t hc2, band_store_read t hc2]

end Cert.KernelIdeal.Hand

end
-- ==== Proof.StoresF.lean ====
import proofs.«424847_j52561809769198_2_alg».proof.Proof.StoresAux
import Idealize.ShloMosaic.Lib.WritesUnit
import Idealize.ShloMosaic.Lib.Pipeline.Value
import Idealize.ShloMosaic.Lib.Pipeline.FrameBody

/-
  What the body's stores leave at the last feature tile of a later row tile. The accumulator takes its old value plus
  the product of the input tile with this feature tile's band of the weight cache, read as the first row tile left
  it (the cache is not stored into), and the output tile takes the new accumulator.
-/

set_option maxRecDepth 16384

noncomputable section

open scoped BigOperators

namespace Cert.KernelIdeal.Hand

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.Sem
open StoresAux

theorem storesF (c : Dev nD) (t : Fin cfg0.N) (hc1 : ¬cond1 (grid0.coords t)) (hc2 : ¬k0_cond2 (grid0.coords t) = 1#1) (hc3 : k0_cond3 (grid0.coords t) = 1#1)
    (x0 : Vec Ideal S1024x1024 .bf16) (x1 : Vec Ideal S128x512 .i32) (x2 x3 : Vec Ideal S8x512 .f32) (xs8 : Vec Ideal S1024x512 .f32) (xs9 : Vec Ideal S4096x512 .bf16) :
    StoresLeave t x0 x1 x2 x3 xs8 xs9
      (scM0.view.read (Elt Ideal) (scM0.view.writes (Elt Ideal) (hsc0.unread xs8) (runF c (grid0.coords t) (ms0 t) (hs0 t) (ms1 t) (hs1 t) (ms2 t) (hs2 t) (ms3 t) (hs3 t) (ms4 t) (hs4 t) scM0 hsc0 scM1 hsc1 hc1 hc2 hc3 x0 x1 x2 x3 xs8 xs9).2.1))
      (scM1.view.read (Elt Ideal) (scM1.view.writes (Elt Ideal) (hsc1.unread xs9) (runF c (grid0.coords t) (ms0 t) (hs0 t) (ms1 t) (hs1 t) (ms2 t) (hs2 t) (ms3 t) (hs3 t) (ms4 t) (hs4 t) scM0 hsc0 scM1 hsc1 hc1 hc2 hc3 x0 x1 x2 x3 xs8 xs9).2.2.1))
      (fun xi7 => (ms4 t).view.read (Elt Ideal) ((ms4 t).view.writes (Elt Ideal) ((hs4 t).unread xi7) (runF c (grid0.coords t) (ms0 t) (hs0 t) (ms1 t) (hs1 t) (ms2 t) (hs2 t) (ms3 t) (hs3 t) (ms4 t) (hs4 t) scM0 hsc0 scM1 hsc1 hc1 hc2 hc3 x0 x1 x2 x3 xs8 xs9).1)) := by
  have ht0 : ¬ t.val % 4 = 0 := fun h => hc1 ((hcond1 t).mpr h)
  have ht1 : ¬ t.val / 4 % 8 = 0 := fun h => hc2 ((hcond2 t).mpr h)
  have ht3 : t.val % 4 = 3 := (hcond3 t).mp hc3
  refine ⟨?acc, ?band, ?rest, ?keep, ?out, ?idle⟩
  case band => intro h; exact absurd h ht1
  case rest => intro h; exact absurd h ht1
  case idle => intro h; exact absurd ht3 h
  case keep =>
    intro _
    unfold runF; dsimp only
    rw [View.writes_nil]; exact hsc1.read_unread (Val := Elt Ideal) xs9
  case out =>
    intro _ xi7
    unfold runF; dsimp only; sl_unfold_run_names
    rw [read_last_whole (ms4 t).view _ hz, read_last_whole scM0.view _ hz, View.readCov_unit_zero (S := S1024x512) _ hz]
  case acc =>
    intro r col
    unfold runF; dsimp only; sl_unfold_run_names
    rw [View.writes_nil, hsc1.read_unread]
    rw [read_last_whole scM0.view _ hz]
    rw [Pay.pay3_apply, load_whole scM0 hsc0 hz, if_neg ht0]
    refine congrArg (fun s => xs8 (ix2 r col) + s) (Finset.sum_congr rfl fun q _ => ?_)
    rw [load_whole (ms0 t) (hs0 t) hz, band_load_nil]

end Cert.KernelIdeal.Hand

end
-- ==== Proof.ObligIdeal.lean ====
/-
  The body obligation of the idealized kernel's pipeline at every grid point: whichever way the body's three conditions
  fall there (the feature tile is not both the first and the last), that case's run and what its stores leave give the
  obligation (`sound_of_run`).
-/
import proofs.«424847_j52561809769198_2_alg».proof.Proof.StoresA
import proofs.«424847_j52561809769198_2_alg».proof.Proof.StoresB
import proofs.«424847_j52561809769198_2_alg».proof.Proof.StoresC
import proofs.«424847_j52561809769198_2_alg».proof.Proof.StoresD
import proofs.«424847_j52561809769198_2_alg».proof.Proof.StoresE
import proofs.«424847_j52561809769198_2_alg».proof.Proof.StoresF

set_option maxRecDepth 16384

noncomputable section

namespace Cert.KernelIdeal.Hand

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  refine sound_of_run m c t fun x1 x2 x3 xs8 xs9 => ?_
  by_cases hc1 : cond1 (grid0.coords t)
  · by_cases hc3 : k0_cond3 (grid0.coords t) = 1#1
    · exact absurd ((hcond3 t).mp hc3) (by have := (hcond1 t).mp hc1; omega)
    · by_cases hc2 : k0_cond2 (grid0.coords t) = 1#1
      · exact ⟨_, _, _, (runA c (grid0.coords t) (ms0 t) (hs0 t) (ms1 t) (hs1 t) (ms2 t) (hs2 t) (ms3 t) (hs3 t) (ms4 t) (hs4 t) scM0 hsc0 scM1 hsc1 hc1 hc2 hc3 (iblk m c 0 t) x1 x2 x3 xs8 xs9).2.2.2, storesA c t hc1 hc2 hc3 (iblk m c 0 t) x1 x2 x3 xs8 xs9⟩
      · exact ⟨_, _, _, (runB c (grid0.coords t) (ms0 t) (hs0 t) (ms1 t) (hs1 t) (ms2 t) (hs2 t) (ms3 t) (hs3 t) (ms4 t) (hs4 t) scM0 hsc0 scM1 hsc1 hc1 hc2 hc3 (iblk m c 0 t) x1 x2 x3 xs8 xs9).2.2.2, storesB c t hc1 hc2 hc3 (iblk m c 0 t) x1 x2 x3 xs8 xs9⟩
  · by_cases hc3 : k0_cond3 (grid0.coords t) = 1#1
    · by_cases hc2 : k0_cond2 (grid0.coords t) = 1#1
      · exact ⟨_, _, _, (runE c (grid0.coords t) (ms0 t) (hs0 t) (ms1 t) (hs1 t) (ms2 t) (hs2 t) (ms3 t) (hs3 t) (ms4 t) (hs4 t) scM0 hsc0 scM1 hsc1 hc1 hc2 hc3 (iblk m c 0 t) x1 x2 x3 xs8 xs9).2.2.2, storesE c t hc1 hc2 hc3 (iblk m c 0 t) x1 x2 x3 xs8 xs9⟩
      · exact ⟨_, _, _, (runF c (grid0.coords t) (ms0 t) (hs0 t) (ms1 t) (hs1 t) (ms2 t) (hs2 t) (ms3 t) (hs3 t) (ms4 t) (hs4 t) scM0 hsc0 scM1 hsc1 hc1 hc2 hc3 (iblk m c 0 t) x1 x2 x3 xs8 xs9).2.2.2, storesF c t hc1 hc2 hc3 (iblk m c 0 t) x1 x2 x3 xs8 xs9⟩
    · by_cases hc2 : k0_cond2 (grid0.coords t) = 1#1
      · exact ⟨_, _, _, (runC c (grid0.coords t) (ms0 t) (hs0 t) (ms1 t) (hs1 t) (ms2 t) (hs2 t) (ms3 t) (hs3 t) (ms4 t) (hs4 t) scM0 hsc0 scM1 hsc1 hc1 hc2 hc3 (iblk m c 0 t) x1 x2 x3 xs8 xs9).2.2.2, storesC c t hc1 hc2 hc3 (iblk m c 0 t) x1 x2 x3 xs8 xs9⟩
      · exact ⟨_, _, _, (runD c (grid0.coords t) (ms0 t) (hs0 t) (ms1 t) (hs1 t) (ms2 t) (hs2 t) (ms3 t) (hs3 t) (ms4 t) (hs4 t) scM0 hsc0 scM1 hsc1 hc1 hc2 hc3 (iblk m c 0 t) x1 x2 x3 xs8 xs9).2.2.2, storesD c t hc1 hc2 hc3 (iblk m c 0 t) x1 x2 x3 xs8 xs9⟩

/-- The library's body obligation, at every point. -/
theorem body_obligation (c : Dev nD) : BodyObligationLoose (dats m 0 c) (defs₀ (F := Ideal)) Variants.none () Set.univ := fun t => by
  rw [bigSep_W0, bigSep_W0]
  exact sound_body m c t

end Cert.KernelIdeal.Hand

end
-- ==== Proof.HostVals.lean ====
/-
  What the host operations leave in the two arrays the region reads besides its windows: the zero-point table is
  the chain of array operations applied to the packed table, and the converted activations are the activations
  themselves, a change of float format being the identity on the extended reals.
-/
import proofs.«424847_j52561809769198_2_alg».proof.Proof.Gen.KernelIdeal.Frame
import proofs.«424847_j52561809769198_2_alg».proof.Proof.Spec
import Idealize.ShloMosaic.Lib.StableHlo.Run

set_option maxRecDepth 16384

noncomputable section

namespace Cert.KernelIdeal.HostVals

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (c : Dev nD)

/-- The zero-point table as the region finds it: the chain of array operations applied to the packed table. -/
theorem V_z : (Gen.V (F := Ideal) m c main_v13 : S32x11008.Idx → EReal)
    = Cert.Spec.zChain (m ((c : Thread nD τ).loc main_arg2)) := by
  have e : (Gen.V (F := Ideal) m c main_v13 : S32x11008.Idx → EReal) = ?t := by
    dsimp only [Gen.V, Gen.hostOps0]
    after_results
  rw [e]
  rfl

/-- The converted activations as the region finds them: the activations as launched. -/
theorem V_x (j : S8192x4096.Idx) : (Gen.V (F := Ideal) m c main_v14 : S8192x4096.Idx → EReal) j
    = (m ((c : Thread nD τ).loc main_arg0) : S8192x4096.Idx → EReal) j := by
  have e : (Gen.V (F := Ideal) m c main_v14 : S8192x4096.Idx → EReal) = ?t := by
    dsimp only [Gen.V, Gen.hostOps0]
    after_results
  rw [e]
  rfl

end Cert.KernelIdeal.HostVals

end
-- ==== Proof.RunIdeal.lean ====
import proofs.«424847_j52561809769198_2_alg».proof.Proof.ObligIdeal
import proofs.«424847_j52561809769198_2_alg».proof.Proof.Blocks
import proofs.«424847_j52561809769198_2_alg».proof.Proof.HostVals
import Idealize.ShloMosaic.Lib.Pipeline.Value

/-
  The idealized kernel's launch and its final array. The launch hands the region the two scratch buffers at
  any contents, which is the invariant before the first grid point (nothing is asked there); after the last
  point the invariant is forgotten. The run then leaves every window's array at what the proof data computes:
  the result array, covered by the blocks written back at the last feature tile of each row and column block,
  each holding its block of the product, ends holding the product `x · W` of the activations with the
  dequantized weights — over the arrays as launched, the zero points being the shared chain applied to the
  packed table and the converted activations the activations themselves.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The launch: the invariant before the first point and after the last -/

/-- What the launch hands the region, with the scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Before the first point the invariant asks nothing of the scratch buffers' contents. -/
theorem hin (c : Dev nD) : Pipeline.ΦA spec0 c ⊢ (dats m 0 c).Φ 0 := by
  rw [Phi_eq, PhiA_eq]
  unfold PhiI
  iintro ⟨⟨⟨%A, HA⟩, ⟨%C, HC⟩⟩, Hg⟩
  iexists A, C
  isplitr
  · ipureintro; exact Cert.Spec.inv_zero _ _ A C
  isplitl [HA]
  · iexact HA
  isplitl [HC]
  · iexact HC
  iexact Hg

/-- After the last point the invariant and the scratch buffers' contents are forgotten. -/
theorem hout (c : Dev nD) : (dats m 0 c).Φ (Fin.last cfg0.N) ⊢ Pipeline.ΦA spec0 c := by
  rw [Phi_eq, PhiA_eq]
  unfold PhiI
  iintro ⟨%A, %C, -, HA, HC, Hg⟩
  isplitr [Hg]
  · isplitl [HA]
    · iexists _; iexact HA
    iexists _; iexact HC
  iexact Hg

/-! ## The run -/

set_option backward.isDefEq.respectTransparency.types false in
/-- At the compiled mesh, for any values, from any memory with zero counters: every weakly fair execution of @main on
    the TensorCores terminates, and every final state has every array of the pipeline at what the proof data computes
    and every other unscoped buffer as the region found it. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl)
    (howed := fun _ _ => rfl) (V := V m)
    (hmain := hmain m Variants.none) (hA := A_eq m) (hin := hin m) (hout := hout m)

/-! ## The final array -/

/-- The result array ends holding the product: each write-back writes its block of it, and the write-backs cover
    the array. -/
theorem final4 (c : Dev nD) : (dats m 0 c).arrAt 4 cfg0.N = GK m c :=
  (dats m 0 c).arrAt_eq_of_cover 4 (GK m c)
    (fun t _ => by
      show win0_4.cut (grid0.coords t) ((dats m 0 c).after 4 t) = _
      rw [after4]
      exact win0_4.cut_fill _ _ _)
    Blocks.cover4

/-- The product over the arrays as the region finds them is the product over the arrays as launched: the packed
    weights and the scales are as launched, the zero points are the shared chain applied to the packed table, the
    converted activations are the activations. -/
theorem GK_eq (c : Dev nD) :
    GK m c = Cert.Spec.G (m ((c.tc : Thread nD τ).loc main_arg0))
      (Cert.Spec.Wd (m ((c.tc : Thread nD τ).loc main_arg1)) (Cert.Spec.zChain (m ((c.tc : Thread nD τ).loc main_arg2)))
        (m ((c.tc : Thread nD τ).loc main_arg3))) := by
  have hx : xK m c = (m ((c.tc : Thread nD τ).loc main_arg0) : S8192x4096.Idx → EReal) := funext fun j => HostVals.V_x m c j
  have hq : qwK m c = (m ((c.tc : Thread nD τ).loc main_arg1) : S512x11008.Idx → BitVec 32) := V_main_arg1 m c
  have hz : zK m c = Cert.Spec.zChain (m ((c.tc : Thread nD τ).loc main_arg2)) := HostVals.V_z m c
  have hs : scK m c = (m ((c.tc : Thread nD τ).loc main_arg3) : S32x11008.Idx → EReal) := V_main_arg3 m c
  unfold GK WK
  rw [hx, hq, hz, hs]

/-! ## The value claim's run -/

/-- Every weakly fair execution of @main terminates with the result array at the product `x · W` of the launched
    activations with the dequantized launched weights, and the four argument arrays as launched. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15)
          = Cert.Spec.G (m ((c.tc : Thread nD τ).loc main_arg0)) (Cert.Spec.Wd (m ((c.tc : Thread nD τ).loc main_arg1)) (Cert.Spec.zChain (m ((c.tc : Thread nD τ).loc main_arg2))) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(((h c).1 4).trans (final4 m c)).trans (GK_eq m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c)))⟩)
    (run_main m ρ)

end Cert.KernelIdeal.Hand

end
-- ==== Proof.RefValue.lean ====
import proofs.«424847_j52561809769198_2_alg».proof.Proof.Gen.ReferenceIdeal.Run
import proofs.«424847_j52561809769198_2_alg».proof.Proof.Gen.ReferenceIdeal.Read
import proofs.«424847_j52561809769198_2_alg».proof.Proof.Spec
import Idealize.ShloMosaic.Lib.ValueIdx
import Idealize.ShloMosaic.Lib.Pipeline.Value
import Idealize.ShloMosaic.PureOps.Ideal.Laws

/-
  The reference program read as mathematics. Its zero-point stage is the shared chain of array operations;
  its dequantized weight, read at row `kk` and column `n`, is nibble `kk mod 8` of the packed word at row
  `kk / 8`, minus the zero point of group `kk / 128`, times that group's scale; and its result is the matrix
  product of the activations with that weight matrix, entry by entry a sum over the 4096 input features.
  The only arithmetic is the row-major bookkeeping of the reshapes: for `n < 11008`,
  `(kk · 11008 + n) / 88064 = kk / 8`, `(kk · 11008 + n) / 11008 mod 8 = kk mod 8`,
  `(kk · 11008 + n) mod 11008 = n` and `(kk · 11008 + n) / 1409024 = kk / 128`.
-/

noncomputable section

open scoped BigOperators

namespace Cert.ReferenceIdeal.RefValue

open Cert.ReferenceIdeal Cert.ReferenceIdeal.Read Idealize.ShloMosaic Idealize.ShloMosaic.ValueIdx

/-- the zero-point stage is the shared chain -/
theorem z_eq (x2 : (⟨S32x1376, .i32⟩ : BufTy).Contents (Elt Ideal)) : val_main_v22 (F := Ideal) x2 = Cert.Spec.zChain x2 := rfl

/-- The packed word read by the weight at `(kk, n)`: row `kk / 8`, column `n`. -/
theorem qw_idx (kk : Fin 4096) (n : Fin 11008) :
    idx_main_v3 (idx_main_v5 (idx_main_v10 (ix2 kk n))) = ix2 (⟨kk.val / 8, by omega⟩ : Fin 512) n := by
  funext a
  match a with
  | ⟨0, _⟩ => exact Fin.ext (by show (kk.val * 11008 + n.val) / 88064 = kk.val / 8; omega)
  | ⟨1, _⟩ => exact Fin.ext (by show (kk.val * 11008 + n.val) % 11008 = n.val; omega)

/-- The group read by the zero point at `(kk, n)`: row `kk / 128`, column `n`. -/
theorem z_idx (kk : Fin 4096) (n : Fin 11008) :
    idx_main_v23 (idx_main_v24 (ix2 kk n)) = ix2 (⟨kk.val / 128, by omega⟩ : Fin 32) n := by
  funext a
  match a with
  | ⟨0, _⟩ => exact Fin.ext (by show (kk.val * 11008 + n.val) / 1409024 = kk.val / 128; omega)
  | ⟨1, _⟩ => exact Fin.ext (by show (kk.val * 11008 + n.val) % 11008 = n.val; omega)

/-- The group read by the scale at `(kk, n)`: row `kk / 128`, column `n`. -/
theorem sc_idx (kk : Fin 4096) (n : Fin 11008) :
    idx_main_v25 (idx_main_v26 (ix2 kk n)) = ix2 (⟨kk.val / 128, by omega⟩ : Fin 32) n := by
  funext a
  match a with
  | ⟨0, _⟩ => exact Fin.ext (by show (kk.val * 11008 + n.val) / 1409024 = kk.val / 128; omega)
  | ⟨1, _⟩ => exact Fin.ext (by show (kk.val * 11008 + n.val) % 11008 = n.val; omega)

/-- The nibble selected at `(kk, n)`: number `kk mod 8`. -/
theorem nib_idx (kk : Fin 4096) (n : Fin 11008) :
    ((idx_main_v4 (idx_main_v6 (idx_main_v10 (ix2 kk n)))) 0).val = kk.val % 8 := by
  show (kk.val * 11008 + n.val) / 11008 % 8 = kk.val % 8
  omega

/-- the dequantized weight stage at an index -/
theorem w_apply (x1 : (⟨S512x11008, .i32⟩ : BufTy).Contents (Elt Ideal)) (x2 : (⟨S32x1376, .i32⟩ : BufTy).Contents (Elt Ideal)) (x3 : (⟨S32x11008, .f32⟩ : BufTy).Contents (Elt Ideal)) (kk : Fin 4096) (n : Fin 11008) :
    val_main_v28 (F := Ideal) x1 x2 x3 (ix2 kk n) = Cert.Spec.Wd x1 (Cert.Spec.zChain x2) x3 kk n := by
  rw [val_main_v28_apply, val_main_v27_apply, val_main_v26_apply, val_main_v25_apply, val_main_v24_apply,
    val_main_v23_apply, z_eq, val_main_v11_apply, val_main_v10_apply, val_main_v9_apply, val_main_v7_apply,
    val_main_v8_apply, val_main_c_0_apply, val_main_v5_apply, val_main_v3_apply, val_main_v6_apply,
    val_main_v4_apply, val_main_v2_apply, val_main_v0_apply, val_main_v1_apply, val_main_c_apply,
    qw_idx, z_idx, sc_idx, nib_idx]
  rw [show IntOp.muli (BitVec.ofNat 32 (kk.val % 8)) 4#32
        = Cert.Spec.sh (⟨kk.val % 8, Nat.mod_lt _ (by decide)⟩ : Fin 8) from rfl, Cert.Spec.shrsi_sh]
  rfl

/-- the reference's result is the product x · W -/
theorem ref_eq (x0 : (⟨S8192x4096, .f32⟩ : BufTy).Contents (Elt Ideal)) (x1 : (⟨S512x11008, .i32⟩ : BufTy).Contents (Elt Ideal)) (x2 : (⟨S32x1376, .i32⟩ : BufTy).Contents (Elt Ideal)) (x3 : (⟨S32x11008, .f32⟩ : BufTy).Contents (Elt Ideal)) :
    val_main_v29 (F := Ideal) x0 x1 x2 x3 = Cert.Spec.G x0 (Cert.Spec.Wd x1 (Cert.Spec.zChain x2) x3) := by
  funext i
  rw [val_main_v29_apply]
  show _ = ∑ kk : Fin 4096, x0 (ix2 (i 0) kk) * Cert.Spec.Wd x1 (Cert.Spec.zChain x2) x3 kk (i 1)
  refine Finset.sum_congr rfl fun k _ => ?_
  have el : lidx_main_v29 i k = ix2 (i 0) k := by
    funext a
    match a with
    | ⟨0, _⟩ => rfl
    | ⟨1, _⟩ => rfl
  have er : ridx_main_v29 i k = ix2 k (i 1) := by
    funext a
    match a with
    | ⟨0, _⟩ => rfl
    | ⟨1, _⟩ => rfl
  have hw := w_apply x1 x2 x3 k (i 1)
  exact congrArg₂ (· * ·) (congrArg x0 el) ((congrArg (val_main_v28 (F := Ideal) x1 x2 x3) er).trans hw)

end Cert.ReferenceIdeal.RefValue

end
-- ==== Proof.lean ====
/-
  The certificate of an int4 group-quantized linear layer: activations `x : f32[8192, 4096]` times a weight matrix
  `W : [4096, 11008]` that is stored packed — eight 4-bit nibbles per 32-bit word along the feature axis, one zero
  point and one scale per group of 128 features and per output column —
      W kk n = (float (nibble (kk mod 8) of qweight (kk / 8, n)) − z (kk / 128, n)) · scales (kk / 128, n),
  the zero points themselves unpacked from words packed along the output axis (`Cert.Spec`, Proof/Spec.lean).

  Both programs, read on the extended reals (floats exact, changes of float format the identity), compute the matrix
  product `x · W`, entry by entry `∑ kk < 4096, x (r, kk) · W (kk, n)` (`Cert.Spec.G`). The reference dequantizes the
  whole matrix and takes one product over the 4096 features. The kernel walks a 22 × 8 × 4 grid of column tiles, row
  tiles and feature tiles: it sums the 4096 features as four 1024-feature tiles into an accumulator, written out after
  the fourth, and it dequantizes each 1024 × 512 weight tile once, during the first row tile of a column tile, into a
  cache that the seven later row tiles re-use. That the four tile sums are the whole sum is the splitting of a finite
  sum into blocks: commutativity and associativity of `+` on the extended reals is all that is used, no subtraction
  and no distributivity, so nothing is asked of the infinities.

  The five conjuncts of the claim:
  • the kernel as printed runs — every weakly fair execution terminates, nothing faults — and leaves its four
    argument arrays unchanged;
  • the same of the kernel read on the extended reals, which here comes with the value: its result array ends at
    `G x (Wd qweight (zChain qzeros) scales)`;
  • the same of the reference read on the extended reals;
  • the kernel on the extended reals is the printed kernel's own text, no operation rewritten: nothing to preserve;
  • from memories that agree on the four arguments, the kernel and the reference on the extended reals end with EQUAL
    result arrays, each at `G x (Wd qweight (zChain qzeros) scales)`: the kernel's by its run along the grid
    (the invariant of Proof/Inv.lean carried from position to position), the reference's by reading its operations
    at an index (Proof/RefValue.lean).
-/
import proofs.«424847_j52561809769198_2_alg».proof.Defs
import proofs.«424847_j52561809769198_2_alg».proof.Proof.Gen.Kernel
import proofs.«424847_j52561809769198_2_alg».proof.Proof.Gen.Kernel.Skeleton
import proofs.«424847_j52561809769198_2_alg».proof.Proof.Gen.Kernel.Launch
import proofs.«424847_j52561809769198_2_alg».proof.Proof.Gen.Kernel.Points
import proofs.«424847_j52561809769198_2_alg».proof.Proof.Gen.Kernel.Frame
import proofs.«424847_j52561809769198_2_alg».proof.Proof.Gen.KernelIdeal
import proofs.«424847_j52561809769198_2_alg».proof.Proof.Gen.KernelIdeal.Skeleton
import proofs.«424847_j52561809769198_2_alg».proof.Proof.Gen.KernelIdeal.Launch
import proofs.«424847_j52561809769198_2_alg».proof.Proof.Gen.KernelIdeal.Points
import proofs.«424847_j52561809769198_2_alg».proof.Proof.Gen.KernelIdeal.Frame
import proofs.«424847_j52561809769198_2_alg».proof.Proof.Gen.ReferenceIdeal
import proofs.«424847_j52561809769198_2_alg».proof.Proof.Gen.Pre_finite_inputs
import proofs.«424847_j52561809769198_2_alg».proof.Proof.FrameBits
import proofs.«424847_j52561809769198_2_alg».proof.Proof.RunIdeal
import proofs.«424847_j52561809769198_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_p : Cert.frame_Kernel := fun m ρ _ => Cert.Kernel.Hand.frame (F := Bits) m ρ

/-- The kernel on the extended reals runs and leaves its arguments as launched: the frame half of its run to the value. -/
theorem frame_pi : Cert.frame_KernelIdeal := fun m ρ _ =>
  (θ_run Cert.KernelIdeal.defs _ _).mono (fun _ h c => (h c).2) (Cert.KernelIdeal.Hand.run_value m ρ)

/-- The reference on the extended reals runs and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- The kernel on the extended reals is the printed kernel's own text: no operation was rewritten. -/
theorem preserves : Cert.preserves_Kernel_KernelIdeal := trivial

/-- On the extended reals, from memories that agree on the arguments, both programs end at the one array
    `G x (Wd qweight (zChain qzeros) scales)`: the kernel by its run along the grid, the reference by its operations
    read at an index, the agreement of the arguments carrying the one onto the other. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (Cert.Spec.Wd (m ((c.tc : Thread Cert.KernelIdeal.nD Cert.KernelIdeal.τ).loc Cert.KernelIdeal.main_arg1))
        (Cert.Spec.zChain (m ((c.tc : Thread Cert.KernelIdeal.nD Cert.KernelIdeal.τ).loc Cert.KernelIdeal.main_arg2)))
        (m ((c.tc : Thread Cert.KernelIdeal.nD Cert.KernelIdeal.τ).loc Cert.KernelIdeal.main_arg3))),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v29_eq _ _ _ _).trans ((Cert.ReferenceIdeal.RefValue.ref_eq _ _ _ _).trans ?_)
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
